-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x512 : Shape := ⟨2, ![16384, 512]⟩
abbrev S327680x113 : Shape := ⟨2, ![327680, 113]⟩
abbrev S327680 : Shape := ⟨1, ![327680]⟩
abbrev S1024x1024 : Shape := ⟨2, ![1024, 1024]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S128x128 : Shape := ⟨2, ![128, 128]⟩
abbrev S64x241 : Shape := ⟨2, ![64, 241]⟩
abbrev S64 : Shape := ⟨1, ![64]⟩
abbrev S4x64 : Shape := ⟨2, ![4, 64]⟩
abbrev S4 : Shape := ⟨1, ![4]⟩
abbrev S1x4 : Shape := ⟨2, ![1, 4]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S327680x113 : S_.BroadcastsInDim S327680x113 (![] : Fin 0 → Fin S327680x113.rank)
  reducesTo_S327680x113_S_d0_1 : S327680x113.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x241 : S_.BroadcastsInDim S64x241 (![] : Fin 0 → Fin S64x241.rank)
  reducesTo_S64x241_S_d0_1 : S64x241.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_
  bcast_S_S327680 : S_.BroadcastsInDim S327680 (![] : Fin 0 → Fin S327680.rank)
  reducesTo_S327680_S_d0 : S327680.ReducesTo [0] S_

variable [Facts]

def fn_part5 {F : FTy → Type} [FloatOps F] (main_arg3 : IVec S327680 32) (main_v83 : IVec S_ 1) (main_v84 : IVec S327680 32) : IVec S_ 1 :=
  let main_v85 : IVec S327680 1 := cmpi .sge main_arg3 main_v84
  let main_c_33 : IVec S_ 32 := constantI S_ 32 16384#32
  let main_v86 : IVec S327680 32 := broadcastInDim S327680 ![] bcast_S_S327680 main_c_33
  let main_v87 : IVec S327680 1 := cmpi .slt main_arg3 main_v86
  let main_v88 : IVec S327680 1 := andi main_v85 main_v87
  let main_c_34 : IVec S_ 1 := constantI S_ 1 1#1
  let main_v89 : IVec S_ 1 := (fun x v => Host.reduce IntOp.andi x v reducesTo_S327680_S_d0 h_S_) main_v88 main_c_34
  let main_v90 : IVec S_ 1 := andi main_v83 main_v89
  main_v90

def fn_part4 {F : FTy → Type} [FloatOps F] (main_arg3 : IVec S327680 32) (main_arg15 : FVec F S4 .f32) (main_arg16 : FVec F S1x4 .f32) (main_arg17 : FVec F S1 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S1x4 .f32 := Host.absf main_arg16
  let main_cst_28 : FVec F S_ .f32 := constant S_ .f32 0x7F800000#32
  let main_v75 : FVec F S1x4 .f32 := broadcastInDim S1x4 ![] bcast_S_S1x4 main_cst_28
  let main_v76 : IVec S1x4 1 := cmpf .olt main_v74 main_v75
  let main_c_29 : IVec S_ 1 := constantI S_ 1 1#1
  let main_v77 : IVec S_ 1 := (fun x v => Host.reduce IntOp.andi x v reducesTo_S1x4_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 4294950912#32
  let main_v84 : IVec S327680 32 := broadcastInDim S327680 ![] bcast_S_S327680 main_c_32
  fn_part5 (F := F) main_arg3 main_v83 main_v84

def fn_part3 {F : FTy → Type} [FloatOps F] (main_arg3 : IVec S327680 32) (main_arg12 : FVec F S64x241 .f32) (main_arg13 : FVec F S64 .f32) (main_arg14 : FVec F S4x64 .f32) (main_arg15 : FVec F S4 .f32) (main_arg16 : FVec F S1x4 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x241 .f32 := Host.absf main_arg12
  let main_cst_20 : FVec F S_ .f32 := constant S_ .f32 0x7F800000#32
  let main_v55 : FVec F S64x241 .f32 := broadcastInDim S64x241 ![] bcast_S_S64x241 main_cst_20
  let main_v56 : IVec S64x241 1 := cmpf .olt main_v54 main_v55
  let main_c_21 : IVec S_ 1 := constantI S_ 1 1#1
  let main_v57 : IVec S_ 1 := (fun x v => Host.reduce IntOp.andi x v reducesTo_S64x241_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S4x64 .f32 := Host.absf main_arg14
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg3 main_arg15 main_arg16 main_arg17 main_v63 main_v67

def fn_part2 {F : FTy → Type} [FloatOps F] (main_arg3 : IVec S327680 32) (main_arg8 : FVec F S128x256 .f32) (main_arg9 : FVec F S128 .f32) (main_arg10 : FVec F S128x128 .f32) (main_arg11 : FVec F S128 .f32) (main_arg12 : FVec F S64x241 .f32) (main_arg13 : FVec F S64 .f32) (main_arg14 : FVec F S4x64 .f32) (main_arg15 : FVec F S4 .f32) (main_arg16 : FVec F S1x4 .f32) (main_arg17 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_arg12 main_arg13 main_arg14 main_arg15 main_arg16 main_arg17 main_v48 main_v49 main_v50

def fn_part1 {F : FTy → Type} [FloatOps F] (main_arg3 : IVec S327680 32) (main_arg5 : FVec F S1024x256 .f32) (main_arg6 : FVec F S1024 .f32) (main_arg7 : FVec F S1024 .f32) (main_arg8 : FVec F S128x256 .f32) (main_arg9 : FVec F S128 .f32) (main_arg10 : FVec F S128x128 .f32) (main_arg11 : FVec F S128 .f32) (main_arg12 : FVec F S64x241 .f32) (main_arg13 : FVec F S64 .f32) (main_arg14 : FVec F S4x64 .f32) (main_arg15 : FVec F S4 .f32) (main_arg16 : FVec F S1x4 .f32) (main_arg17 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_v33

def fn {F : FTy → Type} [FloatOps F] (main_arg0 : FVec F S16384x1024 .f32) (main_arg1 : FVec F S16384x512 .f32) (main_arg2 : FVec F S327680x113 .f32) (main_arg3 : IVec S327680 32) (main_arg4 : FVec F S1024x1024 .f32) (main_arg5 : FVec F S1024x256 .f32) (main_arg6 : FVec F S1024 .f32) (main_arg7 : FVec F S1024 .f32) (main_arg8 : FVec F S128x256 .f32) (main_arg9 : FVec F S128 .f32) (main_arg10 : FVec F S128x128 .f32) (main_arg11 : FVec F S128 .f32) (main_arg12 : FVec F S64x241 .f32) (main_arg13 : FVec F S64 .f32) (main_arg14 : FVec F S4x64 .f32) (main_arg15 : FVec F S4 .f32) (main_arg16 : FVec F S1x4 .f32) (main_arg17 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S327680x113 .f32 := Host.absf main_arg2
  let main_cst_2 : FVec F S_ .f32 := constant S_ .f32 0x7F800000#32
  let main_v10 : FVec F S327680x113 .f32 := broadcastInDim S327680x113 ![] bcast_S_S327680x113 main_cst_2
  let main_v11 : IVec S327680x113 1 := cmpf .olt main_v9 main_v10
  let main_c_3 : IVec S_ 1 := constantI S_ 1 1#1
  let main_v12 : IVec S_ 1 := (fun x v => Host.reduce IntOp.andi x v reducesTo_S327680x113_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg3 main_arg5 main_arg6 main_arg7 main_arg8 main_arg9 main_arg10 main_arg11 main_arg12 main_arg13 main_arg14 main_arg15 main_arg16 main_arg17 main_v13 main_v16
-- ==== Kernel.lean ====
abbrev S16384x1024 : Shape := ⟨2, ![16384, 1024]⟩
abbrev S16384x512 : Shape := ⟨2, ![16384, 512]⟩
abbrev S327680x113 : Shape := ⟨2, ![327680, 113]⟩
abbrev S327680 : Shape := ⟨1, ![327680]⟩
abbrev S1024x1024 : Shape := ⟨2, ![1024, 1024]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S128x128 : Shape := ⟨2, ![128, 128]⟩
abbrev S64x241 : Shape := ⟨2, ![64, 241]⟩
abbrev S64 : Shape := ⟨1, ![64]⟩
abbrev S4x64 : Shape := ⟨2, ![4, 64]⟩
abbrev S4 : Shape := ⟨1, ![4]⟩
abbrev S1x4 : Shape := ⟨2, ![1, 4]⟩
abbrev S1 : Shape := ⟨1, ![1]⟩
abbrev S256x1024 : Shape := ⟨2, ![256, 1024]⟩
abbrev S256x128 : Shape := ⟨2, ![256, 128]⟩
abbrev S64x113 : Shape := ⟨2, ![64, 113]⟩
abbrev S64x128 : Shape := ⟨2, ![64, 128]⟩
abbrev S113x64 : Shape := ⟨2, ![113, 64]⟩
abbrev S128x64 : Shape := ⟨2, ![128, 64]⟩
abbrev S64x4 : Shape := ⟨2, ![64, 4]⟩
abbrev S4x1 : Shape := ⟨2, ![4, 1]⟩
abbrev S1x1024 : Shape := ⟨2, ![1, 1024]⟩
abbrev S1x128 : Shape := ⟨2, ![1, 128]⟩
abbrev S1x64 : Shape := ⟨2, ![1, 64]⟩
abbrev S1x1 : Shape := ⟨2, ![1, 1]⟩
abbrev S16384x64 : Shape := ⟨2, ![16384, 64]⟩
abbrev S1024x512 : Shape := ⟨2, ![1024, 512]⟩
abbrev S1024x64 : Shape := ⟨2, ![1024, 64]⟩
abbrev S1024x128 : Shape := ⟨2, ![1024, 128]⟩
abbrev S_ : Shape := ⟨0, ![]⟩
abbrev S327680x1 : Shape := ⟨2, ![327680, 1]⟩
abbrev S327680x64 : Shape := ⟨2, ![327680, 64]⟩
abbrev S16384x113 : Shape := ⟨2, ![16384, 113]⟩
abbrev S16384x1 : Shape := ⟨2, ![16384, 1]⟩
abbrev S16384x4 : Shape := ⟨2, ![16384, 4]⟩

abbrev nBuf : Space → Nat
  | .hbm => 61
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S327680x113, .f32⟩
  | .hbm, ⟨3, _⟩ => ⟨S327680, .i32⟩
  | .hbm, ⟨4, _⟩ => ⟨S1024x1024, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S64x241, .f32⟩
  | .hbm, ⟨13, _⟩ => ⟨S64, .f32⟩
  | .hbm, ⟨14, _⟩ => ⟨S4x64, .f32⟩
  | .hbm, ⟨15, _⟩ => ⟨S4, .f32⟩
  | .hbm, ⟨16, _⟩ => ⟨S1x4, .f32⟩
  | .hbm, ⟨17, _⟩ => ⟨S1, .f32⟩
  | .hbm, ⟨18, _⟩ => ⟨S1024x1024, .f32⟩
  | .hbm, ⟨19, _⟩ => ⟨S256x1024, .f32⟩
  | .hbm, ⟨20, _⟩ => ⟨S256x128, .f32⟩
  | .hbm, ⟨21, _⟩ => ⟨S128x128, .f32⟩
  | .hbm, ⟨22, _⟩ => ⟨S64x113, .f32⟩
  | .hbm, ⟨23, _⟩ => ⟨S64x128, .f32⟩
  | .hbm, ⟨24, _⟩ => ⟨S113x64, .f32⟩
  | .hbm, ⟨25, _⟩ => ⟨S128x64, .f32⟩
  | .hbm, ⟨26, _⟩ => ⟨S64x4, .f32⟩
  | .hbm, ⟨27, _⟩ => ⟨S4x1, .f32⟩
  | .hbm, ⟨28, _⟩ => ⟨S1x1024, .f32⟩
  | .hbm, ⟨29, _⟩ => ⟨S1x1024, .f32⟩
  | .hbm, ⟨30, _⟩ => ⟨S1x128, .f32⟩
  | .hbm, ⟨31, _⟩ => ⟨S1x128, .f32⟩
  | .hbm, ⟨32, _⟩ => ⟨S1x64, .f32⟩
  | .hbm, ⟨33, _⟩ => ⟨S1x4, .f32⟩
  | .hbm, ⟨34, _⟩ => ⟨S1x1, .f32⟩
  | .hbm, ⟨35, _⟩ => ⟨S16384x512, .f32⟩
  | .hbm, ⟨36, _⟩ => ⟨S16384x64, .f32⟩
  | .hbm, ⟨37, _⟩ => ⟨S_, .i32⟩
  | .hbm, ⟨38, _⟩ => ⟨S327680, .i32⟩
  | .hbm, ⟨39, _⟩ => ⟨S327680, .i1⟩
  | .hbm, ⟨40, _⟩ => ⟨S_, .i32⟩
  | .hbm, ⟨41, _⟩ => ⟨S327680, .i32⟩
  | .hbm, ⟨42, _⟩ => ⟨S327680, .i32⟩
  | .hbm, ⟨43, _⟩ => ⟨S327680, .i32⟩
  | .hbm, ⟨44, _⟩ => ⟨S327680x1, .i32⟩
  | .hbm, ⟨45, _⟩ => ⟨S1, .i32⟩
  | .hbm, ⟨46, _⟩ => ⟨S_, .i32⟩
  | .hbm, ⟨47, _⟩ => ⟨S327680x1, .i32⟩
  | .hbm, ⟨48, _⟩ => ⟨S327680x1, .i1⟩
  | .hbm, ⟨49, _⟩ => ⟨S1x1, .i32⟩
  | .hbm, ⟨50, _⟩ => ⟨S327680x1, .i32⟩
  | .hbm, ⟨51, _⟩ => ⟨S327680x1, .i1⟩
  | .hbm, ⟨52, _⟩ => ⟨S327680x1, .i1⟩
  | .hbm, ⟨53, _⟩ => ⟨S_, .i1⟩
  | .hbm, ⟨54, _⟩ => ⟨S327680, .i1⟩
  | .hbm, ⟨55, _⟩ => ⟨S327680x64, .f32⟩
  | .hbm, ⟨56, _⟩ => ⟨S327680x64, .i1⟩
  | .hbm, ⟨57, _⟩ => ⟨S_, .f32⟩
  | .hbm, ⟨58, _⟩ => ⟨S327680x64, .f32⟩
  | .hbm, ⟨59, _⟩ => ⟨S327680x64, .f32⟩
  | .hbm, ⟨60, _⟩ => ⟨S327680x1, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x64, .f32⟩
  | .local _ .vmem, ⟨13, _⟩ => ⟨S1024x512, .f32⟩
  | .local _ .vmem, ⟨14, _⟩ => ⟨S1024x512, .f32⟩
  | .local _ .vmem, ⟨15, _⟩ => ⟨S1024x64, .f32⟩
  | .local _ .vmem, ⟨16, _⟩ => ⟨S1024x64, .f32⟩
  | .local _ .vmem, ⟨17, _⟩ => ⟨S16384x113, .f32⟩
  | .local _ .vmem, ⟨18, _⟩ => ⟨S16384x113, .f32⟩
  | .local _ .vmem, ⟨19, _⟩ => ⟨S16384x64, .f32⟩
  | .local _ .vmem, ⟨20, _⟩ => ⟨S16384x64, .f32⟩
  | .local _ .vmem, ⟨21, _⟩ => ⟨S113x64, .f32⟩
  | .local _ .vmem, ⟨22, _⟩ => ⟨S1x64, .f32⟩
  | .local _ .vmem, ⟨23, _⟩ => ⟨S64x4, .f32⟩
  | .local _ .vmem, ⟨24, _⟩ => ⟨S1x4, .f32⟩
  | .local _ .vmem, ⟨25, _⟩ => ⟨S4x1, .f32⟩
  | .local _ .vmem, ⟨26, _⟩ => ⟨S1x1, .f32⟩
  | .local _ .vmem, ⟨27, _⟩ => ⟨S16384x1, .f32⟩
  | .local _ .vmem, ⟨28, _⟩ => ⟨S16384x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v18 : Ref sig .tc := ⟨.hbm, 59, rfl⟩
abbrev main_v19 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x113 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S113x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S16384x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S1024x1024_S1024x1024_1_0 : S1024x1024.Transposes [1, 0] S1024x1024
  transposes_S1024x256_S256x1024_1_0 : S1024x256.Transposes [1, 0] S256x1024
  transposes_S128x256_S256x128_1_0 : S128x256.Transposes [1, 0] S256x128
  transposes_S128x128_S128x128_1_0 : S128x128.Transposes [1, 0] S128x128
  slices_S64x241_S64x113_0_0 : S64x241.Slices ![0, 0] S64x113
  slices_S64x241_S64x128_0_113 : S64x241.Slices ![0, 113] S64x128
  transposes_S64x113_S113x64_1_0 : S64x113.Transposes [1, 0] S113x64
  transposes_S64x128_S128x64_1_0 : S64x128.Transposes [1, 0] S128x64
  transposes_S4x64_S64x4_1_0 : S4x64.Transposes [1, 0] S64x4
  transposes_S1x4_S4x1_1_0 : S1x4.Transposes [1, 0] S4x1
  shapeCasts_S1024_S1x1024 : S1024.ShapeCasts S1x1024
  shapeCasts_S128_S1x128 : S128.ShapeCasts S1x128
  shapeCasts_S64_S1x64 : S64.ShapeCasts S1x64
  shapeCasts_S4_S1x4 : S4.ShapeCasts S1x4
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1024x512_S1024x256_0_0 : ∀ a, (![0, 0] : Fin 2 → Nat) a + S1024x256.size a ≤ S1024x512.size a
  h_S1024x256 : 0 < S1024x256.numel
  inb_S1024x512_S1024x256_0_256 : ∀ a, (![0, 256] : Fin 2 → Nat) a + S1024x256.size a ≤ S1024x512.size a
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1024x64_S1024x64_0_0 : ∀ a, (![0, 0] : Fin 2 → Nat) a + S1024x64.size a ≤ S1024x64.size a
  h_S1024x64 : 0 < S1024x64.numel
  bcast_S_S327680 : S_.BroadcastsInDim S327680 (![] : Fin 0 → Fin S327680.rank)
  bcast_S327680_S327680x1_0 : S327680.BroadcastsInDim S327680x1 (![0] : Fin 1 → Fin S327680x1.rank)
  bcast_S_S327680x1 : S_.BroadcastsInDim S327680x1 (![] : Fin 0 → Fin S327680x1.rank)
  bcast_S1_S1x1_1 : S1.BroadcastsInDim S1x1 (![1] : Fin 1 → Fin S1x1.rank)
  bcast_S1x1_S327680x1_0_1 : S1x1.BroadcastsInDim S327680x1 (![0, 1] : Fin 2 → Fin S327680x1.rank)
  reducesTo_S327680x1_S327680_d1 : S327680x1.ReducesTo [1] S327680
  h_S_ : 0 < S_.numel
  bcast_S327680_S327680x64_0 : S327680.BroadcastsInDim S327680x64 (![0] : Fin 1 → Fin S327680x64.rank)
  bcast_S_S327680x64 : S_.BroadcastsInDim S327680x64 (![] : Fin 0 → Fin S327680x64.rank)
  inb_S16384x113_S16384x113_0_0 : ∀ a, (![0, 0] : Fin 2 → Nat) a + S16384x113.size a ≤ S16384x113.size a
  h_S16384x113 : 0 < S16384x113.numel
  inb_S113x64_S113x64_0_0 : ∀ a, (![0, 0] : Fin 2 → Nat) a + S113x64.size a ≤ S113x64.size a
  h_S113x64 : 0 < S113x64.numel
  shapeCasts_S113x64_S113x64 : S113x64.ShapeCasts S113x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S16384x4 : S1x4.Broadcasts S16384x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  gather_S16384x64_S327680x1_S327680x64_1_0_n_n_0_1_164_wf : GatherDims.WF S16384x64 S327680x1 S327680x64 [1] [0] [] [0] [] 1 ![1, 64]
  dot_S16384x113_S113x64_S16384x64_1_0_0_1_n_n_wf : DotDims.WF S16384x113 S113x64 S16384x64 [1] [0] [0] [1] [] []
  dot_S16384x64_S64x4_S16384x4_1_0_0_1_n_n_wf : DotDims.WF S16384x64 S64x4 S16384x4 [1] [0] [0] [1] [] []
  dot_S16384x4_S4x1_S16384x1_1_0_0_1_n_n_wf : DotDims.WF S16384x4 S4x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x64.size a ≤ S16384x64.size a
  hwx0_12 : ∀ i : grid0.Coords, EltTy.bits .f32 = 32 ∨ (Rect.block (s := S16384x64) S1024x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x113.size a ≤ S327680x113.size a
  hwx1_0 : ∀ i : grid1.Coords, EltTy.bits .f32 = 32 ∨ (Rect.block (s := S327680x113) S16384x113.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S327680x64.size a
  hwx1_1 : ∀ i : grid1.Coords, EltTy.bits .f32 = 32 ∨ (Rect.block (s := S327680x64) S16384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S113x64.size a ≤ S113x64.size a
  hwx1_2 : ∀ i : grid1.Coords, EltTy.bits .f32 = 32 ∨ (Rect.block (s := S113x64) S113x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x4.size a ≤ S64x4.size a
  hwx1_4 : ∀ i : grid1.Coords, EltTy.bits .f32 = 32 ∨ (Rect.block (s := S64x4) S64x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4.size a ≤ S1x4.size a
  hwx1_5 : ∀ i : grid1.Coords, EltTy.bits .f32 = 32 ∨ (Rect.block (s := S1x4) S1x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x1.size a ≤ S4x1.size a
  hwx1_6 : ∀ i : grid1.Coords, EltTy.bits .f32 = 32 ∨ (Rect.block (s := S4x1) S4x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S16384x1.size a ≤ S327680x1.size a
  hwx1_8 : ∀ i : grid1.Coords, EltTy.bits .f32 = 32 ∨ (Rect.block (s := S327680x1) S16384x1.size (cc1_transform_8 i) (hinb1_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S16384x64_S327680x1_S327680x64_1_0_n_n_0_1_164 : GatherDims S16384x64 S327680x1 S327680x64 where
  offsetDims := [1]
  collapsedSliceDims := [0]
  operandBatchingDims := []
  startIndicesBatchingDims := []
  startIndexMap := [0]
  indexVectorDim := 1
  sliceSizes := ![1, 64]
  wf := gather_S16384x64_S327680x1_S327680x64_1_0_n_n_0_1_164_wf
def dot_S16384x113_S113x64_S16384x64_1_0_0_1_n_n : DotDims S16384x113 S113x64 S16384x64 where
  lhsContracting := [1]
  rhsContracting := [0]
  lhsNonContracting := [0]
  rhsNonContracting := [1]
  lhsBatch := []
  rhsBatch := []
  wf := dot_S16384x113_S113x64_S16384x64_1_0_0_1_n_n_wf
def dot_S16384x64_S64x4_S16384x4_1_0_0_1_n_n : DotDims S16384x64 S64x4 S16384x4 where
  lhsContracting := [1]
  rhsContracting := [0]
  lhsNonContracting := [0]
  rhsNonContracting := [1]
  lhsBatch := []
  rhsBatch := []
  wf := dot_S16384x64_S64x4_S16384x4_1_0_0_1_n_n_wf
def dot_S16384x4_S4x1_S16384x1_1_0_0_1_n_n : DotDims S16384x4 S4x1 S16384x1 where
  lhsContracting := [1]
  rhsContracting := [0]
  lhsNonContracting := [0]
  rhsNonContracting := [1]
  lhsBatch := []
  rhsBatch := []
  wf := dot_S16384x4_S4x1_S16384x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17_0) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17_1) S1024x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg2) S16384x113.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S113x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S4x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S16384x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384x512 : Shape := ⟨2, ![16384, 512]⟩
abbrev S327680x113 : Shape := ⟨2, ![327680, 113]⟩
abbrev S327680 : Shape := ⟨1, ![327680]⟩
abbrev S1024x1024 : Shape := ⟨2, ![1024, 1024]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S128x128 : Shape := ⟨2, ![128, 128]⟩
abbrev S64x241 : Shape := ⟨2, ![64, 241]⟩
abbrev S64 : Shape := ⟨1, ![64]⟩
abbrev S4x64 : Shape := ⟨2, ![4, 64]⟩
abbrev S4 : Shape := ⟨1, ![4]⟩
abbrev S1x4 : Shape := ⟨2, ![1, 4]⟩
abbrev S1 : Shape := ⟨1, ![1]⟩
abbrev S16384x256 : Shape := ⟨2, ![16384, 256]⟩
abbrev S1x1024 : Shape := ⟨2, ![1, 1024]⟩
abbrev S256x1024 : Shape := ⟨2, ![256, 1024]⟩
abbrev S_ : Shape := ⟨0, ![]⟩
abbrev S256x128 : Shape := ⟨2, ![256, 128]⟩
abbrev S16384x128 : Shape := ⟨2, ![16384, 128]⟩
abbrev S1x128 : Shape := ⟨2, ![1, 128]⟩
abbrev S327680x1 : Shape := ⟨2, ![327680, 1]⟩
abbrev S327680x128 : Shape := ⟨2, ![327680, 128]⟩
abbrev S327680x241 : Shape := ⟨2, ![327680, 241]⟩
abbrev S241x64 : Shape := ⟨2, ![241, 64]⟩
abbrev S327680x64 : Shape := ⟨2, ![327680, 64]⟩
abbrev S1x64 : Shape := ⟨2, ![1, 64]⟩
abbrev S64x4 : Shape := ⟨2, ![64, 4]⟩
abbrev S327680x4 : Shape := ⟨2, ![327680, 4]⟩
abbrev S4x1 : Shape := ⟨2, ![4, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S327680x113, .f32⟩
  | .hbm, ⟨3, _⟩ => ⟨S327680, .i32⟩
  | .hbm, ⟨4, _⟩ => ⟨S1024x1024, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S64x241, .f32⟩
  | .hbm, ⟨13, _⟩ => ⟨S64, .f32⟩
  | .hbm, ⟨14, _⟩ => ⟨S4x64, .f32⟩
  | .hbm, ⟨15, _⟩ => ⟨S4, .f32⟩
  | .hbm, ⟨16, _⟩ => ⟨S1x4, .f32⟩
  | .hbm, ⟨17, _⟩ => ⟨S1, .f32⟩
  | .hbm, ⟨18, _⟩ => ⟨S16384x256, .f32⟩
  | .hbm, ⟨19, _⟩ => ⟨S16384x256, .f32⟩
  | .hbm, ⟨20, _⟩ => ⟨S1024x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S256x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S_, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S_, .f32⟩
  | .hbm, ⟨55, _⟩ => ⟨S16384x256, .f32⟩
  | .hbm, ⟨56, _⟩ => ⟨S16384x256, .f32⟩
  | .hbm, ⟨57, _⟩ => ⟨S_, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S256x128, .f32⟩
  | .hbm, ⟨66, _⟩ => ⟨S16384x128, .f32⟩
  | .hbm, ⟨67, _⟩ => ⟨S1x128, .f32⟩
  | .hbm, ⟨68, _⟩ => ⟨S16384x128, .f32⟩
  | .hbm, ⟨69, _⟩ => ⟨S16384x128, .f32⟩
  | .hbm, ⟨70, _⟩ => ⟨S_, .f32⟩
  | .hbm, ⟨71, _⟩ => ⟨S16384x128, .f32⟩
  | .hbm, ⟨72, _⟩ => ⟨S16384x128, .f32⟩
  | .hbm, ⟨73, _⟩ => ⟨S128x128, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384x128, .f32⟩
  | .hbm, ⟨80, _⟩ => ⟨S16384x128, .f32⟩
  | .hbm, ⟨81, _⟩ => ⟨S_, .i32⟩
  | .hbm, ⟨82, _⟩ => ⟨S327680, .i32⟩
  | .hbm, ⟨83, _⟩ => ⟨S327680, .i1⟩
  | .hbm, ⟨84, _⟩ => ⟨S_, .i32⟩
  | .hbm, ⟨85, _⟩ => ⟨S327680, .i32⟩
  | .hbm, ⟨86, _⟩ => ⟨S327680, .i32⟩
  | .hbm, ⟨87, _⟩ => ⟨S327680, .i32⟩
  | .hbm, ⟨88, _⟩ => ⟨S327680x1, .i32⟩
  | .hbm, ⟨89, _⟩ => ⟨S327680x128, .f32⟩
  | .hbm, ⟨90, _⟩ => ⟨S327680x241, .f32⟩
  | .hbm, ⟨91, _⟩ => ⟨S241x64, .f32⟩
  | .hbm, ⟨92, _⟩ => ⟨S327680x64, .f32⟩
  | .hbm, ⟨93, _⟩ => ⟨S1x64, .f32⟩
  | .hbm, ⟨94, _⟩ => ⟨S327680x64, .f32⟩
  | .hbm, ⟨95, _⟩ => ⟨S327680x64, .f32⟩
  | .hbm, ⟨96, _⟩ => ⟨S_, .f32⟩
  | .hbm, ⟨97, _⟩ => ⟨S327680x64, .f32⟩
  | .hbm, ⟨98, _⟩ => ⟨S327680x64, .f32⟩
  | .hbm, ⟨99, _⟩ => ⟨S64x4, .f32⟩
  | .hbm, ⟨100, _⟩ => ⟨S327680x4, .f32⟩
  | .hbm, ⟨101, _⟩ => ⟨S1x4, .f32⟩
  | .hbm, ⟨102, _⟩ => ⟨S327680x4, .f32⟩
  | .hbm, ⟨103, _⟩ => ⟨S327680x4, .f32⟩
  | .hbm, ⟨104, _⟩ => ⟨S_, .f32⟩
  | .hbm, ⟨105, _⟩ => ⟨S327680x4, .f32⟩
  | .hbm, ⟨106, _⟩ => ⟨S327680x4, .f32⟩
  | .hbm, ⟨107, _⟩ => ⟨S4x1, .f32⟩
  | .hbm, ⟨108, _⟩ => ⟨S327680x1, .f32⟩
  | .hbm, ⟨109, _⟩ => ⟨S1x1, .f32⟩
  | .hbm, ⟨110, _⟩ => ⟨S327680x1, .f32⟩
  | .hbm, ⟨111, _⟩ => ⟨S327680x1, .f32⟩
  | .hbm, ⟨112, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call0_cst : Ref sig .tc := ⟨.hbm, 70, rfl⟩
abbrev main_call0_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_cst : Ref sig .tc := ⟨.hbm, 78, rfl⟩
abbrev main_call1_v0 : Ref sig .tc := ⟨.hbm, 79, rfl⟩
abbrev main_v52 : Ref sig .tc := ⟨.hbm, 80, rfl⟩
abbrev main_c : Ref sig .tc := ⟨.hbm, 81, rfl⟩
abbrev main_v53 : Ref sig .tc := ⟨.hbm, 82, rfl⟩
abbrev main_v54 : Ref sig .tc := ⟨.hbm, 83, rfl⟩
abbrev main_c_5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  slices_S16384x512_S16384x256_0_0 : S16384x512.Slices ![0, 0] S16384x256
  slices_S16384x512_S16384x256_0_256 : S16384x512.Slices ![0, 256] S16384x256
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S128x128_S128x128_1_0 : S128x128.Transposes [1, 0] S128x128
  bcast_S_S327680 : S_.BroadcastsInDim S327680 (![] : Fin 0 → Fin S327680.rank)
  bcast_S327680_S327680x1_0 : S327680.BroadcastsInDim S327680x1 (![0] : Fin 1 → Fin S327680x1.rank)
  concatenates_S327680x113_S327680x128_S327680x241_d1 : Shape.Concatenates [S327680x113, S327680x128] S327680x241 1
  transposes_S64x241_S241x64_1_0 : S64x241.Transposes [1, 0] S241x64
  bcast_S64_S1x64_1 : S64.BroadcastsInDim S1x64 (![1] : Fin 1 → Fin S1x64.rank)
  bcast_S1x64_S327680x64_0_1 : S1x64.BroadcastsInDim S327680x64 (![0, 1] : Fin 2 → Fin S327680x64.rank)
  bcast_S_S327680x64 : S_.BroadcastsInDim S327680x64 (![] : Fin 0 → Fin S327680x64.rank)
  transposes_S4x64_S64x4_1_0 : S4x64.Transposes [1, 0] S64x4
  bcast_S4_S1x4_1 : S4.BroadcastsInDim S1x4 (![1] : Fin 1 → Fin S1x4.rank)
  bcast_S1x4_S327680x4_0_1 : S1x4.BroadcastsInDim S327680x4 (![0, 1] : Fin 2 → Fin S327680x4.rank)
  bcast_S_S327680x4 : S_.BroadcastsInDim S327680x4 (![] : Fin 0 → Fin S327680x4.rank)
  transposes_S1x4_S4x1_1_0 : S1x4.Transposes [1, 0] S4x1
  bcast_S1_S1x1_1 : S1.BroadcastsInDim S1x1 (![1] : Fin 1 → Fin S1x1.rank)
  bcast_S1x1_S327680x1_0_1 : S1x1.BroadcastsInDim S327680x1 (![0, 1] : Fin 2 → Fin S327680x1.rank)
  concatenates_S16384x256_S16384x256_S16384x512_d1 : Shape.Concatenates [S16384x256, S16384x256] S16384x512 1
  dot_S16384x1024_S1024x1024_S16384x1024_1_0_0_1_n_n_wf : DotDims.WF S16384x1024 S1024x1024 S16384x1024 [1] [0] [0] [1] [] []
  dot_S16384x256_S256x1024_S16384x1024_1_0_0_1_n_n_wf : DotDims.WF S16384x256 S256x1024 S16384x1024 [1] [0] [0] [1] [] []
  dot_S16384x256_S256x128_S16384x128_1_0_0_1_n_n_wf : DotDims.WF S16384x256 S256x128 S16384x128 [1] [0] [0] [1] [] []
  dot_S16384x128_S128x128_S16384x128_1_0_0_1_n_n_wf : DotDims.WF S16384x128 S128x128 S16384x128 [1] [0] [0] [1] [] []
  gather_S16384x128_S327680x1_S327680x128_1_0_n_n_0_1_1128_wf : GatherDims.WF S16384x128 S327680x1 S327680x128 [1] [0] [] [0] [] 1 ![1, 128]
  dot_S327680x241_S241x64_S327680x64_1_0_0_1_n_n_wf : DotDims.WF S327680x241 S241x64 S327680x64 [1] [0] [0] [1] [] []
  dot_S327680x64_S64x4_S327680x4_1_0_0_1_n_n_wf : DotDims.WF S327680x64 S64x4 S327680x4 [1] [0] [0] [1] [] []
  dot_S327680x4_S4x1_S327680x1_1_0_0_1_n_n_wf : DotDims.WF S327680x4 S4x1 S327680x1 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16384x128_S327680x1_S327680x128_1_0_n_n_0_1_1128 : GatherDims S16384x128 S327680x1 S327680x128 where
  offsetDims := [1]
  collapsedSliceDims := [0]
  operandBatchingDims := []
  startIndicesBatchingDims := []
  startIndexMap := [0]
  indexVectorDim := 1
  sliceSizes := ![1, 128]
  wf := gather_S16384x128_S327680x1_S327680x128_1_0_n_n_0_1_1128_wf
def dot_S327680x241_S241x64_S327680x64_1_0_0_1_n_n : DotDims S327680x241 S241x64 S327680x64 where
  lhsContracting := [1]
  rhsContracting := [0]
  lhsNonContracting := [0]
  rhsNonContracting := [1]
  lhsBatch := []
  rhsBatch := []
  wf := dot_S327680x241_S241x64_S327680x64_1_0_0_1_n_n_wf
def dot_S327680x64_S64x4_S327680x4_1_0_0_1_n_n : DotDims S327680x64 S64x4 S327680x4 where
  lhsContracting := [1]
  rhsContracting := [0]
  lhsNonContracting := [0]
  rhsNonContracting := [1]
  lhsBatch := []
  rhsBatch := []
  wf := dot_S327680x64_S64x4_S327680x4_1_0_0_1_n_n_wf
def dot_S327680x4_S4x1_S327680x1_1_0_0_1_n_n : DotDims S327680x4 S4x1 S327680x1 where
  lhsContracting := [1]
  rhsContracting := [0]
  lhsNonContracting := [0]
  rhsNonContracting := [1]
  lhsBatch := []
  rhsBatch := []
  wf := dot_S327680x4_S4x1_S327680x1_1_0_0_1_n_n_wf

class Facts : Prop extends Facts₀ where

variable [Facts]
-- ==== Proof.IndexRange.lean ====
/-
  The precondition, read at one action: every float argument finite (not used here) and every action's index word in
  `-16384 ≤ i < 16384`, the range in which indexing 16384 state rows is defined (a negative index counts from the end).
-/
import proofs.«428442_j20916490732073_1_alg».proof.Defs
import Idealize.ShloMosaic.Lib.ValueIdx
import Idealize.ShloMosaic.Lib.ReduceAll
import Idealize.ShloMosaic.Lib.Affine
import Idealize.ShloMosaic.Lib.StableHlo.Predicate

noncomputable section

namespace Cert.IndexRange

open Idealize.ShloMosaic Idealize.ShloMosaic.ValueIdx Idealize.SL.Sem

open Cert.Pre_finite_inputs

/-- The result shape of a reduction over every axis has one index. -/
instance : Subsingleton S_.Idx := ⟨fun a b => funext fun d => d.elim0⟩

private theorem toInt_lo : (4294950912#32 : BitVec 32).toInt = -16384 := by decide
private theorem toInt_hi : (16384#32 : BitVec 32).toInt = 16384 := by decide

/-- The last conjunct of the precondition, read at one action: the reduction by `and` over all actions is 1, so the
    two comparisons of action `a`'s word are 1, against the lower bound array `lo` and against 16384. -/
private theorem part5_range [Facts] {F : FTy → Type} [FloatOps F] (x : IVec S327680 32) (p : IVec S_ 1) (lo : IVec S327680 32)
    (h : fn_part5 (F := F) x p lo ix0 = 1#1) (a : Fin 327680) :
    (lo (ix1 a)).toInt ≤ (x (ix1 a)).toInt ∧ (x (ix1 a)).toInt < 16384 := by
  unfold fn_part5 at h
  have hall := (IntOp.andi_eq_one.1 h).2
  have ha := Host.reduce_andi_all _ _ _ _ _ hall (ix1 a)
  obtain ⟨hge, hlt⟩ := IntOp.andi_eq_one.1 ha
  have hlt' := IntOp.cmpi_slt.1 hlt
  exact ⟨IntOp.cmpi_sge.1 hge, by rw [← toInt_hi]; exact hlt'⟩

/-- The whole precondition at its one index being 1 puts every action's index word in `-16384 ≤ i < 16384`: the
    precondition is the conjunction of the earlier tests and the last one, whose lower bound array is the constant
    -16384 at every action. -/
private theorem fn_range [Facts] {F : FTy → Type} [FloatOps F]
    (a0 : FVec F S16384x1024 .f32) (a1 : FVec F S16384x512 .f32) (a2 : FVec F S327680x113 .f32) (a3 : IVec S327680 32)
    (a4 : FVec F S1024x1024 .f32) (a5 : FVec F S1024x256 .f32) (a6 : FVec F S1024 .f32) (a7 : FVec F S1024 .f32)
    (a8 : FVec F S128x256 .f32) (a9 : FVec F S128 .f32) (a10 : FVec F S128x128 .f32) (a11 : FVec F S128 .f32)
    (a12 : FVec F S64x241 .f32) (a13 : FVec F S64 .f32) (a14 : FVec F S4x64 .f32) (a15 : FVec F S4 .f32)
    (a16 : FVec F S1x4 .f32) (a17 : FVec F S1 .f32)
    (h : fn (F := F) a0 a1 a2 a3 a4 a5 a6 a7 a8 a9 a10 a11 a12 a13 a14 a15 a16 a17 ix0 = 1#1) (a : Fin 327680) :
    (-16384 : Int) ≤ (a3 (ix1 a)).toInt ∧ (a3 (ix1 a)).toInt < 16384 := by
  obtain ⟨h1, h2⟩ := part5_range (F := F) a3 _ _ h a
  refine ⟨?_, h2⟩
  rw [← toInt_lo]; exact h1

/-- Under the precondition every action's index word lies in `-16384 ≤ i < 16384`. -/
theorem idx_range [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (a : Fin 327680) :
    (-16384 : Int) ≤ (m ((c.tc : Thread Cert.KernelIdeal.nD Cert.KernelIdeal.τ).loc Cert.KernelIdeal.main_arg3) (ix1 a)).toInt
      ∧ (m ((c.tc : Thread Cert.KernelIdeal.nD Cert.KernelIdeal.τ).loc Cert.KernelIdeal.main_arg3) (ix1 a)).toInt < 16384 :=
  fn_range _ _ _ _ _ _ _ _ _ _ _ _ _ _ _ _ _ _ (congrFun (hpre c) ix0) a

end Cert.IndexRange

end
-- ==== Proof.RowSpec.lean ====
/-
  The mathematics of the kernel and of its reference, one ROW at a time, over the extended reals.

  Every operation of this network is row-wise: an LSTM cell on a row of `x` and a row of the state, two dense
  layers with a rectifier, and — per action — three more dense layers on the action's own features and on the
  row of the state network the action points at. So a block of rows and the whole array are the same functions of
  their rows, and both programs are compared against these.

  The weights enter as functions of (input coordinate, output coordinate): the kernel reads them from arrays it
  transposed on the host, the reference transposes them itself; both are `w k j`.
-/
import Idealize.ShloMosaic.PureOps.Ideal
import Mathlib.Algebra.BigOperators.Fin

noncomputable section

open scoped BigOperators

namespace Cert.RowSpec

open Idealize.ShloMosaic

/-- A dense layer before its activation: `(v · w) j + b j`. -/
def dense {n m : Nat} (v : Fin n → EReal) (w : Fin n → Fin m → EReal) (b : Fin m → EReal) (j : Fin m) : EReal :=
  (∑ k, v k * w k j) + b j

/-- The rectifier. -/
def relu (x : EReal) : EReal := max x 0

/-! ## The LSTM cell on one row -/

section cell

variable (x : Fin 1024 → EReal) (h0 c0 : Fin 256 → EReal)
  (wih : Fin 1024 → Fin 1024 → EReal) (whh : Fin 256 → Fin 1024 → EReal) (bih bhh : Fin 1024 → EReal)

/-- The four gates' pre-activations, stacked (input, forget, cell, output), in the order the kernel adds them:
    the two products first, then the two biases. -/
def gate (j : Fin 1024) : EReal := (∑ k, x k * wih k j) + (∑ k, h0 k * whh k j) + bih j + bhh j

/-- The same in the order the reference adds them: product, bias, product, bias. -/
def gateRef (j : Fin 1024) : EReal := (∑ k, x k * wih k j) + bih j + (∑ k, h0 k * whh k j) + bhh j

/-- Addition on the extended reals commutes and associates, so the two orders agree (no finiteness needed). -/
theorem gateRef_eq (j : Fin 1024) : gateRef x h0 wih whh bih bhh j = gate x h0 wih whh bih bhh j := by
  unfold gateRef gate
  rw [add_right_comm (∑ k, x k * wih k j) (bih j)]

/-- Column `q` of gate number `g` (0 input, 1 forget, 2 cell, 3 output). -/
def gcol (g : Fin 4) (q : Fin 256) : Fin 1024 := ⟨256 * g.val + q.val, by have := g.isLt; have := q.isLt; omega⟩

/-- The new cell state: `σ(f) · c0 + σ(i) · tanh(g)`. -/
def cNew (q : Fin 256) : EReal :=
  Ideal.logistic (gate x h0 wih whh bih bhh (gcol 1 q)) * c0 q
    + Ideal.logistic (gate x h0 wih whh bih bhh (gcol 0 q)) * Ideal.tanh (gate x h0 wih whh bih bhh (gcol 2 q))

/-- The new hidden state: `σ(o) · tanh(c1)`. -/
def hNew (q : Fin 256) : EReal :=
  Ideal.logistic (gate x h0 wih whh bih bhh (gcol 3 q)) * Ideal.tanh (cNew x h0 c0 wih whh bih bhh q)

/-- The row of the second result: the new hidden state in columns 0 … 255, the new cell state in 256 … 511. -/
def hcRow (q : Fin 512) : EReal :=
  if h : q.val < 256 then hNew x h0 c0 wih whh bih bhh ⟨q.val, h⟩
  else cNew x h0 c0 wih whh bih bhh ⟨q.val - 256, by have := q.isLt; omega⟩

variable (w1 : Fin 256 → Fin 128 → EReal) (b1 : Fin 128 → EReal) (w2 : Fin 128 → Fin 128 → EReal) (b2 : Fin 128 → EReal)

/-- The state network's first layer on the new hidden state. -/
def z1 (j : Fin 128) : EReal := relu (dense (hNew x h0 c0 wih whh bih bhh) w1 b1 j)

/-- Its second layer: the row of `z`. -/
def z2 (j : Fin 128) : EReal := relu (dense (z1 x h0 c0 wih whh bih bhh w1 b1) w2 b2 j)

/-- `z` pushed through the part of the action network's first layer that reads it (the kernel does this before the
    gather; the reference after it). -/
def zproj (waz : Fin 128 → Fin 64 → EReal) (j : Fin 64) : EReal :=
  ∑ k, z2 x h0 c0 wih whh bih bhh w1 b1 w2 b2 k * waz k j

end cell

/-! ## The action network on one action -/

section action

variable (pas : Fin 113 → EReal) (was : Fin 113 → Fin 64 → EReal) (ba1 : Fin 64 → EReal)
  (wa2 : Fin 64 → Fin 4 → EReal) (ba2 : Fin 4 → EReal) (wa3 : Fin 4 → Fin 1 → EReal) (ba3 : Fin 1 → EReal)

/-- First layer, as the kernel computes it: the action's own features through their part of the weights, plus the
    projected state row `zp`, plus the bias. -/
def act1 (zp : Fin 64 → EReal) (j : Fin 64) : EReal := relu ((∑ k, pas k * was k j) + zp j + ba1 j)

def act2 (zp : Fin 64 → EReal) (j : Fin 4) : EReal := relu (dense (act1 pas was ba1 zp) wa2 ba2 j)

/-- The action's score. -/
def score (zp : Fin 64 → EReal) (j : Fin 1) : EReal := dense (act2 pas was ba1 wa2 ba2 zp) wa3 ba3 j

end action

/-! ## The gather fold: a sum over 113 + 128 coordinates splits -/

/-- The reference joins the action's 113 features and the 128 entries of its state row and contracts all 241 against
    the first layer's weights; the kernel contracts the two stretches apart. A finite sum over `Fin (113 + 128)` is the
    sum over the first stretch plus the sum over the second: additive commutative monoid, no finiteness. -/
theorem sum_split (f : Fin 241 → EReal) :
    (∑ k : Fin 241, f k) = (∑ k : Fin 113, f ⟨k.val, by have := k.isLt; omega⟩) + ∑ k : Fin 128, f ⟨113 + k.val, by have := k.isLt; omega⟩ := by
  exact Fin.sum_univ_add (a := 113) (b := 128) (fun k : Fin (113 + 128) => f ⟨k.val, k.isLt⟩)

end Cert.RowSpec

end
-- ==== Proof.CellBody.lean ====
import proofs.«428442_j20916490732073_1_alg».proof.Proof.Gen.KernelIdeal.Frame
import proofs.«428442_j20916490732073_1_alg».proof.Proof.RowSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.CellBody

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! The first kernel's body on one block of 1024 rows, read at an index: what it leaves in its two output buffers is,
    row by row, the row functions of the block's rows of `x` and of the state and of the (whole) weight blocks.
    The casts to bf16 before the two gate products are the identity on the extended reals; a product into a zero
    accumulator is the plain sum over the contracted coordinate; the four gates are column stretches of 256. -/

/-! ### The product of a 1024×1024 block by a 1024×1024 block, read at (row, column) -/

private theorem mmXW_lhs_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem mmXW_lhs_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
private theorem mmXW_rhs_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
private theorem mmXW_rhs_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into the zero accumulator the product at (p, q) is the sum over the contracted coordinate. -/
theorem mmXW_at {φ₁ φ₂ : FTy} (l : FVec Ideal S1024x1024 φ₁) (r : FVec Ideal S1024x1024 φ₂) (p : Fin 1024) (q : Fin 1024) :
    matmul dot_S1024x1024_S1024x1024_S1024x1024_1_0_0_1_n_n none l r (constant S1024x1024 .f32 0x00000000#32) (ix2 p q)
      = ∑ k : Fin 1024, l (ix2 p k) * r (ix2 k q) := by
  show FloatOps.matmul dot_S1024x1024_S1024x1024_S1024x1024_1_0_0_1_n_n none l r (constant S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact mmXW_lhs_0 _ _
    | ⟨1, _⟩ => exact (mmXW_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (mmXW_rhs_0 _ _).trans hk
    | ⟨1, _⟩ => exact mmXW_rhs_1 _ _)
  rw [el, er]

/-! ### The product of a 1024×256 block by a 256×1024 block, read at (row, column) -/

private theorem mmHW_lhs_0 (i : S1024x1024.Idx) (c : dot_S1024x256_S256x1024_S1024x1024_1_0_0_1_n_n.contr.Idx) :
    (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem mmHW_lhs_1 (i : S1024x1024.Idx) (c : dot_S1024x256_S256x1024_S1024x1024_1_0_0_1_n_n.contr.Idx) :
    (dot_S1024x256_S256x1024_S1024x1024_1_0_0_1_n_n.lhsIdx i c 1).val = (c ⟨0, by decide⟩).val :=
  dot_S1024x256_S256x1024_S1024x1024_1_0_0_1_n_n.lhsIdx_val_of_single rfl i c
private theorem mmHW_rhs_0 (i : S1024x1024.Idx) (c : dot_S1024x256_S256x1024_S1024x1024_1_0_0_1_n_n.contr.Idx) :
    (dot_S1024x256_S256x1024_S1024x1024_1_0_0_1_n_n.rhsIdx i c 0).val = (c ⟨0, by decide⟩).val :=
  dot_S1024x256_S256x1024_S1024x1024_1_0_0_1_n_n.rhsIdx_val_of_single rfl i c
private theorem mmHW_rhs_1 (i : S1024x1024.Idx) (c : dot_S1024x256_S256x1024_S1024x1024_1_0_0_1_n_n.contr.Idx) :
    (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Into the zero accumulator the product at (p, q) is the sum over the contracted coordinate. -/
theorem mmHW_at {φ₁ φ₂ : FTy} (l : FVec Ideal S1024x256 φ₁) (r : FVec Ideal S256x1024 φ₂) (p : Fin 1024) (q : Fin 1024) :
    matmul dot_S1024x256_S256x1024_S1024x1024_1_0_0_1_n_n none l r (constant S1024x1024 .f32 0x00000000#32) (ix2 p q)
      = ∑ k : Fin 256, l (ix2 p k) * r (ix2 k q) := by
  show FloatOps.matmul dot_S1024x256_S256x1024_S1024x1024_1_0_0_1_n_n none l r (constant S1024x1024 .f32 0x00000000#32) (ix2 p q) = _
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact mmHW_lhs_0 _ _
    | ⟨1, _⟩ => exact (mmHW_lhs_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (mmHW_rhs_0 _ _).trans hk
    | ⟨1, _⟩ => exact mmHW_rhs_1 _ _)
  rw [el, er]

/-! ### The product of a 1024×256 block by a 256×128 block, read at (row, column) -/

private theorem mmH1_lhs_0 (i : S1024x128.Idx) (c : dot_S1024x256_S256x128_S1024x128_1_0_0_1_n_n.contr.Idx) :
    (dot_S1024x256_S256x128_S1024x128_1_0_0_1_n_n.lhsIdx i c 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem mmH1_lhs_1 (i : S1024x128.Idx) (c : dot_S1024x256_S256x128_S1024x128_1_0_0_1_n_n.contr.Idx) :
    (dot_S1024x256_S256x128_S1024x128_1_0_0_1_n_n.lhsIdx i c 1).val = (c ⟨0, by decide⟩).val :=
  dot_S1024x256_S256x128_S1024x128_1_0_0_1_n_n.lhsIdx_val_of_single rfl i c
private theorem mmH1_rhs_0 (i : S1024x128.Idx) (c : dot_S1024x256_S256x128_S1024x128_1_0_0_1_n_n.contr.Idx) :
    (dot_S1024x256_S256x128_S1024x128_1_0_0_1_n_n.rhsIdx i c 0).val = (c ⟨0, by decide⟩).val :=
  dot_S1024x256_S256x128_S1024x128_1_0_0_1_n_n.rhsIdx_val_of_single rfl i c
private theorem mmH1_rhs_1 (i : S1024x128.Idx) (c : dot_S1024x256_S256x128_S1024x128_1_0_0_1_n_n.contr.Idx) :
    (dot_S1024x256_S256x128_S1024x128_1_0_0_1_n_n.rhsIdx i c 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Into the zero accumulator the product at (p, q) is the sum over the contracted coordinate. -/
theorem mmH1_at {φ₁ φ₂ : FTy} (l : FVec Ideal S1024x256 φ₁) (r : FVec Ideal S256x128 φ₂) (p : Fin 1024) (q : Fin 128) :
    matmul dot_S1024x256_S256x128_S1024x128_1_0_0_1_n_n none l r (constant S1024x128 .f32 0x00000000#32) (ix2 p q)
      = ∑ k : Fin 256, l (ix2 p k) * r (ix2 k q) := by
  show FloatOps.matmul dot_S1024x256_S256x128_S1024x128_1_0_0_1_n_n none l r (constant S1024x128 .f32 0x00000000#32) (ix2 p q) = _
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 p q) ((ValueIdx.contrEquiv1 dot_S1024x256_S256x128_S1024x128_1_0_0_1_n_n 256 rfl rfl).symm k) = ix2 p k := funext fun a => Fin.ext (by
    match a with
    | ⟨0, _⟩ => exact mmH1_lhs_0 _ _
    | ⟨1, _⟩ => exact (mmH1_lhs_1 _ _).trans hk)
  have er : dot_S1024x256_S256x128_S1024x128_1_0_0_1_n_n.rhsIdx (ix2 p q) ((ValueIdx.contrEquiv1 dot_S1024x256_S256x128_S1024x128_1_0_0_1_n_n 256 rfl rfl).symm k) = ix2 k q := funext fun a => Fin.ext (by
    match a with
    | ⟨0, _⟩ => exact (mmH1_rhs_0 _ _).trans hk
    | ⟨1, _⟩ => exact mmH1_rhs_1 _ _)
  rw [el, er]

/-! ### The product of a 1024×128 block by a 128×128 block, read at (row, column) -/

private theorem mmZZ_lhs_0 (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
private theorem mmZZ_lhs_1 (i : S1024x128.Idx) (c : dot_S1024x128_S128x128_S1024x128_1_0_0_1_n_n.contr.Idx) :
    (dot_S1024x128_S128x128_S1024x128_1_0_0_1_n_n.lhsIdx i c 1).val = (c ⟨0, by decide⟩).val :=
  dot_S1024x128_S128x128_S1024x128_1_0_0_1_n_n.lhsIdx_val_of_single rfl i c
private theorem mmZZ_rhs_0 (i : S1024x128.Idx) (c : dot_S1024x128_S128x128_S1024x128_1_0_0_1_n_n.contr.Idx) :
    (dot_S1024x128_S128x128_S1024x128_1_0_0_1_n_n.rhsIdx i c 0).val = (c ⟨0, by decide⟩).val :=
  dot_S1024x128_S128x128_S1024x128_1_0_0_1_n_n.rhsIdx_val_of_single rfl i c
private theorem mmZZ_rhs_1 (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Into the zero accumulator the product at (p, q) is the sum over the contracted coordinate. -/
theorem mmZZ_at {φ₁ φ₂ : FTy} (l : FVec Ideal S1024x128 φ₁) (r : FVec Ideal S128x128 φ₂) (p : Fin 1024) (q : Fin 128) :
    matmul dot_S1024x128_S128x128_S1024x128_1_0_0_1_n_n none l r (constant S1024x128 .f32 0x00000000#32) (ix2 p q)
      = ∑ k : Fin 128, l (ix2 p k) * r (ix2 k q) := by
  show FloatOps.matmul dot_S1024x128_S128x128_S1024x128_1_0_0_1_n_n none l r (constant S1024x128 .f32 0x00000000#32) (ix2 p q) = _
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact mmZZ_lhs_0 _ _
    | ⟨1, _⟩ => exact (mmZZ_lhs_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (mmZZ_rhs_0 _ _).trans hk
    | ⟨1, _⟩ => exact mmZZ_rhs_1 _ _)
  rw [el, er]

/-! ### The product of a 1024×128 block by a 128×64 block, read at (row, column) -/

private theorem mmZA_lhs_0 (i : S1024x64.Idx) (c : dot_S1024x128_S128x64_S1024x64_1_0_0_1_n_n.contr.Idx) :
    (dot_S1024x128_S128x64_S1024x64_1_0_0_1_n_n.lhsIdx i c 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
private theorem mmZA_lhs_1 (i : S1024x64.Idx) (c : dot_S1024x128_S128x64_S1024x64_1_0_0_1_n_n.contr.Idx) :
    (dot_S1024x128_S128x64_S1024x64_1_0_0_1_n_n.lhsIdx i c 1).val = (c ⟨0, by decide⟩).val :=
  dot_S1024x128_S128x64_S1024x64_1_0_0_1_n_n.lhsIdx_val_of_single rfl i c
private theorem mmZA_rhs_0 (i : S1024x64.Idx) (c : dot_S1024x128_S128x64_S1024x64_1_0_0_1_n_n.contr.Idx) :
    (dot_S1024x128_S128x64_S1024x64_1_0_0_1_n_n.rhsIdx i c 0).val = (c ⟨0, by decide⟩).val :=
  dot_S1024x128_S128x64_S1024x64_1_0_0_1_n_n.rhsIdx_val_of_single rfl i c
private theorem mmZA_rhs_1 (i : S1024x64.Idx) (c : dot_S1024x128_S128x64_S1024x64_1_0_0_1_n_n.contr.Idx) :
    (dot_S1024x128_S128x64_S1024x64_1_0_0_1_n_n.rhsIdx i c 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- Into the zero accumulator the product at (p, q) is the sum over the contracted coordinate. -/
theorem mmZA_at {φ₁ φ₂ : FTy} (l : FVec Ideal S1024x128 φ₁) (r : FVec Ideal S128x64 φ₂) (p : Fin 1024) (q : Fin 64) :
    matmul dot_S1024x128_S128x64_S1024x64_1_0_0_1_n_n none l r (constant S1024x64 .f32 0x00000000#32) (ix2 p q)
      = ∑ k : Fin 128, l (ix2 p k) * r (ix2 k q) := by
  show FloatOps.matmul dot_S1024x128_S128x64_S1024x64_1_0_0_1_n_n none l r (constant S1024x64 .f32 0x00000000#32) (ix2 p q) = _
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 p q) ((ValueIdx.contrEquiv1 dot_S1024x128_S128x64_S1024x64_1_0_0_1_n_n 128 rfl rfl).symm k) = ix2 p k := funext fun a => Fin.ext (by
    match a with
    | ⟨0, _⟩ => exact mmZA_lhs_0 _ _
    | ⟨1, _⟩ => exact (mmZA_lhs_1 _ _).trans hk)
  have er : dot_S1024x128_S128x64_S1024x64_1_0_0_1_n_n.rhsIdx (ix2 p q) ((ValueIdx.contrEquiv1 dot_S1024x128_S128x64_S1024x64_1_0_0_1_n_n 128 rfl rfl).symm k) = ix2 k q := funext fun a => Fin.ext (by
    match a with
    | ⟨0, _⟩ => exact (mmZA_rhs_0 _ _).trans hk
    | ⟨1, _⟩ => exact mmZA_rhs_1 _ _)
  rw [el, er]

/-! ### Layout operations read at (row, column) -/

/-- The offsets of a whole-block access are zero on both axes. -/
private theorem zz2 : (![0, 0] : Fin 2 → Nat) = fun _ => 0 := by
  funext a; match a with | ⟨0, _⟩ => rfl | ⟨1, _⟩ => rfl

/-- A bias row broadcast down the 1024 rows reads its own column. -/
private theorem bcastRow1024_at {α : Type} (b : S1x1024.Idx → α) (h : S1x1024.Broadcasts S1024x1024) (p j : Fin 1024) :
    broadcastTo S1024x1024 b h (ix2 p j) = b (ix2 (0 : Fin 1) j) :=
  broadcastTo_apply b h (ix2 p j) (ix2 (0 : Fin 1) j) (fun a => match a with
    | ⟨0, _⟩ => by show (0 : ℕ) = if (1 : ℕ) = 1 then 0 else _; rw [if_pos rfl]
    | ⟨1, _⟩ => by show j.val = if (1024 : ℕ) = 1 then 0 else j.val; rw [if_neg (by decide)])

private theorem bcastRow128_at {α : Type} (b : S1x128.Idx → α) (h : S1x128.Broadcasts S1024x128) (p : Fin 1024) (j : Fin 128) :
    broadcastTo S1024x128 b h (ix2 p j) = b (ix2 (0 : Fin 1) j) :=
  broadcastTo_apply b h (ix2 p j) (ix2 (0 : Fin 1) j) (fun a => match a with
    | ⟨0, _⟩ => by show (0 : ℕ) = if (1 : ℕ) = 1 then 0 else _; rw [if_pos rfl]
    | ⟨1, _⟩ => by show j.val = if (128 : ℕ) = 1 then 0 else j.val; rw [if_neg (by decide)])

/-- The four column stretches of 256 of the stacked gates are the four gates' columns. -/
private theorem slice0_at {α : Type} (G : S1024x1024.Idx → α) (h : S1024x1024.Slices ![0, 0] S1024x256) (p : Fin 1024) (q : Fin 256) :
    extractStridedSlice S1024x256 ![0, 0] G h (ix2 p q) = G (ix2 p (gcol 0 q)) :=
  extractStridedSlice_apply ![0, 0] G h (ix2 p q) (ix2 p (gcol 0 q)) (fun a => match a with
    | ⟨0, _⟩ => by show p.val = 0 + p.val; omega
    | ⟨1, _⟩ => by show 256 * 0 + q.val = 0 + q.val; omega)
private theorem slice1_at {α : Type} (G : S1024x1024.Idx → α) (h : S1024x1024.Slices ![0, 256] S1024x256) (p : Fin 1024) (q : Fin 256) :
    extractStridedSlice S1024x256 ![0, 256] G h (ix2 p q) = G (ix2 p (gcol 1 q)) :=
  extractStridedSlice_apply ![0, 256] G h (ix2 p q) (ix2 p (gcol 1 q)) (fun a => match a with
    | ⟨0, _⟩ => by show p.val = 0 + p.val; omega
    | ⟨1, _⟩ => by show 256 * 1 + q.val = 256 + q.val; omega)
private theorem slice2_at {α : Type} (G : S1024x1024.Idx → α) (h : S1024x1024.Slices ![0, 512] S1024x256) (p : Fin 1024) (q : Fin 256) :
    extractStridedSlice S1024x256 ![0, 512] G h (ix2 p q) = G (ix2 p (gcol 2 q)) :=
  extractStridedSlice_apply ![0, 512] G h (ix2 p q) (ix2 p (gcol 2 q)) (fun a => match a with
    | ⟨0, _⟩ => by show p.val = 0 + p.val; omega
    | ⟨1, _⟩ => by show 256 * 2 + q.val = 512 + q.val; omega)
private theorem slice3_at {α : Type} (G : S1024x1024.Idx → α) (h : S1024x1024.Slices ![0, 768] S1024x256) (p : Fin 1024) (q : Fin 256) :
    extractStridedSlice S1024x256 ![0, 768] G h (ix2 p q) = G (ix2 p (gcol 3 q)) :=
  extractStridedSlice_apply ![0, 768] G h (ix2 p q) (ix2 p (gcol 3 q)) (fun a => match a with
    | ⟨0, _⟩ => by show p.val = 0 + p.val; omega
    | ⟨1, _⟩ => by show 256 * 3 + q.val = 768 + q.val; omega)

/-- The two transcendental maps act element by element. -/
private theorem logistic_at {s : Shape} (a : FVec Ideal s .f32) (i : s.Idx) : logistic a i = Ideal.logistic (a i) := rfl
private theorem tanh_at {s : Shape} (a : FVec Ideal s .f32) (i : s.Idx) : tanh a i = Ideal.tanh (a i) := rfl

/-! ### The body's values, read at (row, column) -/

/-- The stacked gates: two products (their operands' casts to bf16 are the identity here) and two bias rows. -/
theorem pay2_at (v0 v2 : Vec Ideal S1024x1024 .f32) (v5 : Vec Ideal S1024x256 .f32) (v8 : Vec Ideal S256x1024 .f32)
    (v14 v18 : Vec Ideal S1x1024 .f32) (p j : Fin 1024) :
    k0_pay2 (F := Ideal) v0 v2 v5 v8 v14 v18 (ix2 p j)
      = gate (fun k => v0 (ix2 p k)) (fun k => v5 (ix2 p k)) (fun k j => v2 (ix2 k j)) (fun k j => v8 (ix2 k j))
          (fun j => v14 (ix2 (0 : Fin 1) j)) (fun j => v18 (ix2 (0 : Fin 1) j)) j := by
  unfold k0_pay2 gate
  rw [addf_apply, addf_apply, addf_apply, mmXW_at, mmHW_at, bcastRow1024_at, bcastRow1024_at]
  simp only [shapeCast_self, truncf_apply]

/-- The new cell state. -/
theorem pay3_at (v0 v2 : Vec Ideal S1024x1024 .f32) (v5 v6 : Vec Ideal S1024x256 .f32) (v8 : Vec Ideal S256x1024 .f32)
    (v14 v18 : Vec Ideal S1x1024 .f32) (p : Fin 1024) (q : Fin 256) :
    k0_pay3 (F := Ideal) v0 v2 v5 v6 v8 v14 v18 (ix2 p q)
      = cNew (fun k => v0 (ix2 p k)) (fun k => v5 (ix2 p k)) (fun k => v6 (ix2 p k)) (fun k j => v2 (ix2 k j)) (fun k j => v8 (ix2 k j))
          (fun j => v14 (ix2 (0 : Fin 1) j)) (fun j => v18 (ix2 (0 : Fin 1) j)) q := by
  unfold k0_pay3 cNew
  rw [addf_apply, mulf_apply, mulf_apply, logistic_at, logistic_at, tanh_at, slice1_at, slice0_at, slice2_at,
    pay2_at, pay2_at, pay2_at]

/-- The new hidden state. -/
theorem pay4_at (v0 v2 : Vec Ideal S1024x1024 .f32) (v5 v6 : Vec Ideal S1024x256 .f32) (v8 : Vec Ideal S256x1024 .f32)
    (v14 v18 : Vec Ideal S1x1024 .f32) (p : Fin 1024) (q : Fin 256) :
    k0_pay4 (F := Ideal) v0 v2 v5 v6 v8 v14 v18 (ix2 p q)
      = hNew (fun k => v0 (ix2 p k)) (fun k => v5 (ix2 p k)) (fun k => v6 (ix2 p k)) (fun k j => v2 (ix2 k j)) (fun k j => v8 (ix2 k j))
          (fun j => v14 (ix2 (0 : Fin 1) j)) (fun j => v18 (ix2 (0 : Fin 1) j)) q := by
  unfold k0_pay4 hNew
  rw [mulf_apply, logistic_at, tanh_at, slice3_at, pay2_at, pay3_at]

/-- The first dense layer's product: the new hidden state against the first weight block. -/
theorem pay5_at (v0 v2 : Vec Ideal S1024x1024 .f32) (v5 v6 : Vec Ideal S1024x256 .f32) (v8 : Vec Ideal S256x1024 .f32)
    (v14 v18 : Vec Ideal S1x1024 .f32) (v35 : Vec Ideal S256x128 .f32) (p : Fin 1024) (j : Fin 128) :
    k0_pay5 (F := Ideal) v0 v2 v5 v6 v8 v14 v18 v35 (ix2 p j)
      = ∑ k : Fin 256, hNew (fun k => v0 (ix2 p k)) (fun k => v5 (ix2 p k)) (fun k => v6 (ix2 p k)) (fun k j => v2 (ix2 k j))
          (fun k j => v8 (ix2 k j)) (fun j => v14 (ix2 (0 : Fin 1) j)) (fun j => v18 (ix2 (0 : Fin 1) j)) k * v35 (ix2 k j) := by
  unfold k0_pay5
  rw [mmH1_at]
  refine Finset.sum_congr rfl fun k _ => ?_
  rw [pay4_at, shapeCast_self]

/-- The rest of the state network on a block whose first product is `v37`: bias, rectifier, second layer, bias,
    rectifier, and the projection. -/
theorem pay1_at (v37 : FVec Ideal S1024x128 .f32) (v38 : Vec Ideal S1x128 .f32) (v44 : Vec Ideal S128x128 .f32)
    (v47 : Vec Ideal S1x128 .f32) (v53 : Vec Ideal S128x64 .f32) (p : Fin 1024) (j : Fin 64) :
    k0_pay1 (F := Ideal) v37 v38 v44 v47 v53 (ix2 p j)
      = ∑ k : Fin 128, relu (dense (fun i => relu (v37 (ix2 p i) + v38 (ix2 (0 : Fin 1) i))) (fun k j => v44 (ix2 k j))
          (fun j => v47 (ix2 (0 : Fin 1) j)) k) * v53 (ix2 k j) := by
  unfold k0_pay1
  rw [mmZA_at]
  refine Finset.sum_congr rfl fun k _ => ?_
  simp only [shapeCast_self]
  rw [maximumf_apply, addf_apply, mmZZ_at, bcastRow128_at, broadcast_apply]
  unfold relu dense
  refine congrArg (· * v53 (ix2 k j)) ?_
  refine congrArg₂ max (congrArg (· + v47 (ix2 (0 : Fin 1) k)) (Finset.sum_congr rfl fun i _ => ?_)) Ideal.ofBits_zero_f32
  rw [maximumf_apply, addf_apply, bcastRow128_at, broadcast_apply]
  exact congrArg (· * v44 (ix2 i k)) (congrArg (max _) Ideal.ofBits_zero_f32)

/-! ### The loads of the block's rectangles -/

/-- The stretch of columns 0 … 255 of the state block: the old hidden state. -/
private theorem ld_h0 (x1 : Vec Ideal S1024x512 .f32) (p : Fin 1024) (k : Fin 256) :
    View.ld x1 r0_1 (ix2 p k) = x1 (ix2 p (⟨k.val, by have := k.isLt; omega⟩ : Fin 512)) :=
  congrArg x1 (funext fun a => Fin.ext (by
    match a with
    | ⟨0, _⟩ => show 0 + 1 * p.val = p.val; omega
    | ⟨1, _⟩ => show 0 + 1 * k.val = k.val; omega))

/-- The stretch of columns 256 … 511: the old cell state. -/
private theorem ld_c0 (x1 : Vec Ideal S1024x512 .f32) (p : Fin 1024) (k : Fin 256) :
    View.ld x1 r0_2 (ix2 p k) = x1 (ix2 p (⟨256 + k.val, by have := k.isLt; omega⟩ : Fin 512)) :=
  congrArg x1 (funext fun a => Fin.ext (by
    match a with
    | ⟨0, _⟩ => show 0 + 1 * p.val = p.val; omega
    | ⟨1, _⟩ => show 256 + 1 * k.val = 256 + k.val; omega))

/-- Two stores into the column stretches 0 … 255 and 256 … 511 of the 1024×512 buffer, read at (row, column): the
    column picks the store. -/
private theorem canon2_at (w2 : (r0_2 : Rect S1024x512).shape.Idx → Elt Ideal .f32) (w1 : (r0_1 : Rect S1024x512).shape.Idx → Elt Ideal .f32)
    (p : Fin 1024) (q : Fin 512) :
    View.canon [(⟨r0_2, w2⟩ : View.Piece (Elt Ideal) S1024x512 .f32), ⟨r0_1, w1⟩] (ix2 p q)
      = if h : q.val < 256 then w1 (ix2 p (⟨q.val, h⟩ : Fin 256))
        else w2 (ix2 p (⟨q.val - 256, by have := q.isLt; omega⟩ : Fin 256)) := by
  by_cases hq : q.val < 256
  · -- the later store's rectangle misses the column, the earlier one's holds it
    have hy : (ix2 p q : S1024x512.Idx) = (r0_1 : Rect S1024x512).emb (ix2 p (⟨q.val, hq⟩ : Fin 256)) := funext fun a => Fin.ext (by
      match a with
      | ⟨0, _⟩ => show p.val = 0 + 1 * p.val; omega
      | ⟨1, _⟩ => show q.val = 0 + 1 * q.val; omega)
    have hn : (ix2 p q : S1024x512.Idx) ∉ (r0_2 : Rect S1024x512).set := by
      rw [Rect.mem_set_unit]
      intro h
      have h1 := (h (1 : Fin 2)).1
      change 256 ≤ q.val at h1
      omega
    rw [dif_pos hq]
    refine (View.canon_cons_of_not_mem (⟨r0_2, w2⟩ : View.Piece (Elt Ideal) S1024x512 .f32) [⟨r0_1, w1⟩] hn).trans ?_
    rw [hy]
    exact View.canon_cons_emb r0_1 w1 [] _
  · have hy : (ix2 p q : S1024x512.Idx)
        = (r0_2 : Rect S1024x512).emb (ix2 p (⟨q.val - 256, by have := q.isLt; omega⟩ : Fin 256)) := funext fun a => Fin.ext (by
      match a with
      | ⟨0, _⟩ => show p.val = 0 + 1 * p.val; omega
      | ⟨1, _⟩ => show q.val = 256 + 1 * (q.val - 256); omega)
    rw [dif_neg hq, hy]
    exact View.canon_cons_emb r0_2 w2 [⟨r0_1, w1⟩] _

variable (x0 : Vec Ideal S1024x1024 .f32) (x1 : Vec Ideal S1024x512 .f32) (x2 : Vec Ideal S1024x1024 .f32) (x3 : Vec Ideal S256x1024 .f32)
  (x4 : Vec Ideal S1x1024 .f32) (x5 : Vec Ideal S1x1024 .f32) (x6 : Vec Ideal S256x128 .f32) (x7 : Vec Ideal S1x128 .f32)
  (x8 : Vec Ideal S128x128 .f32) (x9 : Vec Ideal S1x128 .f32) (x10 : Vec Ideal S128x64 .f32)

/-- The block's second output (new hidden state | new cell state) at row `p`, column `q`. -/
theorem out0_11_at (p : Fin 1024) (q : Fin 512) :
    out0_11 (F := Ideal) x0 x1 x2 x3 x4 x5 x6 x7 x8 x9 x10 (ix2 p q)
      = hcRow (fun k => x0 (ix2 p k)) (fun k => x1 (ix2 p (⟨k.val, by have := k.isLt; omega⟩ : Fin 512)))
          (fun k => x1 (ix2 p (⟨256 + k.val, by have := k.isLt; omega⟩ : Fin 512)))
          (fun k j => x2 (ix2 k j)) (fun k j => x3 (ix2 k j)) (fun j => x4 (ix2 (0 : Fin 1) j)) (fun j => x5 (ix2 (0 : Fin 1) j)) q := by
  have e0 : View.ld x0 r0_0 = x0 := View.ld_unit_zero zz2 _ x0
  have e2 : View.ld x2 r0_0 = x2 := View.ld_unit_zero zz2 _ x2
  have e3 : View.ld x3 r0_3 = x3 := View.ld_unit_zero zz2 _ x3
  have e4 : View.ld x4 r0_4 = x4 := View.ld_unit_zero zz2 _ x4
  have e5 : View.ld x5 r0_4 = x5 := View.ld_unit_zero zz2 _ x5
  have eh : (fun k : Fin 256 => View.ld x1 r0_1 (ix2 p k)) = fun k => x1 (ix2 p (⟨k.val, by have := k.isLt; omega⟩ : Fin 512)) :=
    funext (ld_h0 x1 p)
  have ec : (fun k : Fin 256 => View.ld x1 r0_2 (ix2 p k)) = fun k => x1 (ix2 p (⟨256 + k.val, by have := k.isLt; omega⟩ : Fin 512)) :=
    funext (ld_c0 x1 p)
  unfold out0_11 hcRow
  refine (canon2_at _ _ p q).trans ?_
  rw [e0, e2, e3, e4, e5]
  by_cases hq : q.val < 256
  · rw [dif_pos hq, dif_pos hq, pay4_at, eh, ec]
  · rw [dif_neg hq, dif_neg hq, pay3_at, eh, ec]

/-- The block's projected state rows at row `p`, column `j`. -/
theorem out0_12_at (p : Fin 1024) (j : Fin 64) :
    out0_12 (F := Ideal) x0 x1 x2 x3 x4 x5 x6 x7 x8 x9 x10 (ix2 p j)
      = zproj (fun k => x0 (ix2 p k)) (fun k => x1 (ix2 p (⟨k.val, by have := k.isLt; omega⟩ : Fin 512)))
          (fun k => x1 (ix2 p (⟨256 + k.val, by have := k.isLt; omega⟩ : Fin 512)))
          (fun k j => x2 (ix2 k j)) (fun k j => x3 (ix2 k j)) (fun j => x4 (ix2 (0 : Fin 1) j)) (fun j => x5 (ix2 (0 : Fin 1) j))
          (fun k j => x6 (ix2 k j)) (fun j => x7 (ix2 (0 : Fin 1) j)) (fun k j => x8 (ix2 k j)) (fun j => x9 (ix2 (0 : Fin 1) j))
          (fun k j => x10 (ix2 k j)) j := by
  have e0 : View.ld x0 r0_0 = x0 := View.ld_unit_zero zz2 _ x0
  have e2 : View.ld x2 r0_0 = x2 := View.ld_unit_zero zz2 _ x2
  have e3 : View.ld x3 r0_3 = x3 := View.ld_unit_zero zz2 _ x3
  have e4 : View.ld x4 r0_4 = x4 := View.ld_unit_zero zz2 _ x4
  have e5 : View.ld x5 r0_4 = x5 := View.ld_unit_zero zz2 _ x5
  have e6 : View.ld x6 r0_5 = x6 := View.ld_unit_zero zz2 _ x6
  have e7 : View.ld x7 r0_6 = x7 := View.ld_unit_zero zz2 _ x7
  have e8 : View.ld x8 r0_7 = x8 := View.ld_unit_zero zz2 _ x8
  have e9 : View.ld x9 r0_6 = x9 := View.ld_unit_zero zz2 _ x9
  have e10 : View.ld x10 r0_8 = x10 := View.ld_unit_zero zz2 _ x10
  have eh : (fun k : Fin 256 => View.ld x1 r0_1 (ix2 p k)) = fun k => x1 (ix2 p (⟨k.val, by have := k.isLt; omega⟩ : Fin 512)) :=
    funext (ld_h0 x1 p)
  have ec : (fun k : Fin 256 => View.ld x1 r0_2 (ix2 p k)) = fun k => x1 (ix2 p (⟨256 + k.val, by have := k.isLt; omega⟩ : Fin 512)) :=
    funext (ld_c0 x1 p)
  unfold out0_12
  rw [e0, e2, e3, e4, e5, e6, e7, e8, e9, e10, View.canon_unit_zero zz2, pay1_at]
  unfold zproj z2 z1 dense
  refine Finset.sum_congr rfl fun k _ => ?_
  simp only [pay5_at, eh, ec]

end Cert.KernelIdeal.CellBody

end
-- ==== Proof.CellRegion.lean ====
import proofs.«428442_j20916490732073_1_alg».proof.Proof.Gen.KernelIdeal.Frame
import proofs.«428442_j20916490732073_1_alg».proof.Proof.RowSpec
import proofs.«428442_j20916490732073_1_alg».proof.Proof.CellBody
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.CellRegion

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! The first region — the LSTM cell and the state network on 16 blocks of 1024 rows — read as whole arrays:
    row `p` of each output is the row functions of row `p` of `x` and of the state, and of the weights as the region
    finds them (`V`). -/

variable (V : (c : Dev nD) → (b : Ref sig .tc) → Buf (Elt Ideal) ((c : Thread nD τ).loc b))

/-- Row `p` of `x`. -/
abbrev xrow (c : Dev nD) (p : Fin 16384) : Fin 1024 → EReal := fun k => V c main_arg0 (ix2 p k)
/-- Row `p` of the old hidden state (columns 0 … 255 of the state array). -/
abbrev h0row (c : Dev nD) (p : Fin 16384) : Fin 256 → EReal := fun k => V c main_arg1 (ix2 p (⟨k.val, by have := k.isLt; omega⟩ : Fin 512))
/-- Row `p` of the old cell state (columns 256 … 511). -/
abbrev c0row (c : Dev nD) (p : Fin 16384) : Fin 256 → EReal := fun k => V c main_arg1 (ix2 p (⟨256 + k.val, by have := k.isLt; omega⟩ : Fin 512))
/-- The weights and biases as the region finds them: (input coordinate, output coordinate). -/
abbrev wihK (c : Dev nD) : Fin 1024 → Fin 1024 → EReal := fun k j => V c main_v0 (ix2 k j)
abbrev whhK (c : Dev nD) : Fin 256 → Fin 1024 → EReal := fun k j => V c main_v1 (ix2 k j)
abbrev bihK (c : Dev nD) : Fin 1024 → EReal := fun j => V c main_v10 (ix2 (0 : Fin 1) j)
abbrev bhhK (c : Dev nD) : Fin 1024 → EReal := fun j => V c main_v11 (ix2 (0 : Fin 1) j)
abbrev w1K (c : Dev nD) : Fin 256 → Fin 128 → EReal := fun k j => V c main_v2 (ix2 k j)
abbrev b1K (c : Dev nD) : Fin 128 → EReal := fun j => V c main_v12 (ix2 (0 : Fin 1) j)
abbrev w2K (c : Dev nD) : Fin 128 → Fin 128 → EReal := fun k j => V c main_v3 (ix2 k j)
abbrev b2K (c : Dev nD) : Fin 128 → EReal := fun j => V c main_v13 (ix2 (0 : Fin 1) j)
abbrev wazK (c : Dev nD) : Fin 128 → Fin 64 → EReal := fun k j => V c main_v7 (ix2 k j)

/-! ## Where each window's block sits, over the 16 grid points -/

/-- The windows of `x`, of the state and of the two results sit at block (t, 0): rows 1024·t … 1024·t + 1023, all columns. -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The nine weight and bias windows sit at block (0, 0) at every point: each is its whole array. -/
theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## Each input block read where it lies in its array

    An entry of a block sits in the array, on each axis, at block index × block size + its coordinate in the block. -/

/-- Row `p` of the block of `x` at point `t` is row `1024·t + p` of `x`. -/
theorem blk_x (c : Dev nD) (t : Fin cfg0.N) (p : Fin 1024) (k : Fin 1024) (P : Fin 16384) (hP : P.val = t.val * 1024 + p.val) :
    (iblk0 V c 0 t : Vec Ideal S1024x1024 .f32) (ix2 p k) = V c main_arg0 (ix2 P k) := by
  obtain ⟨⟨e0, e1⟩, -, -, -⟩ := idx_moving t
  unfold iblk0
  rw [View.read_apply]
  show V c main_arg0 _ = V c main_arg0 _
  congr 1
  funext a
  apply Fin.ext
  match a with
  | ⟨0, _⟩ => show win0_0.index t (0 : Fin 2) * 1024 + 1 * p.val = P.val; omega
  | ⟨1, _⟩ => show win0_0.index t (1 : Fin 2) * 1024 + 1 * k.val = k.val; omega

/-- Row `p` of the block of the state at point `t` is row `1024·t + p` of the state, column by column. -/
theorem blk_state (c : Dev nD) (t : Fin cfg0.N) (p : Fin 1024) (k : Fin 512) (P : Fin 16384) (hP : P.val = t.val * 1024 + p.val) :
    (iblk0 V c 1 t : Vec Ideal S1024x512 .f32) (ix2 p k) = V c main_arg1 (ix2 P k) := by
  obtain ⟨-, ⟨e0, e1⟩, -, -⟩ := idx_moving t
  unfold iblk0
  rw [View.read_apply]
  show V c main_arg1 _ = V c main_arg1 _
  congr 1
  funext a
  apply Fin.ext
  match a with
  | ⟨0, _⟩ => show win0_1.index t (0 : Fin 2) * 1024 + 1 * p.val = P.val; omega
  | ⟨1, _⟩ => show win0_1.index t (1 : Fin 2) * 512 + 1 * k.val = k.val; omega

/-- The block of the input-to-gate weights at any point is the whole array. -/
theorem blk_wih (c : Dev nD) (t : Fin cfg0.N) (k : Fin 1024) (j : Fin 1024) :
    (iblk0 V c 2 t : Vec Ideal S1024x1024 .f32) (ix2 k j) = V c main_v0 (ix2 k j) := by
  obtain ⟨⟨e0, e1⟩, -, -, -, -, -, -, -, -⟩ := idx_fixed t
  unfold iblk0
  rw [View.read_apply]
  show V c main_v0 _ = V c main_v0 _
  congr 1
  funext a
  apply Fin.ext
  match a with
  | ⟨0, _⟩ => show win0_2.index t (0 : Fin 2) * 1024 + 1 * k.val = k.val; omega
  | ⟨1, _⟩ => show win0_2.index t (1 : Fin 2) * 1024 + 1 * j.val = j.val; omega

/-- The block of the hidden-to-gate weights at any point is the whole array. -/
theorem blk_whh (c : Dev nD) (t : Fin cfg0.N) (k : Fin 256) (j : Fin 1024) :
    (iblk0 V c 3 t : Vec Ideal S256x1024 .f32) (ix2 k j) = V c main_v1 (ix2 k j) := by
  obtain ⟨-, ⟨e0, e1⟩, -, -, -, -, -, -, -⟩ := idx_fixed t
  unfold iblk0
  rw [View.read_apply]
  show V c main_v1 _ = V c main_v1 _
  congr 1
  funext a
  apply Fin.ext
  match a with
  | ⟨0, _⟩ => show win0_3.index t (0 : Fin 2) * 256 + 1 * k.val = k.val; omega
  | ⟨1, _⟩ => show win0_3.index t (1 : Fin 2) * 1024 + 1 * j.val = j.val; omega

/-- The block of the first gate bias at any point is the whole array. -/
theorem blk_bih (c : Dev nD) (t : Fin cfg0.N) (k : Fin 1) (j : Fin 1024) :
    (iblk0 V c 4 t : Vec Ideal S1x1024 .f32) (ix2 k j) = V c main_v10 (ix2 k j) := by
  obtain ⟨-, -, ⟨e0, e1⟩, -, -, -, -, -, -⟩ := idx_fixed t
  unfold iblk0
  rw [View.read_apply]
  show V c main_v10 _ = V c main_v10 _
  congr 1
  funext a
  apply Fin.ext
  match a with
  | ⟨0, _⟩ => show win0_4.index t (0 : Fin 2) * 1 + 1 * k.val = k.val; omega
  | ⟨1, _⟩ => show win0_4.index t (1 : Fin 2) * 1024 + 1 * j.val = j.val; omega

/-- The block of the second gate bias at any point is the whole array. -/
theorem blk_bhh (c : Dev nD) (t : Fin cfg0.N) (k : Fin 1) (j : Fin 1024) :
    (iblk0 V c 5 t : Vec Ideal S1x1024 .f32) (ix2 k j) = V c main_v11 (ix2 k j) := by
  obtain ⟨-, -, -, ⟨e0, e1⟩, -, -, -, -, -⟩ := idx_fixed t
  unfold iblk0
  rw [View.read_apply]
  show V c main_v11 _ = V c main_v11 _
  congr 1
  funext a
  apply Fin.ext
  match a with
  | ⟨0, _⟩ => show win0_5.index t (0 : Fin 2) * 1 + 1 * k.val = k.val; omega
  | ⟨1, _⟩ => show win0_5.index t (1 : Fin 2) * 1024 + 1 * j.val = j.val; omega

/-- The block of the first dense layer's weights at any point is the whole array. -/
theorem blk_w1 (c : Dev nD) (t : Fin cfg0.N) (k : Fin 256) (j : Fin 128) :
    (iblk0 V c 6 t : Vec Ideal S256x128 .f32) (ix2 k j) = V c main_v2 (ix2 k j) := by
  obtain ⟨-, -, -, -, ⟨e0, e1⟩, -, -, -, -⟩ := idx_fixed t
  unfold iblk0
  rw [View.read_apply]
  show V c main_v2 _ = V c main_v2 _
  congr 1
  funext a
  apply Fin.ext
  match a with
  | ⟨0, _⟩ => show win0_6.index t (0 : Fin 2) * 256 + 1 * k.val = k.val; omega
  | ⟨1, _⟩ => show win0_6.index t (1 : Fin 2) * 128 + 1 * j.val = j.val; omega

/-- The block of the first dense layer's bias at any point is the whole array. -/
theorem blk_b1 (c : Dev nD) (t : Fin cfg0.N) (k : Fin 1) (j : Fin 128) :
    (iblk0 V c 7 t : Vec Ideal S1x128 .f32) (ix2 k j) = V c main_v12 (ix2 k j) := by
  obtain ⟨-, -, -, -, -, ⟨e0, e1⟩, -, -, -⟩ := idx_fixed t
  unfold iblk0
  rw [View.read_apply]
  show V c main_v12 _ = V c main_v12 _
  congr 1
  funext a
  apply Fin.ext
  match a with
  | ⟨0, _⟩ => show win0_7.index t (0 : Fin 2) * 1 + 1 * k.val = k.val; omega
  | ⟨1, _⟩ => show win0_7.index t (1 : Fin 2) * 128 + 1 * j.val = j.val; omega

/-- The block of the second dense layer's weights at any point is the whole array. -/
theorem blk_w2 (c : Dev nD) (t : Fin cfg0.N) (k : Fin 128) (j : Fin 128) :
    (iblk0 V c 8 t : Vec Ideal S128x128 .f32) (ix2 k j) = V c main_v3 (ix2 k j) := by
  obtain ⟨-, -, -, -, -, -, ⟨e0, e1⟩, -, -⟩ := idx_fixed t
  unfold iblk0
  rw [View.read_apply]
  show V c main_v3 _ = V c main_v3 _
  congr 1
  funext a
  apply Fin.ext
  match a with
  | ⟨0, _⟩ => show win0_8.index t (0 : Fin 2) * 128 + 1 * k.val = k.val; omega
  | ⟨1, _⟩ => show win0_8.index t (1 : Fin 2) * 128 + 1 * j.val = j.val; omega

/-- The block of the second dense layer's bias at any point is the whole array. -/
theorem blk_b2 (c : Dev nD) (t : Fin cfg0.N) (k : Fin 1) (j : Fin 128) :
    (iblk0 V c 9 t : Vec Ideal S1x128 .f32) (ix2 k j) = V c main_v13 (ix2 k j) := by
  obtain ⟨-, -, -, -, -, -, -, ⟨e0, e1⟩, -⟩ := idx_fixed t
  unfold iblk0
  rw [View.read_apply]
  show V c main_v13 _ = V c main_v13 _
  congr 1
  funext a
  apply Fin.ext
  match a with
  | ⟨0, _⟩ => show win0_9.index t (0 : Fin 2) * 1 + 1 * k.val = k.val; omega
  | ⟨1, _⟩ => show win0_9.index t (1 : Fin 2) * 128 + 1 * j.val = j.val; omega

/-- The block of the projection weights at any point is the whole array. -/
theorem blk_waz (c : Dev nD) (t : Fin cfg0.N) (k : Fin 128) (j : Fin 64) :
    (iblk0 V c 10 t : Vec Ideal S128x64 .f32) (ix2 k j) = V c main_v7 (ix2 k j) := by
  obtain ⟨-, -, -, -, -, -, -, -, ⟨e0, e1⟩⟩ := idx_fixed t
  unfold iblk0
  rw [View.read_apply]
  show V c main_v7 _ = V c main_v7 _
  congr 1
  funext a
  apply Fin.ext
  match a with
  | ⟨0, _⟩ => show win0_10.index t (0 : Fin 2) * 128 + 1 * k.val = k.val; omega
  | ⟨1, _⟩ => show win0_10.index t (1 : Fin 2) * 64 + 1 * j.val = j.val; omega

/-! ## The row functions respect equality of their arguments -/

theorem hcRow_congr {x x' : Fin 1024 → EReal} {h0 h0' c0 c0' : Fin 256 → EReal} {wih wih' : Fin 1024 → Fin 1024 → EReal}
    {whh whh' : Fin 256 → Fin 1024 → EReal} {bih bih' bhh bhh' : Fin 1024 → EReal} {q q' : Fin 512}
    (ex : x = x') (eh : h0 = h0') (ec : c0 = c0') (e1 : wih = wih') (e2 : whh = whh') (e3 : bih = bih') (e4 : bhh = bhh') (eq : q = q') :
    hcRow x h0 c0 wih whh bih bhh q = hcRow x' h0' c0' wih' whh' bih' bhh' q' := by
  subst ex eh ec e1 e2 e3 e4 eq; rfl

theorem zproj_congr {x x' : Fin 1024 → EReal} {h0 h0' c0 c0' : Fin 256 → EReal} {wih wih' : Fin 1024 → Fin 1024 → EReal}
    {whh whh' : Fin 256 → Fin 1024 → EReal} {bih bih' bhh bhh' : Fin 1024 → EReal}
    {w1 w1' : Fin 256 → Fin 128 → EReal} {b1 b1' : Fin 128 → EReal} {w2 w2' : Fin 128 → Fin 128 → EReal} {b2 b2' : Fin 128 → EReal}
    {waz waz' : Fin 128 → Fin 64 → EReal} {j j' : Fin 64}
    (ex : x = x') (eh : h0 = h0') (ec : c0 = c0') (e1 : wih = wih') (e2 : whh = whh') (e3 : bih = bih') (e4 : bhh = bhh')
    (e5 : w1 = w1') (e6 : b1 = b1') (e7 : w2 = w2') (e8 : b2 = b2') (e9 : waz = waz') (ej : j = j') :
    zproj x h0 c0 wih whh bih bhh w1 b1 w2 b2 waz j = zproj x' h0' c0' wih' whh' bih' bhh' w1' b1' w2' b2' waz' j' := by
  subst ex eh ec e1 e2 e3 e4 e5 e6 e7 e8 e9 ej; rfl

/-! ## The two results as whole arrays -/

/-- The second result as one array: row `i 0` is `hcRow` of row `i 0` of `x` and of the state. -/
abbrev hcArr (c : Dev nD) : S16384x512.Idx → EReal := fun i =>
  hcRow (xrow V c ⟨(i 0).val, (i 0).isLt⟩) (h0row V c ⟨(i 0).val, (i 0).isLt⟩) (c0row V c ⟨(i 0).val, (i 0).isLt⟩)
    (wihK V c) (whhK V c) (bihK V c) (bhhK V c) ⟨(i 1).val, (i 1).isLt⟩

/-- The projected state rows as one array: row `i 0` is `zproj` of row `i 0` of `x` and of the state. -/
abbrev zpArr (c : Dev nD) : S16384x64.Idx → EReal := fun i =>
  zproj (xrow V c ⟨(i 0).val, (i 0).isLt⟩) (h0row V c ⟨(i 0).val, (i 0).isLt⟩) (c0row V c ⟨(i 0).val, (i 0).isLt⟩)
    (wihK V c) (whhK V c) (bihK V c) (bhhK V c) (w1K V c) (b1K V c) (w2K V c) (b2K V c) (wazK V c) ⟨(i 1).val, (i 1).isLt⟩

/-! ## One block of each result, entry by entry -/

/-- Entry (p, q) of what point `t` leaves for the second result is `hcRow` of row `1024·t + p`: the body's row
    functions of the block's rows, each block read where it lies. -/
theorem hc_block_at (c : Dev nD) (t : Fin cfg0.N) (p : Fin 1024) (q : Fin 512) (P : Fin 16384) (Q : Fin 512)
    (hP : P.val = t.val * 1024 + p.val) (hQ : Q.val = q.val) :
    out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
      = hcRow (xrow V c P) (h0row V c P) (c0row V c P) (wihK V c) (whhK V c) (bihK V c) (bhhK V c) Q := by
  refine (CellBody.out0_11_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  exact hcRow_congr (funext fun k => blk_x V c t p k P hP) (funext fun k => blk_state V c t p _ P hP)
    (funext fun k => blk_state V c t p _ P hP) (funext fun k => funext fun j => blk_wih V c t k j)
    (funext fun k => funext fun j => blk_whh V c t k j) (funext fun j => blk_bih V c t 0 j) (funext fun j => blk_bhh V c t 0 j)
    (Fin.ext hQ.symm)

/-- Entry (p, j) of what point `t` leaves for the projected state rows is `zproj` of row `1024·t + p`. -/
theorem zp_block_at (c : Dev nD) (t : Fin cfg0.N) (p : Fin 1024) (j : Fin 64) (P : Fin 16384) (J : Fin 64)
    (hP : P.val = t.val * 1024 + p.val) (hJ : J.val = j.val) :
    out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p j)
      = zproj (xrow V c P) (h0row V c P) (c0row V c P) (wihK V c) (whhK V c) (bihK V c) (bhhK V c)
          (w1K V c) (b1K V c) (w2K V c) (b2K V c) (wazK V c) J := by
  refine (CellBody.out0_12_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p j).trans ?_
  exact zproj_congr (funext fun k => blk_x V c t p k P hP) (funext fun k => blk_state V c t p _ P hP)
    (funext fun k => blk_state V c t p _ P hP) (funext fun k => funext fun j => blk_wih V c t k j)
    (funext fun k => funext fun j => blk_whh V c t k j) (funext fun j => blk_bih V c t 0 j) (funext fun j => blk_bhh V c t 0 j)
    (funext fun k => funext fun j => blk_w1 V c t k j) (funext fun j => blk_b1 V c t 0 j)
    (funext fun k => funext fun j => blk_w2 V c t k j) (funext fun j => blk_b2 V c t 0 j)
    (funext fun k => funext fun j => blk_waz V c t k j) (Fin.ext hJ.symm)

/-! ## What each point writes back is its block of the whole-array function -/

theorem flushed_hc (c : Dev nD) (t : Fin cfg0.N) :
    (dat0 V c).flushed 11 t = ((cfg0.win 11).blk t).view.read (Elt Ideal) (hcArr V c) := by
  show (cfg0.win 11).cut (grid0.coords t) ((dat0 V c).after 11 t) = _
  rw [after0_11]
  obtain ⟨-, -, ⟨e0, e1⟩, -⟩ := idx_moving t
  funext y
  have hy0 : (y 0).val < 1024 := (y 0).isLt
  have hy1 : (y 1).val < 512 := (y 1).isLt
  have hy : ((cfg0.win 11).xinj (grid0.coords t) y : S1024x512.Idx) = ix2 (⟨(y 0).val, hy0⟩ : Fin 1024) (⟨(y 1).val, hy1⟩ : Fin 512) :=
    funext fun a => by match a with | ⟨0, _⟩ => rfl | ⟨1, _⟩ => rfl
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((cfg0.win 11).xinj (grid0.coords t) y) = hcArr V c (((cfg0.win 11).blk t).view.emb y)
  rw [hy]
  refine hc_block_at V c t ⟨(y 0).val, hy0⟩ ⟨(y 1).val, hy1⟩ _ _ ?_ ?_
  · show win0_11.index t (0 : Fin 2) * 1024 + 1 * (y 0).val = t.val * 1024 + (y 0).val; omega
  · show win0_11.index t (1 : Fin 2) * 512 + 1 * (y 1).val = (y 1).val; omega

theorem flushed_zp (c : Dev nD) (t : Fin cfg0.N) :
    (dat0 V c).flushed 12 t = ((cfg0.win 12).blk t).view.read (Elt Ideal) (zpArr V c) := by
  show (cfg0.win 12).cut (grid0.coords t) ((dat0 V c).after 12 t) = _
  rw [after0_12]
  obtain ⟨-, -, -, ⟨e0, e1⟩⟩ := idx_moving t
  funext y
  have hy0 : (y 0).val < 1024 := (y 0).isLt
  have hy1 : (y 1).val < 64 := (y 1).isLt
  have hy : ((cfg0.win 12).xinj (grid0.coords t) y : S1024x64.Idx) = ix2 (⟨(y 0).val, hy0⟩ : Fin 1024) (⟨(y 1).val, hy1⟩ : Fin 64) :=
    funext fun a => by match a with | ⟨0, _⟩ => rfl | ⟨1, _⟩ => rfl
  show out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((cfg0.win 12).xinj (grid0.coords t) y) = zpArr V c (((cfg0.win 12).blk t).view.emb y)
  rw [hy]
  refine zp_block_at V c t ⟨(y 0).val, hy0⟩ ⟨(y 1).val, hy1⟩ _ _ ?_ ?_
  · show win0_12.index t (0 : Fin 2) * 1024 + 1 * (y 0).val = t.val * 1024 + (y 0).val; omega
  · show win0_12.index t (1 : Fin 2) * 64 + 1 * (y 1).val = (y 1).val; omega

/-! ## The blocks tile the arrays: row `r` lies in the block of point `r / 1024` -/

/-- An index of the second result is in point `t`'s block iff each coordinate is in the block's range on its axis. -/
theorem mem_blk_hc (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v17_0).slice (win0_11.rect t)).set ↔ _
  rw [View.set_slice_whole, Rect.mem_set_unit]
  exact Iff.rfl

theorem mem_blk_zp (t : Fin cfg0.N) (i : S16384x64.Idx) :
    i ∈ ((cfg0.win 12).blk t).view.set ↔ ∀ a : Fin 2, win0_12.index t a * S1024x64.size a ≤ (i a).val ∧ (i a).val < win0_12.index t a * S1024x64.size a + S1024x64.size a := by
  show i ∈ ((View.whole main_v17_1).slice (win0_12.rect t)).set ↔ _
  rw [View.set_slice_whole, Rect.mem_set_unit]
  exact Iff.rfl

theorem cover_hc (i : S16384x512.Idx) : ∃ t : Fin cfg0.N, (cfg0.win 11).flush t = true ∧ i ∈ ((cfg0.win 11).blk t).view.set := by
  have hi0 : (i 0).val < 16384 := (i 0).isLt
  have hi1 : (i 1).val < 512 := (i 1).isLt
  obtain ⟨t, ht⟩ : ∃ t : Fin cfg0.N, t.val = (i 0).val / 1024 :=
    ⟨⟨(i 0).val / 1024, by have := N_0; show (i 0).val / 1024 < grid0.N; omega⟩, rfl⟩
  obtain ⟨-, -, ⟨e0, e1⟩, -⟩ := idx_moving t
  refine ⟨t, flush0_11 t, ?_⟩
  rw [mem_blk_hc]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

theorem cover_zp (i : S16384x64.Idx) : ∃ t : Fin cfg0.N, (cfg0.win 12).flush t = true ∧ i ∈ ((cfg0.win 12).blk t).view.set := by
  have hi0 : (i 0).val < 16384 := (i 0).isLt
  have hi1 : (i 1).val < 64 := (i 1).isLt
  obtain ⟨t, ht⟩ : ∃ t : Fin cfg0.N, t.val = (i 0).val / 1024 :=
    ⟨⟨(i 0).val / 1024, by have := N_0; show (i 0).val / 1024 < grid0.N; omega⟩, rfl⟩
  obtain ⟨-, -, -, ⟨e0, e1⟩⟩ := idx_moving t
  refine ⟨t, flush0_12 t, ?_⟩
  rw [mem_blk_zp]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 64 ≤ (i 1).val ∧ (i 1).val < win0_12.index t (1 : Fin 2) * 64 + 64; omega

/-- The second result's array after the region: row `p` is `hcRow` of row `p`. -/
theorem hc_final (c : Dev nD) (p : Fin 16384) (q : Fin 512) :
    (dat0 V c).arrAt 11 cfg0.N (ix2 p q)
      = hcRow (xrow V c p) (h0row V c p) (c0row V c p) (wihK V c) (whhK V c) (bihK V c) (bhhK V c) q := by
  have h := (dat0 V c).arrAt_eq_of_cover 11 (hcArr V c) (fun t _ => flushed_hc V c t) (cover_hc)
  exact congrFun h (ix2 p q)

/-- The projected state rows after the region: row `p` is `zproj` of row `p`. -/
theorem zp_final (c : Dev nD) (p : Fin 16384) (j : Fin 64) :
    (dat0 V c).arrAt 12 cfg0.N (ix2 p j)
      = zproj (xrow V c p) (h0row V c p) (c0row V c p) (wihK V c) (whhK V c) (bihK V c) (bhhK V c)
          (w1K V c) (b1K V c) (w2K V c) (b2K V c) (wazK V c) j := by
  have h := (dat0 V c).arrAt_eq_of_cover 12 (zpArr V c) (fun t _ => flushed_zp V c t) (cover_zp)
  exact congrFun h (ix2 p j)

end Cert.KernelIdeal.CellRegion

end
-- ==== Proof.ActionBody.lean ====
import proofs.«428442_j20916490732073_1_alg».proof.Proof.Gen.KernelIdeal.Frame
import proofs.«428442_j20916490732073_1_alg».proof.Proof.RowSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ActionBody

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! The second kernel's body on one block of 16384 actions, read at an index: the score of the block's action `p`
    is the row function of its features, of its gathered projected state row and of the weight blocks. -/

/-! ### The product `[16384, 113] × [113, 64]` into a zero accumulator, read at an entry -/

theorem lhs_mmA_0 (i : S16384x64.Idx) (q : dot_S16384x113_S113x64_S16384x64_1_0_0_1_n_n.contr.Idx) :
    (dot_S16384x113_S113x64_S16384x64_1_0_0_1_n_n.lhsIdx i q 0).val = (i 0).val := by
  unfold DotDims.lhsIdx
  rw [dif_neg (show ¬(0 : Fin S16384x113.rank) ∈ dot_S16384x113_S113x64_S16384x64_1_0_0_1_n_n.lhsBatch by decide), dif_pos (show (0 : Fin S16384x113.rank) ∈ dot_S16384x113_S113x64_S16384x64_1_0_0_1_n_n.lhsNonContracting by decide)]
  rfl
theorem lhs_mmA_1 (i : S16384x64.Idx) (q : dot_S16384x113_S113x64_S16384x64_1_0_0_1_n_n.contr.Idx) :
    (dot_S16384x113_S113x64_S16384x64_1_0_0_1_n_n.lhsIdx i q 1).val = (q ⟨0, by decide⟩).val :=
  dot_S16384x113_S113x64_S16384x64_1_0_0_1_n_n.lhsIdx_val_of_single rfl i q
theorem rhs_mmA_0 (i : S16384x64.Idx) (q : dot_S16384x113_S113x64_S16384x64_1_0_0_1_n_n.contr.Idx) :
    (dot_S16384x113_S113x64_S16384x64_1_0_0_1_n_n.rhsIdx i q 0).val = (q ⟨0, by decide⟩).val :=
  dot_S16384x113_S113x64_S16384x64_1_0_0_1_n_n.rhsIdx_val_of_single rfl i q
theorem rhs_mmA_1 (i : S16384x64.Idx) (q : dot_S16384x113_S113x64_S16384x64_1_0_0_1_n_n.contr.Idx) :
    (dot_S16384x113_S113x64_S16384x64_1_0_0_1_n_n.rhsIdx i q 1).val = (i 1).val := by
  unfold DotDims.rhsIdx
  rw [dif_neg (show ¬(1 : Fin S113x64.rank) ∈ dot_S16384x113_S113x64_S16384x64_1_0_0_1_n_n.rhsBatch by decide), dif_pos (show (1 : Fin S113x64.rank) ∈ dot_S16384x113_S113x64_S16384x64_1_0_0_1_n_n.rhsNonContracting by decide)]
  rfl

/-- Entry `(p, q)` of the product is the sum over the 113 contracted coordinates. -/
theorem mmA_at (l : FVec Ideal S16384x113 .f32) (r : FVec Ideal S113x64 .f32) (p : Fin 16384) (q : Fin 64) :
    matmul dot_S16384x113_S113x64_S16384x64_1_0_0_1_n_n none l r (constant (F := Ideal) S16384x64 .f32 0x00000000#32) (ix2 p q)
      = ∑ k : Fin 113, l (ix2 p k) * r (ix2 k q) := by
  simp only [matmul]
  rw [Ideal.matmul_constant_zero_apply, ← Equiv.sum_comp (ValueIdx.contrEquiv1 dot_S16384x113_S113x64_S16384x64_1_0_0_1_n_n 113 rfl rfl).symm]
  refine Finset.sum_congr rfl fun k _ => ?_
  have hk := ValueIdx.contrEquiv1_symm_val dot_S16384x113_S113x64_S16384x64_1_0_0_1_n_n 113 rfl rfl k
  have el : dot_S16384x113_S113x64_S16384x64_1_0_0_1_n_n.lhsIdx (ix2 p q) ((ValueIdx.contrEquiv1 dot_S16384x113_S113x64_S16384x64_1_0_0_1_n_n 113 rfl rfl).symm k) = ix2 p k := funext fun a => Fin.ext (by
    match a with
    | ⟨0, _⟩ => exact lhs_mmA_0 _ _
    | ⟨1, _⟩ => exact (lhs_mmA_1 _ _).trans hk)
  have er : dot_S16384x113_S113x64_S16384x64_1_0_0_1_n_n.rhsIdx (ix2 p q) ((ValueIdx.contrEquiv1 dot_S16384x113_S113x64_S16384x64_1_0_0_1_n_n 113 rfl rfl).symm k) = ix2 k q := funext fun a => Fin.ext (by
    match a with
    | ⟨0, _⟩ => exact (rhs_mmA_0 _ _).trans hk
    | ⟨1, _⟩ => exact rhs_mmA_1 _ _)
  rw [el, er]

/-! ### The product `[16384, 64] × [64, 4]` into a zero accumulator, read at an entry -/

theorem lhs_mmB_0 (i : S16384x4.Idx) (q : dot_S16384x64_S64x4_S16384x4_1_0_0_1_n_n.contr.Idx) :
    (dot_S16384x64_S64x4_S16384x4_1_0_0_1_n_n.lhsIdx i q 0).val = (i 0).val := by
  unfold DotDims.lhsIdx
  rw [dif_neg (show ¬(0 : Fin S16384x64.rank) ∈ dot_S16384x64_S64x4_S16384x4_1_0_0_1_n_n.lhsBatch by decide), dif_pos (show (0 : Fin S16384x64.rank) ∈ dot_S16384x64_S64x4_S16384x4_1_0_0_1_n_n.lhsNonContracting by decide)]
  rfl
theorem lhs_mmB_1 (i : S16384x4.Idx) (q : dot_S16384x64_S64x4_S16384x4_1_0_0_1_n_n.contr.Idx) :
    (dot_S16384x64_S64x4_S16384x4_1_0_0_1_n_n.lhsIdx i q 1).val = (q ⟨0, by decide⟩).val :=
  dot_S16384x64_S64x4_S16384x4_1_0_0_1_n_n.lhsIdx_val_of_single rfl i q
theorem rhs_mmB_0 (i : S16384x4.Idx) (q : dot_S16384x64_S64x4_S16384x4_1_0_0_1_n_n.contr.Idx) :
    (dot_S16384x64_S64x4_S16384x4_1_0_0_1_n_n.rhsIdx i q 0).val = (q ⟨0, by decide⟩).val :=
  dot_S16384x64_S64x4_S16384x4_1_0_0_1_n_n.rhsIdx_val_of_single rfl i q
theorem rhs_mmB_1 (i : S16384x4.Idx) (q : dot_S16384x64_S64x4_S16384x4_1_0_0_1_n_n.contr.Idx) :
    (dot_S16384x64_S64x4_S16384x4_1_0_0_1_n_n.rhsIdx i q 1).val = (i 1).val := by
  unfold DotDims.rhsIdx
  rw [dif_neg (show ¬(1 : Fin S64x4.rank) ∈ dot_S16384x64_S64x4_S16384x4_1_0_0_1_n_n.rhsBatch by decide), dif_pos (show (1 : Fin S64x4.rank) ∈ dot_S16384x64_S64x4_S16384x4_1_0_0_1_n_n.rhsNonContracting by decide)]
  rfl

/-- Entry `(p, q)` of the product is the sum over the 64 contracted coordinates. -/
theorem mmB_at (l : FVec Ideal S16384x64 .f32) (r : FVec Ideal S64x4 .f32) (p : Fin 16384) (q : Fin 4) :
    matmul dot_S16384x64_S64x4_S16384x4_1_0_0_1_n_n none l r (constant (F := Ideal) S16384x4 .f32 0x00000000#32) (ix2 p q)
      = ∑ k : Fin 64, l (ix2 p k) * r (ix2 k q) := by
  simp only [matmul]
  rw [Ideal.matmul_constant_zero_apply, ← Equiv.sum_comp (ValueIdx.contrEquiv1 dot_S16384x64_S64x4_S16384x4_1_0_0_1_n_n 64 rfl rfl).symm]
  refine Finset.sum_congr rfl fun k _ => ?_
  have hk := ValueIdx.contrEquiv1_symm_val dot_S16384x64_S64x4_S16384x4_1_0_0_1_n_n 64 rfl rfl k
  have el : dot_S16384x64_S64x4_S16384x4_1_0_0_1_n_n.lhsIdx (ix2 p q) ((ValueIdx.contrEquiv1 dot_S16384x64_S64x4_S16384x4_1_0_0_1_n_n 64 rfl rfl).symm k) = ix2 p k := funext fun a => Fin.ext (by
    match a with
    | ⟨0, _⟩ => exact lhs_mmB_0 _ _
    | ⟨1, _⟩ => exact (lhs_mmB_1 _ _).trans hk)
  have er : dot_S16384x64_S64x4_S16384x4_1_0_0_1_n_n.rhsIdx (ix2 p q) ((ValueIdx.contrEquiv1 dot_S16384x64_S64x4_S16384x4_1_0_0_1_n_n 64 rfl rfl).symm k) = ix2 k q := funext fun a => Fin.ext (by
    match a with
    | ⟨0, _⟩ => exact (rhs_mmB_0 _ _).trans hk
    | ⟨1, _⟩ => exact rhs_mmB_1 _ _)
  rw [el, er]

/-! ### The product `[16384, 4] × [4, 1]` into a zero accumulator, read at an entry -/

theorem lhs_mmC_0 (i : S16384x1.Idx) (q : dot_S16384x4_S4x1_S16384x1_1_0_0_1_n_n.contr.Idx) :
    (dot_S16384x4_S4x1_S16384x1_1_0_0_1_n_n.lhsIdx i q 0).val = (i 0).val := by
  unfold DotDims.lhsIdx
  rw [dif_neg (show ¬(0 : Fin S16384x4.rank) ∈ dot_S16384x4_S4x1_S16384x1_1_0_0_1_n_n.lhsBatch by decide), dif_pos (show (0 : Fin S16384x4.rank) ∈ dot_S16384x4_S4x1_S16384x1_1_0_0_1_n_n.lhsNonContracting by decide)]
  rfl
theorem lhs_mmC_1 (i : S16384x1.Idx) (q : dot_S16384x4_S4x1_S16384x1_1_0_0_1_n_n.contr.Idx) :
    (dot_S16384x4_S4x1_S16384x1_1_0_0_1_n_n.lhsIdx i q 1).val = (q ⟨0, by decide⟩).val :=
  dot_S16384x4_S4x1_S16384x1_1_0_0_1_n_n.lhsIdx_val_of_single rfl i q
theorem rhs_mmC_0 (i : S16384x1.Idx) (q : dot_S16384x4_S4x1_S16384x1_1_0_0_1_n_n.contr.Idx) :
    (dot_S16384x4_S4x1_S16384x1_1_0_0_1_n_n.rhsIdx i q 0).val = (q ⟨0, by decide⟩).val :=
  dot_S16384x4_S4x1_S16384x1_1_0_0_1_n_n.rhsIdx_val_of_single rfl i q
theorem rhs_mmC_1 (i : S16384x1.Idx) (q : dot_S16384x4_S4x1_S16384x1_1_0_0_1_n_n.contr.Idx) :
    (dot_S16384x4_S4x1_S16384x1_1_0_0_1_n_n.rhsIdx i q 1).val = (i 1).val := by
  unfold DotDims.rhsIdx
  rw [dif_neg (show ¬(1 : Fin S4x1.rank) ∈ dot_S16384x4_S4x1_S16384x1_1_0_0_1_n_n.rhsBatch by decide), dif_pos (show (1 : Fin S4x1.rank) ∈ dot_S16384x4_S4x1_S16384x1_1_0_0_1_n_n.rhsNonContracting by decide)]
  rfl

/-- Entry `(p, q)` of the product is the sum over the 4 contracted coordinates. -/
theorem mmC_at (l : FVec Ideal S16384x4 .f32) (r : FVec Ideal S4x1 .f32) (p : Fin 16384) (q : Fin 1) :
    matmul dot_S16384x4_S4x1_S16384x1_1_0_0_1_n_n none l r (constant (F := Ideal) S16384x1 .f32 0x00000000#32) (ix2 p q)
      = ∑ k : Fin 4, l (ix2 p k) * r (ix2 k q) := by
  simp only [matmul]
  rw [Ideal.matmul_constant_zero_apply, ← Equiv.sum_comp (ValueIdx.contrEquiv1 dot_S16384x4_S4x1_S16384x1_1_0_0_1_n_n 4 rfl rfl).symm]
  refine Finset.sum_congr rfl fun k _ => ?_
  have hk := ValueIdx.contrEquiv1_symm_val dot_S16384x4_S4x1_S16384x1_1_0_0_1_n_n 4 rfl rfl k
  have el : dot_S16384x4_S4x1_S16384x1_1_0_0_1_n_n.lhsIdx (ix2 p q) ((ValueIdx.contrEquiv1 dot_S16384x4_S4x1_S16384x1_1_0_0_1_n_n 4 rfl rfl).symm k) = ix2 p k := funext fun a => Fin.ext (by
    match a with
    | ⟨0, _⟩ => exact lhs_mmC_0 _ _
    | ⟨1, _⟩ => exact (lhs_mmC_1 _ _).trans hk)
  have er : dot_S16384x4_S4x1_S16384x1_1_0_0_1_n_n.rhsIdx (ix2 p q) ((ValueIdx.contrEquiv1 dot_S16384x4_S4x1_S16384x1_1_0_0_1_n_n 4 rfl rfl).symm k) = ix2 k q := funext fun a => Fin.ext (by
    match a with
    | ⟨0, _⟩ => exact (rhs_mmC_0 _ _).trans hk
    | ⟨1, _⟩ => exact rhs_mmC_1 _ _)
  rw [el, er]

/-! ### A bias row spread over the block's rows, read at an entry -/

/-- Row `p` of a `[1, 64]` row spread over 16384 rows is that row. -/
theorem bcA_at (v : FVec Ideal S1x64 .f32) (p : Fin 16384) (q : Fin 64) :
    broadcastTo S16384x64 v broadcasts_S1x64_S16384x64 (ix2 p q) = v (ix2 (0 : Fin 1) q) :=
  broadcastTo_apply v broadcasts_S1x64_S16384x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Row `p` of a `[1, 4]` row spread over 16384 rows is that row. -/
theorem bcB_at (v : FVec Ideal S1x4 .f32) (p : Fin 16384) (q : Fin 4) :
    broadcastTo S16384x4 v broadcasts_S1x4_S16384x4 (ix2 p q) = v (ix2 (0 : Fin 1) q) :=
  broadcastTo_apply v broadcasts_S1x4_S16384x4 (ix2 p q) (ix2 (0 : Fin 1) q) (fun a => match a with
    | ⟨0, _⟩ => by show 0 = if (1 : Nat) = 1 then 0 else p.val; rw [if_pos rfl]
    | ⟨1, _⟩ => by show q.val = if (4 : Nat) = 1 then 0 else q.val; rw [if_neg (by decide)])

/-- Row `p` of a `[1, 1]` entry spread over 16384 rows is that entry. -/
theorem bcC_at (v : FVec Ideal S1x1 .f32) (p : Fin 16384) :
    broadcastTo S16384x1 v broadcasts_S1x1_S16384x1 (ix2 p (0 : Fin 1)) = v (ix2 (0 : Fin 1) (0 : Fin 1)) :=
  broadcastTo_apply v broadcasts_S1x1_S16384x1 (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])

/-- The rectifier's zero word is the extended real `0`. -/
theorem zero_word : (FloatOps.ofBits (F := Ideal) .f32 0x00000000#32 : EReal) = 0 := Ideal.ofBits_zero_f32

theorem hz : (![0, 0] : Fin 2 → Nat) = fun _ => 0 := funext fun a => by fin_cases a <;> rfl

variable (x0 : Vec Ideal S16384x113 .f32) (x1 : Vec Ideal S16384x64 .f32) (x2 : Vec Ideal S113x64 .f32) (x3 : Vec Ideal S1x64 .f32)
  (x4 : Vec Ideal S64x4 .f32) (x5 : Vec Ideal S1x4 .f32) (x6 : Vec Ideal S4x1 .f32) (x7 : Vec Ideal S1x1 .f32)

theorem out1_8_at (p : Fin 16384) :
    out1_8 (F := Ideal) x0 x1 x2 x3 x4 x5 x6 x7 (ix2 p (0 : Fin 1))
      = score (fun k => x0 (ix2 p k)) (fun k j => x2 (ix2 k j)) (fun j => x3 (ix2 (0 : Fin 1) j))
          (fun k j => x4 (ix2 k j)) (fun j => x5 (ix2 (0 : Fin 1) j)) (fun k j => x6 (ix2 k j)) (fun j => x7 (ix2 (0 : Fin 1) j))
          (fun j => x1 (ix2 p j)) 0 := by
  unfold out1_8
  rw [View.canon_unit_zero hz]
  simp only [View.ld_unit_zero (S := S16384x113) hz, View.ld_unit_zero (S := S113x64) hz, View.ld_unit_zero (S := S16384x64) hz,
    View.ld_unit_zero (S := S1x64) hz, View.ld_unit_zero (S := S64x4) hz, View.ld_unit_zero (S := S1x4) hz,
    View.ld_unit_zero (S := S4x1) hz, View.ld_unit_zero (S := S1x1) hz]
  unfold k1_pay1
  simp only [shapeCast_self]
  simp only [addf_apply, maximumf_apply, broadcast_apply, mmA_at, mmB_at, mmC_at, bcA_at, bcB_at, bcC_at, zero_word]
  unfold score dense act2 dense act1 relu
  rfl

end Cert.KernelIdeal.ActionBody

end
-- ==== Proof.ActionRegion.lean ====
import proofs.«428442_j20916490732073_1_alg».proof.Proof.Gen.KernelIdeal.Frame
import proofs.«428442_j20916490732073_1_alg».proof.Proof.RowSpec
import proofs.«428442_j20916490732073_1_alg».proof.Proof.ActionBody
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ActionRegion

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! The second region — the action network on 20 blocks of 16384 actions — read as a whole array: action `a`'s score
    is the row function of the action's features, of the gathered projected state row, and of the weights as the
    region finds them (`V`). -/

variable (V : (c : Dev nD) → (b : Ref sig .tc) → Buf (Elt Ideal) ((c : Thread nD τ).loc b))

/-- Action `a`'s own features. -/
abbrev pasrow (c : Dev nD) (a : Fin 327680) : Fin 113 → EReal := fun k => V c main_arg2 (ix2 a k)
/-- The projected state row gathered for action `a`. -/
abbrev zpgrow (c : Dev nD) (a : Fin 327680) : Fin 64 → EReal := fun j => V c main_v18 (ix2 a j)
abbrev wasK (c : Dev nD) : Fin 113 → Fin 64 → EReal := fun k j => V c main_v6 (ix2 k j)
abbrev ba1K (c : Dev nD) : Fin 64 → EReal := fun j => V c main_v14 (ix2 (0 : Fin 1) j)
abbrev wa2K (c : Dev nD) : Fin 64 → Fin 4 → EReal := fun k j => V c main_v8 (ix2 k j)
abbrev ba2K (c : Dev nD) : Fin 4 → EReal := fun j => V c main_v15 (ix2 (0 : Fin 1) j)
abbrev wa3K (c : Dev nD) : Fin 4 → Fin 1 → EReal := fun k j => V c main_v9 (ix2 k j)
abbrev ba3K (c : Dev nD) : Fin 1 → EReal := fun j => V c main_v16 (ix2 (0 : Fin 1) j)

theorem hN : cfg1.N = 20 := N_1

/-- The index maps over the grid: the action features, the gathered rows and the result move with the grid point
    (block `t` of their rows, the one block of their columns); each weight and bias is its one whole block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ### Each input block, read where the point's block sits in its array -/

/-- Row `p` of the feature block at point `t` is row `16384 t + p` of the feature array. -/
theorem blk0_at (c : Dev nD) (t : Fin cfg1.N) (p : Fin 16384) (k : Fin 113) (a : Fin 327680) (ha : a.val = t.val * 16384 + p.val) :
    (iblk1 V c 0 t : Vec Ideal S16384x113 .f32) (ix2 p k) = V c main_arg2 (ix2 a k) := by
  obtain ⟨e00, e01, e10, e11, e20, e21, e30, e31, e40, e41, e50, e51, e60, e61, e70, e71, e80, e81⟩ := idx_facts t
  unfold iblk1
  rw [View.read_apply]
  show V c main_arg2 _ = V c main_arg2 _
  congr 1
  funext b; apply Fin.ext
  match b with
  | ⟨0, _⟩ => show win1_0.index t (0 : Fin 2) * 16384 + 1 * p.val = a.val; omega
  | ⟨1, _⟩ => show win1_0.index t (1 : Fin 2) * 113 + 1 * k.val = k.val; omega

/-- Row `p` of the gathered block at point `t` is row `16384 t + p` of the gathered array. -/
theorem blk1_at (c : Dev nD) (t : Fin cfg1.N) (p : Fin 16384) (j : Fin 64) (a : Fin 327680) (ha : a.val = t.val * 16384 + p.val) :
    (iblk1 V c 1 t : Vec Ideal S16384x64 .f32) (ix2 p j) = V c main_v18 (ix2 a j) := by
  obtain ⟨e00, e01, e10, e11, e20, e21, e30, e31, e40, e41, e50, e51, e60, e61, e70, e71, e80, e81⟩ := idx_facts t
  unfold iblk1
  rw [View.read_apply]
  show V c main_v18 _ = V c main_v18 _
  congr 1
  funext b; apply Fin.ext
  match b with
  | ⟨0, _⟩ => show win1_1.index t (0 : Fin 2) * 16384 + 1 * p.val = a.val; omega
  | ⟨1, _⟩ => show win1_1.index t (1 : Fin 2) * 64 + 1 * j.val = j.val; omega

/-- Window 2's one block is the whole of its array. -/
theorem blk2_eq (c : Dev nD) (t : Fin cfg1.N) : (iblk1 V c 2 t : Vec Ideal S113x64 .f32) = V c main_v6 := by
  obtain ⟨e00, e01, e10, e11, e20, e21, e30, e31, e40, e41, e50, e51, e60, e61, e70, e71, e80, e81⟩ := idx_facts t
  funext y
  unfold iblk1
  rw [View.read_apply]
  show V c main_v6 _ = V c main_v6 _
  congr 1
  funext b; apply Fin.ext
  match b with
  | ⟨0, _⟩ => show win1_2.index t (0 : Fin 2) * 113 + 1 * (y 0).val = (y 0).val; omega
  | ⟨1, _⟩ => show win1_2.index t (1 : Fin 2) * 64 + 1 * (y 1).val = (y 1).val; omega

/-- Window 3's one block is the whole of its array. -/
theorem blk3_eq (c : Dev nD) (t : Fin cfg1.N) : (iblk1 V c 3 t : Vec Ideal S1x64 .f32) = V c main_v14 := by
  obtain ⟨e00, e01, e10, e11, e20, e21, e30, e31, e40, e41, e50, e51, e60, e61, e70, e71, e80, e81⟩ := idx_facts t
  funext y
  unfold iblk1
  rw [View.read_apply]
  show V c main_v14 _ = V c main_v14 _
  congr 1
  funext b; apply Fin.ext
  match b with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's one block is the whole of its array. -/
theorem blk4_eq (c : Dev nD) (t : Fin cfg1.N) : (iblk1 V c 4 t : Vec Ideal S64x4 .f32) = V c main_v8 := by
  obtain ⟨e00, e01, e10, e11, e20, e21, e30, e31, e40, e41, e50, e51, e60, e61, e70, e71, e80, e81⟩ := idx_facts t
  funext y
  unfold iblk1
  rw [View.read_apply]
  show V c main_v8 _ = V c main_v8 _
  congr 1
  funext b; apply Fin.ext
  match b with
  | ⟨0, _⟩ => show win1_4.index t (0 : Fin 2) * 64 + 1 * (y 0).val = (y 0).val; omega
  | ⟨1, _⟩ => show win1_4.index t (1 : Fin 2) * 4 + 1 * (y 1).val = (y 1).val; omega

/-- Window 5's one block is the whole of its array. -/
theorem blk5_eq (c : Dev nD) (t : Fin cfg1.N) : (iblk1 V c 5 t : Vec Ideal S1x4 .f32) = V c main_v15 := by
  obtain ⟨e00, e01, e10, e11, e20, e21, e30, e31, e40, e41, e50, e51, e60, e61, e70, e71, e80, e81⟩ := idx_facts t
  funext y
  unfold iblk1
  rw [View.read_apply]
  show V c main_v15 _ = V c main_v15 _
  congr 1
  funext b; apply Fin.ext
  match b with
  | ⟨0, _⟩ => show win1_5.index t (0 : Fin 2) * 1 + 1 * (y 0).val = (y 0).val; omega
  | ⟨1, _⟩ => show win1_5.index t (1 : Fin 2) * 4 + 1 * (y 1).val = (y 1).val; omega

/-- Window 6's one block is the whole of its array. -/
theorem blk6_eq (c : Dev nD) (t : Fin cfg1.N) : (iblk1 V c 6 t : Vec Ideal S4x1 .f32) = V c main_v9 := by
  obtain ⟨e00, e01, e10, e11, e20, e21, e30, e31, e40, e41, e50, e51, e60, e61, e70, e71, e80, e81⟩ := idx_facts t
  funext y
  unfold iblk1
  rw [View.read_apply]
  show V c main_v9 _ = V c main_v9 _
  congr 1
  funext b; apply Fin.ext
  match b with
  | ⟨0, _⟩ => show win1_6.index t (0 : Fin 2) * 4 + 1 * (y 0).val = (y 0).val; omega
  | ⟨1, _⟩ => show win1_6.index t (1 : Fin 2) * 1 + 1 * (y 1).val = (y 1).val; omega

/-- Window 7's one block is the whole of its array. -/
theorem blk7_eq (c : Dev nD) (t : Fin cfg1.N) : (iblk1 V c 7 t : Vec Ideal S1x1 .f32) = V c main_v16 := by
  obtain ⟨e00, e01, e10, e11, e20, e21, e30, e31, e40, e41, e50, e51, e60, e61, e70, e71, e80, e81⟩ := idx_facts t
  funext y
  unfold iblk1
  rw [View.read_apply]
  show V c main_v16 _ = V c main_v16 _
  congr 1
  funext b; apply Fin.ext
  match b with
  | ⟨0, _⟩ => show win1_7.index t (0 : Fin 2) * 1 + 1 * (y 0).val = (y 0).val; omega
  | ⟨1, _⟩ => show win1_7.index t (1 : Fin 2) * 1 + 1 * (y 1).val = (y 1).val; omega

/-! ### The whole array of scores -/

/-- Entry `(a, ·)` of the result array: the score of action `a`. -/
def G8 (c : Dev nD) : S327680x1.Idx → EReal := fun i =>
  score (pasrow V c ⟨(i 0).val, idx2_lt0 i⟩) (wasK V c) (ba1K V c) (wa2K V c) (ba2K V c) (wa3K V c) (ba3K V c)
    (zpgrow V c ⟨(i 0).val, idx2_lt0 i⟩) 0

/-- What point `t` leaves at row `p` of its result block is the score of action `16384 t + p`. -/
theorem point_at (c : Dev nD) (t : Fin cfg1.N) (p : Fin 16384) (a : Fin 327680) (ha : a.val = t.val * 16384 + p.val) :
    out1_8 (F := Ideal) (iblk1 V c 0 t) (iblk1 V c 1 t) (iblk1 V c 2 t) (iblk1 V c 3 t) (iblk1 V c 4 t) (iblk1 V c 5 t) (iblk1 V c 6 t) (iblk1 V c 7 t) (ix2 p (0 : Fin 1))
      = score (pasrow V c a) (wasK V c) (ba1K V c) (wa2K V c) (ba2K V c) (wa3K V c) (ba3K V c) (zpgrow V c a) 0 := by
  refine (ActionBody.out1_8_at (iblk1 V c 0 t) (iblk1 V c 1 t) (iblk1 V c 2 t) (iblk1 V c 3 t) (iblk1 V c 4 t) (iblk1 V c 5 t) (iblk1 V c 6 t) (iblk1 V c 7 t) p).trans ?_
  have h0 : (fun k => (iblk1 V c 0 t : Vec Ideal S16384x113 .f32) (ix2 p k)) = pasrow V c a := funext fun k => blk0_at V c t p k a ha
  have h1 : (fun j => (iblk1 V c 1 t : Vec Ideal S16384x64 .f32) (ix2 p j)) = zpgrow V c a := funext fun j => blk1_at V c t p j a ha
  rw [h0, h1, blk2_eq V c t, blk3_eq V c t, blk4_eq V c t, blk5_eq V c t, blk6_eq V c t, blk7_eq V c t]

/-- What point `t` writes back is block `t` of the array of scores. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  obtain ⟨e00, e01, e10, e11, e20, e21, e30, e31, e40, e41, e50, e51, e60, e61, e70, e71, e80, e81⟩ := idx_facts t
  funext j
  have hj0 : (j 0).val < 16384 := (j 0).isLt
  have hj1 : (j 1).val < 1 := (j 1).isLt
  have hj : j = ix2 (⟨(j 0).val, hj0⟩ : Fin 16384) (0 : Fin 1) := funext fun b => Fin.ext (by
    match b with
    | ⟨0, _⟩ => rfl
    | ⟨1, _⟩ => show (j 1).val = 0; omega)
  have hemb : (((cfg1.win 8).blk t).view.emb j 0).val = t.val * 16384 + (j 0).val := by
    show win1_8.index t (0 : Fin 2) * 16384 + 1 * (j 0).val = _; omega
  show out1_8 (F := Ideal) (iblk1 V c 0 t) (iblk1 V c 1 t) (iblk1 V c 2 t) (iblk1 V c 3 t) (iblk1 V c 4 t) (iblk1 V c 5 t) (iblk1 V c 6 t) (iblk1 V c 7 t) j
    = G8 V c (((cfg1.win 8).blk t).view.emb j)
  rw [hj]
  exact point_at V c t ⟨(j 0).val, hj0⟩ ⟨_, idx2_lt0 _⟩ hemb

/-- An index of the result array is in point `t`'s block iff each coordinate is in the block's range on its axis. -/
theorem mem_blk8 (t : Fin cfg1.N) (i : S327680x1.Idx) :
    i ∈ ((cfg1.win 8).blk t).view.set ↔ ∀ a : Fin 2, win1_8.index t a * S16384x1.size a ≤ (i a).val ∧ (i a).val < win1_8.index t a * S16384x1.size a + S16384x1.size a := by
  show i ∈ ((View.whole main_v19).slice (win1_8.rect t)).set ↔ _
  rw [View.set_slice_whole, Rect.mem_set_unit]
  exact Iff.rfl

/-- Action `a` is covered by point `a / 16384`. -/
theorem cover8 (i : S327680x1.Idx) :
    ∃ t : Fin cfg1.N, (cfg1.win 8).flush t = true ∧ i ∈ ((cfg1.win 8).blk t).view.set := by
  have hi0 : (i 0).val < 327680 := (i 0).isLt
  have hi1 : (i 1).val < 1 := (i 1).isLt
  have htlt : (i 0).val / 16384 < cfg1.N := by rw [hN]; omega
  obtain ⟨e00, e01, e10, e11, e20, e21, e30, e31, e40, e41, e50, e51, e60, e61, e70, e71, e80, e81⟩ := idx_facts ⟨(i 0).val / 16384, htlt⟩
  refine ⟨⟨(i 0).val / 16384, htlt⟩, flush1_8 _, ?_⟩
  rw [mem_blk8]
  intro a
  match a with
  | ⟨0, _⟩ =>
    show win1_8.index ⟨(i 0).val / 16384, htlt⟩ (0 : Fin 2) * 16384 ≤ (i 0).val ∧ (i 0).val < win1_8.index ⟨(i 0).val / 16384, htlt⟩ (0 : Fin 2) * 16384 + 16384
    rw [e80]; show (i 0).val / 16384 * 16384 ≤ (i 0).val ∧ (i 0).val < (i 0).val / 16384 * 16384 + 16384; omega
  | ⟨1, _⟩ =>
    show win1_8.index ⟨(i 0).val / 16384, htlt⟩ (1 : Fin 2) * 1 ≤ (i 1).val ∧ (i 1).val < win1_8.index ⟨(i 0).val / 16384, htlt⟩ (1 : Fin 2) * 1 + 1
    rw [e81]; omega

/-- After the region the result array is the array of scores. -/
theorem final8 (c : Dev nD) : (dat1 V c).arrAt 8 cfg1.N = G8 V c :=
  (dat1 V c).arrAt_eq_of_cover 8 (G8 V c) (fun t _ => flushed8_eq V c t) cover8

/-- The first result's array after the region: action `a`'s entry is its score. -/
theorem score_final (c : Dev nD) (a : Fin 327680) :
    (dat1 V c).arrAt 8 cfg1.N (ix2 a (0 : Fin 1))
      = score (pasrow V c a) (wasK V c) (ba1K V c) (wa2K V c) (ba2K V c) (wa3K V c) (ba3K V c) (zpgrow V c a) 0 := by
  rw [final8 V c]
  rfl

end Cert.KernelIdeal.ActionRegion

end
-- ==== Proof.FoldCell.lean ====
import proofs.«428442_j20916490732073_1_alg».proof.Proof.Gen.KernelIdeal.Frame
import proofs.«428442_j20916490732073_1_alg».proof.Proof.RowSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.FoldCell

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! What the first region finds in its arrays (`V1`: the launch memory after the host operations before it), read
    back to the arguments: `x` and the state untouched; each weight matrix transposed (and, for the action layer's
    state part, first cut out of columns 113 … 240); each bias laid out as one row. -/

variable (m : (ℓ : Loc nD τ sig) → Buf (Elt Ideal) ℓ) (ρ : Dev nD → PrngReg)

theorem V1_x (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl
theorem V1_state (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl
theorem V1_wih (c : Dev nD) (k j : Fin 1024) : V1 m ρ c main_v0 (ix2 k j) = m ((c : Thread nD τ).loc main_arg4) (ix2 j k) := by
  have e : (V1 m ρ c main_v0 : S1024x1024.Idx → EReal)
      = transpose S1024x1024 [1, 0] (m ((c : Thread nD τ).loc main_arg4)) transposes_S1024x1024_S1024x1024_1_0 := by
    dsimp only [V1, W1, hostOps0]; after_results
  rw [e]
  exact transpose_apply [1, 0] _ transposes_S1024x1024_S1024x1024_1_0 (ix2 k j) (ix2 j k)
    (fun b => match b with | ⟨0, _⟩ => rfl | ⟨1, _⟩ => rfl)
theorem V1_whh (c : Dev nD) (k : Fin 256) (j : Fin 1024) : V1 m ρ c main_v1 (ix2 k j) = m ((c : Thread nD τ).loc main_arg5) (ix2 j k) := by
  have e : (V1 m ρ c main_v1 : S256x1024.Idx → EReal)
      = transpose S256x1024 [1, 0] (m ((c : Thread nD τ).loc main_arg5)) transposes_S1024x256_S256x1024_1_0 := by
    dsimp only [V1, W1, hostOps0]; after_results
  rw [e]
  exact transpose_apply [1, 0] _ transposes_S1024x256_S256x1024_1_0 (ix2 k j) (ix2 j k)
    (fun b => match b with | ⟨0, _⟩ => rfl | ⟨1, _⟩ => rfl)
theorem V1_bih (c : Dev nD) (j : Fin 1024) : V1 m ρ c main_v10 (ix2 (0 : Fin 1) j) = m ((c : Thread nD τ).loc main_arg6) (ix1 j) := by
  have e : (V1 m ρ c main_v10 : S1x1024.Idx → EReal)
      = shapeCast S1x1024 (m ((c : Thread nD τ).loc main_arg6)) shapeCasts_S1024_S1x1024 := by
    dsimp only [V1, W1, hostOps0]; after_results; rfl
  rw [e]
  refine shapeCast_apply _ shapeCasts_S1024_S1x1024 (ix2 (0 : Fin 1) j) (ix1 j) ?_
  rw [Shape.rowMajor_val_one, Shape.rowMajor_val_two]
  show j.val = 0 * 1024 + j.val
  omega
theorem V1_bhh (c : Dev nD) (j : Fin 1024) : V1 m ρ c main_v11 (ix2 (0 : Fin 1) j) = m ((c : Thread nD τ).loc main_arg7) (ix1 j) := by
  have e : (V1 m ρ c main_v11 : S1x1024.Idx → EReal)
      = shapeCast S1x1024 (m ((c : Thread nD τ).loc main_arg7)) shapeCasts_S1024_S1x1024 := by
    dsimp only [V1, W1, hostOps0]; after_results; rfl
  rw [e]
  refine shapeCast_apply _ shapeCasts_S1024_S1x1024 (ix2 (0 : Fin 1) j) (ix1 j) ?_
  rw [Shape.rowMajor_val_one, Shape.rowMajor_val_two]
  show j.val = 0 * 1024 + j.val
  omega
theorem V1_w1 (c : Dev nD) (k : Fin 256) (j : Fin 128) : V1 m ρ c main_v2 (ix2 k j) = m ((c : Thread nD τ).loc main_arg8) (ix2 j k) := by
  have e : (V1 m ρ c main_v2 : S256x128.Idx → EReal)
      = transpose S256x128 [1, 0] (m ((c : Thread nD τ).loc main_arg8)) transposes_S128x256_S256x128_1_0 := by
    dsimp only [V1, W1, hostOps0]; after_results
  rw [e]
  exact transpose_apply [1, 0] _ transposes_S128x256_S256x128_1_0 (ix2 k j) (ix2 j k)
    (fun b => match b with | ⟨0, _⟩ => rfl | ⟨1, _⟩ => rfl)
theorem V1_b1 (c : Dev nD) (j : Fin 128) : V1 m ρ c main_v12 (ix2 (0 : Fin 1) j) = m ((c : Thread nD τ).loc main_arg9) (ix1 j) := by
  have e : (V1 m ρ c main_v12 : S1x128.Idx → EReal)
      = shapeCast S1x128 (m ((c : Thread nD τ).loc main_arg9)) shapeCasts_S128_S1x128 := by
    dsimp only [V1, W1, hostOps0]; after_results; rfl
  rw [e]
  refine shapeCast_apply _ shapeCasts_S128_S1x128 (ix2 (0 : Fin 1) j) (ix1 j) ?_
  rw [Shape.rowMajor_val_one, Shape.rowMajor_val_two]
  show j.val = 0 * 128 + j.val
  omega
theorem V1_w2 (c : Dev nD) (k j : Fin 128) : V1 m ρ c main_v3 (ix2 k j) = m ((c : Thread nD τ).loc main_arg10) (ix2 j k) := by
  have e : (V1 m ρ c main_v3 : S128x128.Idx → EReal)
      = transpose S128x128 [1, 0] (m ((c : Thread nD τ).loc main_arg10)) transposes_S128x128_S128x128_1_0 := by
    dsimp only [V1, W1, hostOps0]; after_results
  rw [e]
  exact transpose_apply [1, 0] _ transposes_S128x128_S128x128_1_0 (ix2 k j) (ix2 j k)
    (fun b => match b with | ⟨0, _⟩ => rfl | ⟨1, _⟩ => rfl)
theorem V1_b2 (c : Dev nD) (j : Fin 128) : V1 m ρ c main_v13 (ix2 (0 : Fin 1) j) = m ((c : Thread nD τ).loc main_arg11) (ix1 j) := by
  have e : (V1 m ρ c main_v13 : S1x128.Idx → EReal)
      = shapeCast S1x128 (m ((c : Thread nD τ).loc main_arg11)) shapeCasts_S128_S1x128 := by
    dsimp only [V1, W1, hostOps0]; after_results; rfl
  rw [e]
  refine shapeCast_apply _ shapeCasts_S128_S1x128 (ix2 (0 : Fin 1) j) (ix1 j) ?_
  rw [Shape.rowMajor_val_one, Shape.rowMajor_val_two]
  show j.val = 0 * 128 + j.val
  omega
theorem V1_waz (c : Dev nD) (k : Fin 128) (j : Fin 64) :
    V1 m ρ c main_v7 (ix2 k j) = m ((c : Thread nD τ).loc main_arg12) (ix2 j (⟨113 + k.val, by have := k.isLt; omega⟩ : Fin 241)) := by
  have e : (V1 m ρ c main_v7 : S128x64.Idx → EReal)
      = transpose S128x64 [1, 0] (extractStridedSlice S64x128 ![0, 113] (m ((c : Thread nD τ).loc main_arg12)) slices_S64x241_S64x128_0_113) transposes_S64x128_S128x64_1_0 := by
    dsimp only [V1, W1, hostOps0]; after_results
  rw [e]
  rw [transpose_apply [1, 0] _ transposes_S64x128_S128x64_1_0 (ix2 k j) (ix2 j k)
    (fun b => match b with | ⟨0, _⟩ => rfl | ⟨1, _⟩ => rfl)]
  exact extractStridedSlice_apply (s := S64x241) (t := S64x128) ![0, 113] (m ((c : Thread nD τ).loc main_arg12))
    slices_S64x241_S64x128_0_113 (ix2 j k) (ix2 j (⟨113 + k.val, by have := k.isLt; omega⟩ : Fin 241))
    (fun a => match a with
      | ⟨0, _⟩ => by show j.val = 0 + j.val; omega
      | ⟨1, _⟩ => by show 113 + k.val = 113 + k.val; rfl)

end Cert.KernelIdeal.FoldCell

end
-- ==== Proof.TakeRow.lean ====
/-
  The index words. An action's index `i` into the 16384 state rows is first wrapped the NumPy way (a negative index
  counts from the end: `i + 16384`), and the gather then reads the wrapped word signed and clamped into [0, 16383].
  Both programs do exactly this. The kernel's `take` in addition tests the wrapped word against [0, 16383] and
  fills the row with a constant when the test fails; for `-16384 ≤ i < 16384` the test passes.
-/
import Idealize.ShloMosaic.PureOps.Ideal
import Idealize.ShloMosaic.Lib.Affine

noncomputable section

namespace Cert.TakeRow

open Idealize.ShloMosaic

/-- The wrapped index word: `i + 16384` when `i` is negative, else `i`. -/
def wrapW (i : BitVec 32) : BitVec 32 := Scalar.select (IntOp.cmpi .slt i 0#32) (IntOp.addi i 16384#32) i

/-- The state row a gather reads for the index word `i`: the wrapped word, signed, clamped into [0, 16383]. -/
def rowOf (i : BitVec 32) : Fin 16384 := ⟨min (wrapW i).toInt.toNat (16384 - 1), by omega⟩

private theorem toInt_lit0 : (0#32 : BitVec 32).toInt = 0 := by decide
private theorem toInt_lit16384 : (16384#32 : BitVec 32).toInt = 16384 := by decide
private theorem toInt_lit16383 : (16383#32 : BitVec 32).toInt = 16383 := by decide

/-- A negative index word in range is wrapped to `i + 16384`: the 32-bit sum does not overflow. -/
private theorem wrapW_neg (i : BitVec 32) (h1 : (-16384 : Int) ≤ i.toInt) (h : i.toInt < 0) :
    (wrapW i).toInt = i.toInt + 16384 := by
  have hc : IntOp.cmpi .slt i 0#32 = 1 := IntOp.cmpi_slt.2 (by rw [toInt_lit0]; exact h)
  unfold wrapW Scalar.select
  rw [if_pos hc, IntOp.addi, BitVec.toInt_add, toInt_lit16384]
  exact Int.bmod_eq_of_le (by omega) (by omega)

/-- A nonnegative index word is left as it is. -/
private theorem wrapW_nonneg (i : BitVec 32) (h : ¬ i.toInt < 0) : (wrapW i).toInt = i.toInt := by
  have hc : ¬ IntOp.cmpi .slt i 0#32 = 1 := fun hh => h (by have := IntOp.cmpi_slt.1 hh; rwa [toInt_lit0] at this)
  unfold wrapW Scalar.select
  rw [if_neg hc]

/-- In the range `-16384 ≤ i < 16384` the wrapped word lies in [0, 16383]. -/
theorem wrapW_range (i : BitVec 32) (h1 : (-16384 : Int) ≤ i.toInt) (h2 : i.toInt < 16384) :
    0 ≤ (wrapW i).toInt ∧ (wrapW i).toInt ≤ 16383 := by
  by_cases h : i.toInt < 0
  · rw [wrapW_neg i h1 h]; omega
  · rw [wrapW_nonneg i h]; omega

/-- So there the kernel's range test on the wrapped word passes: both of its comparisons are 1. -/
theorem wrapW_test (i : BitVec 32) (h1 : (-16384 : Int) ≤ i.toInt) (h2 : i.toInt < 16384) :
    IntOp.cmpi .sge (wrapW i) 0#32 = 1#1 ∧ IntOp.cmpi .sle (wrapW i) 16383#32 = 1#1 := by
  obtain ⟨h0, h3⟩ := wrapW_range i h1 h2
  refine ⟨IntOp.cmpi_sge.2 ?_, IntOp.cmpi_sle.2 ?_⟩
  · rw [toInt_lit0]; exact h0
  · rw [toInt_lit16383]; exact h3

end Cert.TakeRow

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.FoldAction.lean ====
import proofs.«428442_j20916490732073_1_alg».proof.Proof.Gen.KernelIdeal.Frame
import proofs.«428442_j20916490732073_1_alg».proof.Proof.RowSpec
import proofs.«428442_j20916490732073_1_alg».proof.Proof.TakeRow
import proofs.«428442_j20916490732073_1_alg».proof.Proof.LibScatterGather
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.FoldAction

open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

/-! What the second region finds in its arrays (`V3`: after the first region's write-backs and the host's `take`),
    and where the two results end. The action features and the small weights come from the arguments (through the host
    operations before the FIRST region; neither region 0 nor the `take` touches them). The gathered rows: for an index
    word in `-16384 ≤ i < 16384` the `take`'s range test passes, so row `a` is row `rowOf i` of what the first region left
    in its second output. -/

variable (m : (ℓ : Loc nD τ sig) → Buf (Elt Ideal) ℓ) (ρ : Dev nD → PrngReg)

/-! ### What each host stretch writes -/

/-- The references the host operations before the first region write. -/
private abbrev written0 : List (Ref sig .tc) :=
  [main_v0, main_v1, main_v2, main_v3, main_v4, main_v5, main_v6, main_v7, main_v8, main_v9, main_v10, main_v11,
    main_v12, main_v13, main_v14, main_v15, main_v16]
/-- The references the row gather between the two regions writes. -/
private abbrev written1 : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_v14, main_call0_cst,
    main_call0_v15, main_v18]

private theorem hostOps0_writes : (hostOps0 : List (HloOp τ sig (Elt Ideal))).Forall fun op =>
    op.writes ⊆ (written0.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)

private theorem hostOps1_writes : (hostOps1 : List (HloOp τ sig (Elt Ideal))).Forall fun op =>
    op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

/-- A reference the first host stretch does not write holds at the first region's entry what the launch put there. -/
private theorem W1_keeps (c : Dev nD) (r : Ref sig .tc) (h : r ∉ written0) :
    W1 m ρ c (Proc.devRef .tc r) = m ((c : Thread nD τ).loc r) :=
  StableHlo.after_of_writes_sub hostOps0 _ hostOps0_writes h
/-- A reference the row gather does not write holds at the second region's entry what the first region left. -/
private theorem W3_keeps (c : Dev nD) (r : Ref sig .tc) (h : r ∉ written1) :
    W3 m ρ c (Proc.devRef .tc r) = W2 m ρ c (Proc.devRef .tc r) :=
  StableHlo.after_of_writes_sub hostOps1 _ hostOps1_writes h
/-- A reference neither the first region nor the row gather writes holds at the second region's entry what it held at the
    first region's. -/
private theorem V3_eq_W1 (c : Dev nD) (r : Ref sig .tc) (h1 : r ∉ written1) (h0 : ∀ w, Pipeline.arrRef spec0 w ≠ r) :
    V3 m ρ c r = W1 m ρ c (Proc.devRef .tc r) :=
  (W3_keeps m ρ c r h1).trans (W2_of_ne m ρ c r h0)

theorem V3_pas (c : Dev nD) : V3 m ρ c main_arg2 = m ((c : Thread nD τ).loc main_arg2) := by
  exact (V3_eq_W1 m ρ c main_arg2 (by decide) (by decide)).trans (W1_keeps m ρ c main_arg2 (by decide))
/-! ### The small weights: written by the first host stretch from the arguments, read at an index -/

private theorem W1_was (c : Dev nD) :
    (W1 m ρ c (Proc.devRef .tc main_v6) : S113x64.Idx → EReal)
      = transpose S113x64 [1, 0] (extractStridedSlice S64x113 ![0, 0] (m ((c : Thread nD τ).loc main_arg12))
          slices_S64x241_S64x113_0_0) transposes_S64x113_S113x64_1_0 := by
  dsimp only [W1, hostOps0]; after_results <;> rfl
private theorem W1_ba1 (c : Dev nD) :
    (W1 m ρ c (Proc.devRef .tc main_v14) : S1x64.Idx → EReal)
      = shapeCast S1x64 (m ((c : Thread nD τ).loc main_arg13)) shapeCasts_S64_S1x64 := by
  dsimp only [W1, hostOps0]; after_results <;> rfl
private theorem W1_wa2 (c : Dev nD) :
    (W1 m ρ c (Proc.devRef .tc main_v8) : S64x4.Idx → EReal)
      = transpose S64x4 [1, 0] (m ((c : Thread nD τ).loc main_arg14)) transposes_S4x64_S64x4_1_0 := by
  dsimp only [W1, hostOps0]; after_results <;> rfl
private theorem W1_ba2 (c : Dev nD) :
    (W1 m ρ c (Proc.devRef .tc main_v15) : S1x4.Idx → EReal)
      = shapeCast S1x4 (m ((c : Thread nD τ).loc main_arg15)) shapeCasts_S4_S1x4 := by
  dsimp only [W1, hostOps0]; after_results <;> rfl
private theorem W1_wa3 (c : Dev nD) :
    (W1 m ρ c (Proc.devRef .tc main_v9) : S4x1.Idx → EReal)
      = transpose S4x1 [1, 0] (m ((c : Thread nD τ).loc main_arg16)) transposes_S1x4_S4x1_1_0 := by
  dsimp only [W1, hostOps0]; after_results <;> rfl
private theorem W1_ba3 (c : Dev nD) :
    (W1 m ρ c (Proc.devRef .tc main_v16) : S1x1.Idx → EReal)
      = shapeCast S1x1 (m ((c : Thread nD τ).loc main_arg17)) shapeCasts_S1_S1x1 := by
  dsimp only [W1, hostOps0]; after_results <;> rfl

/-- A transposed matrix at (k, j) is the matrix at (j, k). -/
private theorem transpose_ix2 {α : Type} {n0 n1 : Nat} (x : (⟨2, ![n1, n0]⟩ : Shape).Idx → α)
    (h : (⟨2, ![n1, n0]⟩ : Shape).Transposes [1, 0] ⟨2, ![n0, n1]⟩) (k : Fin n0) (j : Fin n1) :
    transpose ⟨2, ![n0, n1]⟩ [1, 0] x h (ix2 k j) = x (ix2 j k) :=
  transpose_apply [1, 0] x h (ix2 k j) (ix2 j k) (fun b => match b with
    | ⟨0, _⟩ => rfl
    | ⟨1, _⟩ => rfl)

/-- A vector recast as a one-row matrix, at (0, j), is the vector at j. -/
private theorem shapeCast_row_ix2 {α : Type} {n : Nat} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_one, Shape.rowMajor_val_two]
    show j.val = 0 * n + j.val
    omega)

theorem V3_was (c : Dev nD) (k : Fin 113) (j : Fin 64) :
    V3 m ρ c main_v6 (ix2 k j) = m ((c : Thread nD τ).loc main_arg12) (ix2 j (⟨k.val, by have := k.isLt; omega⟩ : Fin 241)) := by
  rw [V3_eq_W1 m ρ c main_v6 (by decide) (by decide), W1_was]
  refine (transpose_ix2 _ transposes_S64x113_S113x64_1_0 k j).trans ?_
  exact extractStridedSlice_apply (s := S64x241) (t := S64x113) ![0, 0] (m ((c : Thread nD τ).loc main_arg12))
    slices_S64x241_S64x113_0_0 (ix2 j k) (ix2 j (⟨k.val, by have := k.isLt; omega⟩ : Fin 241)) (fun a => match a with
    | ⟨0, _⟩ => by show j.val = 0 + j.val; omega
    | ⟨1, _⟩ => by show k.val = 0 + k.val; omega)
theorem V3_ba1 (c : Dev nD) (j : Fin 64) : V3 m ρ c main_v14 (ix2 (0 : Fin 1) j) = m ((c : Thread nD τ).loc main_arg13) (ix1 j) := by
  rw [V3_eq_W1 m ρ c main_v14 (by decide) (by decide), W1_ba1]
  exact shapeCast_row_ix2 _ shapeCasts_S64_S1x64 j
theorem V3_wa2 (c : Dev nD) (k : Fin 64) (j : Fin 4) : V3 m ρ c main_v8 (ix2 k j) = m ((c : Thread nD τ).loc main_arg14) (ix2 j k) := by
  rw [V3_eq_W1 m ρ c main_v8 (by decide) (by decide), W1_wa2]
  exact transpose_ix2 _ transposes_S4x64_S64x4_1_0 k j
theorem V3_ba2 (c : Dev nD) (j : Fin 4) : V3 m ρ c main_v15 (ix2 (0 : Fin 1) j) = m ((c : Thread nD τ).loc main_arg15) (ix1 j) := by
  rw [V3_eq_W1 m ρ c main_v15 (by decide) (by decide), W1_ba2]
  exact shapeCast_row_ix2 _ shapeCasts_S4_S1x4 j
theorem V3_wa3 (c : Dev nD) (k : Fin 4) (j : Fin 1) : V3 m ρ c main_v9 (ix2 k j) = m ((c : Thread nD τ).loc main_arg16) (ix2 j k) := by
  rw [V3_eq_W1 m ρ c main_v9 (by decide) (by decide), W1_wa3]
  exact transpose_ix2 _ transposes_S1x4_S4x1_1_0 k j
theorem V3_ba3 (c : Dev nD) (j : Fin 1) : V3 m ρ c main_v16 (ix2 (0 : Fin 1) j) = m ((c : Thread nD τ).loc main_arg17) (ix1 j) := by
  rw [V3_eq_W1 m ρ c main_v16 (by decide) (by decide), W1_ba3]
  exact shapeCast_row_ix2 _ shapeCasts_S1_S1x1 j

/-! ### The gathered rows -/

/-- The gather's column of start indices: each index word wrapped (a negative word counts from the end). -/
private def startIdx (idx : IVec S327680 32) : IVec S327680x1 32 :=
  broadcastInDim S327680x1 ![0] bcast_S327680_S327680x1_0
    (select (cmpi .slt idx (broadcastInDim S327680 ![] bcast_S_S327680 (constantI S_ 32 0#32)))
      (addi idx (broadcastInDim S327680 ![] bcast_S_S327680 (constantI S_ 32 16384#32))) idx)

/-- The range test on the start indices, one bit per action: the word lies in [0, 16383]. -/
private def inRange (w : IVec S327680x1 32) : IVec S327680 1 :=
  Host.reduce IntOp.andi
    (andi (cmpi .sge w (broadcastInDim S327680x1 ![] bcast_S_S327680x1 (constantI S_ 32 0#32)))
      (cmpi .sle w (broadcastInDim S327680x1 ![0, 1] bcast_S1x1_S327680x1_0_1
        (broadcastInDim S1x1 ![1] bcast_S1_S1x1_1 (constantI S1 32 16383#32)))))
    (constantI S_ 1 1#1) reducesTo_S327680x1_S327680_d1 h_S_

/-- The row gather: row a of the result is the table's row at start index a where the range test passes, a
    constant row where it fails. -/
private def takeRows (x : S16384x64.Idx → EReal) (idx : IVec S327680 32) : S327680x64.Idx → EReal :=
  select (broadcastInDim S327680x64 ![0] bcast_S327680_S327680x64_0 (inRange (startIdx idx)))
    (Host.gather gather_S16384x64_S327680x1_S327680x64_1_0_n_n_0_1_164 x (startIdx idx))
    (broadcastInDim S327680x64 ![] bcast_S_S327680x64 (constant (F := Ideal) S_ .f32 0x7FC00000#32))

private theorem W3_zpg (c : Dev nD) :
    (W3 m ρ c (Proc.devRef .tc main_v18) : S327680x64.Idx → EReal)
      = takeRows (W2 m ρ c (Proc.devRef .tc main_v17_1)) (W2 m ρ c (Proc.devRef .tc main_arg3)) := by
  dsimp only [W3, hostOps1]
  after_results
  simp only [StableHlo.TRef.ofBuf, StableHlo.TRef.toBuf, cast_eq]
  rfl

/-- The start index of action a is its wrapped index word. -/
private theorem startIdx_apply (idx : IVec S327680 32) (a : Fin 327680) :
    startIdx idx (ix2 a (0 : Fin 1)) = TakeRow.wrapW (idx (ix1 a)) := by
  unfold startIdx
  refine (broadcastInDim_apply ![0] bcast_S327680_S327680x1_0 _ (ix2 a (0 : Fin 1)) (ix1 a) (fun b => match b with
    | ⟨0, _⟩ => rfl)).trans ?_
  rfl

/-- A fold by "and" from 1 over bits that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | n :: l, h => by
    rw [List.foldl_cons, h n List.mem_cons_self]
    exact foldl_andi_one f l fun k hk => h k (List.mem_cons_of_mem _ hk)

/-- The range test of action a passes when its start index passes both comparisons: the reduction runs over the one
    column. -/
private theorem inRange_apply (w : IVec S327680x1 32) (a : Fin 327680)
    (h0 : IntOp.cmpi .sge (w (ix2 a (0 : Fin 1))) 0#32 = 1#1) (h1 : IntOp.cmpi .sle (w (ix2 a (0 : Fin 1))) 16383#32 = 1#1) :
    inRange w (ix1 a) = 1#1 := by
  unfold inRange
  rw [Host.reduce_eq_foldl]
  refine foldl_andi_one _ _ fun i hi => ?_
  have hd : reducesTo_S327680x1_S327680_d1.drop i = ix1 a := of_decide_eq_true (List.mem_filter.mp hi).2
  have h00 : (i 0).val = a.val := by
    rw [← Shape.ReducesTo.drop_apply_val_of_eq reducesTo_S327680x1_S327680_d1 i 0 0, hd]
  have hi : i = ix2 a (0 : Fin 1) := by
    funext b
    match b with
    | ⟨0, _⟩ => exact Fin.ext h00
    | ⟨1, hb⟩ =>
      refine Fin.ext ?_
      have h11 : (i ⟨1, hb⟩).val < 1 := (i ⟨1, hb⟩).isLt
      show (i ⟨1, hb⟩).val = 0
      omega
  rw [hi]
  show IntOp.andi (IntOp.cmpi .sge (w (ix2 a (0 : Fin 1))) 0#32) (IntOp.cmpi .sle (w (ix2 a (0 : Fin 1))) 16383#32) = 1#1
  rw [h0, h1]
  rfl

/-- The gathered rows at (a, j), for an index word in range: the table's row at the wrapped, clamped word. -/
private theorem takeRows_apply (x : S16384x64.Idx → EReal) (idx : IVec S327680 32) (a : Fin 327680) (j : Fin 64)
    (h1 : (-16384 : Int) ≤ (idx (ix1 a)).toInt) (h2 : (idx (ix1 a)).toInt < 16384) :
    takeRows x idx (ix2 a j) = x (ix2 (TakeRow.rowOf (idx (ix1 a))) j) := by
  obtain ⟨t0, t1⟩ := TakeRow.wrapW_test (idx (ix1 a)) h1 h2
  rw [← startIdx_apply idx a] at t0 t1
  unfold takeRows
  rw [select_apply,
    broadcastInDim_apply ![0] bcast_S327680_S327680x64_0 (inRange (startIdx idx)) (ix2 a j) (ix1 a) (fun b => match b with
      | ⟨0, _⟩ => rfl),
    inRange_apply (startIdx idx) a t0 t1, select_one,
    LibSG.gather_row_apply (by decide) gather_S16384x64_S327680x1_S327680x64_1_0_n_n_0_1_164 rfl rfl rfl rfl rfl rfl rfl]
  refine congrArg x (congrArg (fun r => ix2 r j) (Fin.ext ?_))
  show min (startIdx idx (ix2 a (0 : Fin 1))).toInt.toNat (16384 - 1)
    = min (TakeRow.wrapW (idx (ix1 a))).toInt.toNat (16384 - 1)
  rw [startIdx_apply]

/-- The gathered projected state rows, for an index word in range. -/
theorem V3_zpg (c : Dev nD) (a : Fin 327680) (j : Fin 64)
    (h1 : (-16384 : Int) ≤ (m ((c : Thread nD τ).loc main_arg3) (ix1 a)).toInt)
    (h2 : (m ((c : Thread nD τ).loc main_arg3) (ix1 a)).toInt < 16384) :
    V3 m ρ c main_v18 (ix2 a j)
      = (dat0 (V1 m ρ) c).arrAt 12 cfg0.N (ix2 (TakeRow.rowOf (m ((c : Thread nD τ).loc main_arg3) (ix1 a))) j) := by
  have e3 : (W2 m ρ c (Proc.devRef .tc main_arg3) : S327680.Idx → BitVec 32) = m ((c : Thread nD τ).loc main_arg3) :=
    (W2_of_ne m ρ c main_arg3 (by decide)).trans (W1_keeps m ρ c main_arg3 (by decide))
  show W3 m ρ c (Proc.devRef .tc main_v18) (ix2 a j) = _
  rw [W3_zpg, e3, W2_arr m ρ c 12]
  exact takeRows_apply _ _ a j h1 h2

/-- The first result's buffer at the end: what the second region's write-backs leave. -/
theorem W4_score (c : Dev nD) : W4 m ρ c (Proc.devRef .tc main_v19) = (dat1 (V3 m ρ) c).arrAt 8 cfg1.N := by
  exact W4_arr m ρ c 8
/-- The second result's buffer at the end: what the FIRST region's write-backs left (nothing later writes it). -/
theorem W4_hc (c : Dev nD) : W4 m ρ c (Proc.devRef .tc main_v17_0) = (dat0 (V1 m ρ) c).arrAt 11 cfg0.N := by
  exact calc W4 m ρ c (Proc.devRef .tc main_v17_0)
    _ = W3 m ρ c (Proc.devRef .tc main_v17_0) := W4_of_ne m ρ c main_v17_0 (by decide)
    _ = W2 m ρ c (Proc.devRef .tc main_v17_0) := W3_keeps m ρ c main_v17_0 (by decide)
    _ = (dat0 (V1 m ρ) c).arrAt 11 cfg0.N := W2_arr m ρ c 11

end Cert.KernelIdeal.FoldAction

end
-- ==== Proof.RefCell.lean ====
import proofs.«428442_j20916490732073_1_alg».proof.Proof.Gen.ReferenceIdeal.Read
import proofs.«428442_j20916490732073_1_alg».proof.Proof.RowSpec
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

open scoped BigOperators

namespace Cert.ReferenceIdeal.RefCell

open Cert.ReferenceIdeal Cert.ReferenceIdeal.Gen Cert.ReferenceIdeal.Read Cert.RowSpec
open Idealize.ShloMosaic Idealize.ShloMosaic.TcCoe Idealize.ShloMosaic.ValueIdx Idealize.SL.Sem

/-! The reference's LSTM cell, read one row at a time: its new cell state, its new hidden state and their
    concatenation are the row functions of row `p` of `x` and of the state, with the weights read transposed. -/

variable (x0 : (⟨S16384x1024, .f32⟩ : BufTy).Contents (Elt Ideal)) (x1 : (⟨S16384x512, .f32⟩ : BufTy).Contents (Elt Ideal))
  (x4 : (⟨S1024x1024, .f32⟩ : BufTy).Contents (Elt Ideal)) (x5 : (⟨S1024x256, .f32⟩ : BufTy).Contents (Elt Ideal))
  (x6 x7 : (⟨S1024, .f32⟩ : BufTy).Contents (Elt Ideal))

/-- Row `p` of `x`. -/
abbrev xrow (p : Fin 16384) : Fin 1024 → EReal := fun k => x0 (ix2 p k)
/-- Row `p` of the old hidden state (columns 0 … 255 of the state array). -/
abbrev h0row (p : Fin 16384) : Fin 256 → EReal := fun k => x1 (ix2 p (⟨k.val, by have := k.isLt; omega⟩ : Fin 512))
/-- Row `p` of the old cell state (columns 256 … 511). -/
abbrev c0row (p : Fin 16384) : Fin 256 → EReal := fun k => x1 (ix2 p (⟨256 + k.val, by have := k.isLt; omega⟩ : Fin 512))
/-- The weights as (input coordinate, output coordinate): the arguments hold them the other way round. -/
abbrev wihK : Fin 1024 → Fin 1024 → EReal := fun k j => x4 (ix2 j k)
abbrev whhK : Fin 256 → Fin 1024 → EReal := fun k j => x5 (ix2 j k)
abbrev bihK : Fin 1024 → EReal := fun j => x6 (ix1 j)
abbrev bhhK : Fin 1024 → EReal := fun j => x7 (ix1 j)

/-! ## Where the generated index functions point, in coordinates -/

/-- The left factor of the product with the input weights, at (p, j), runs along row p of x. -/
theorem lidx3 (p : Fin 16384) (j k : Fin 1024) : lidx_main_v3 (ix2 p j) k = ix2 p k :=
  funext fun a => Fin.ext (by match a with | ⟨0, _⟩ => rfl | ⟨1, _⟩ => rfl)

/-- Its right factor, through the transposition, is the weight array at (j, k). -/
theorem ridx3 (p : Fin 16384) (j k : Fin 1024) : idx_main_v2 (ridx_main_v3 (ix2 p j) k) = ix2 j k :=
  funext fun a => Fin.ext (by match a with | ⟨0, _⟩ => rfl | ⟨1, _⟩ => rfl)

/-- The left factor of the product with the recurrent weights, through the slice of the state, is column k of row p of the
    state array. -/
theorem lidx8 (p : Fin 16384) (j : Fin 1024) (k : Fin 256) :
    idx_main_v0 (lidx_main_v8 (ix2 p j) k) = ix2 p (⟨k.val, by have := k.isLt; omega⟩ : Fin 512) :=
  funext fun a => Fin.ext (by match a with | ⟨0, _⟩ => rfl | ⟨1, _⟩ => rfl)

/-- Its right factor, through the transposition, is the weight array at (j, k). -/
theorem ridx8 (p : Fin 16384) (j : Fin 1024) (k : Fin 256) : idx_main_v7 (ridx_main_v8 (ix2 p j) k) = ix2 j k :=
  funext fun a => Fin.ext (by match a with | ⟨0, _⟩ => rfl | ⟨1, _⟩ => rfl)

/-- A bias broadcast over the rows is read at its column. -/
theorem bidx5 (p : Fin 16384) (j : Fin 1024) : idx_main_v4 (idx_main_v5 (ix2 p j)) = ix1 j :=
  funext fun a => Fin.ext (by match a with | ⟨0, _⟩ => rfl)

theorem bidx11 (p : Fin 16384) (j : Fin 1024) : idx_main_v10 (idx_main_v11 (ix2 p j)) = ix1 j :=
  funext fun a => Fin.ext (by match a with | ⟨0, _⟩ => rfl)

/-- The old cell state is the second half of the state array's row. -/
theorem cidx1 (p : Fin 16384) (q : Fin 256) :
    idx_main_v1 (ix2 p q) = ix2 p (⟨256 + q.val, by have := q.isLt; omega⟩ : Fin 512) :=
  funext fun a => Fin.ext (by match a with | ⟨0, _⟩ => rfl | ⟨1, _⟩ => rfl)

/-- The four column stretches of the stacked gates: stretch g at column q is stacked column 256 g + q. -/
theorem col13 (p : Fin 16384) (q : Fin 256) : idx_main_v13 (ix2 p q) = ix2 p (gcol 0 q) :=
  funext fun a => Fin.ext (by
    match a with
    | ⟨0, _⟩ => rfl
    | ⟨1, _⟩ => show q.val = 256 * 0 + q.val; omega)

theorem col14 (p : Fin 16384) (q : Fin 256) : idx_main_v14 (ix2 p q) = ix2 p (gcol 1 q) :=
  funext fun a => Fin.ext (by
    match a with
    | ⟨0, _⟩ => rfl
    | ⟨1, _⟩ => show 256 + q.val = 256 * 1 + q.val; omega)

theorem col15 (p : Fin 16384) (q : Fin 256) : idx_main_v15 (ix2 p q) = ix2 p (gcol 2 q) :=
  funext fun a => Fin.ext (by
    match a with
    | ⟨0, _⟩ => rfl
    | ⟨1, _⟩ => show 512 + q.val = 256 * 2 + q.val; omega)

theorem col16 (p : Fin 16384) (q : Fin 256) : idx_main_v16 (ix2 p q) = ix2 p (gcol 3 q) :=
  funext fun a => Fin.ext (by
    match a with
    | ⟨0, _⟩ => rfl
    | ⟨1, _⟩ => show 768 + q.val = 256 * 3 + q.val; omega)

/-! ## The two products -/

/-- The product of x with the transposed input weights, at (p, j): row p of x against row j of the weight array. -/
theorem ref_v3 (p : Fin 16384) (j : Fin 1024) :
    val_main_v3 (F := Ideal) x0 x4 (ix2 p j) = ∑ k : Fin 1024, x0 (ix2 p k) * x4 (ix2 j k) := by
  rw [val_main_v3_apply]
  refine Finset.sum_congr rfl fun k _ => ?_
  rw [val_main_v2_apply, lidx3, ridx3]

/-- The product of the old hidden state with the transposed recurrent weights, at (p, j). -/
theorem ref_v8 (p : Fin 16384) (j : Fin 1024) :
    val_main_v8 (F := Ideal) x1 x5 (ix2 p j)
      = ∑ k : Fin 256, x1 (ix2 p (⟨k.val, by have := k.isLt; omega⟩ : Fin 512)) * x5 (ix2 j k) := by
  rw [val_main_v8_apply]
  refine Finset.sum_congr rfl fun k _ => ?_
  rw [val_main_v0_apply, val_main_v7_apply, lidx8, ridx8]

/-- The stacked gates (`%12`), in the reference's order of additions, are `gate` (by `gateRef_eq`). -/
theorem ref_gate (p : Fin 16384) (j : Fin 1024) :
    val_main_v12 (F := Ideal) x0 x1 x4 x5 x6 x7 (ix2 p j)
      = gate (xrow x0 p) (h0row x1 p) (wihK x4) (whhK x5) (bihK x6) (bhhK x7) j := by
  rw [← gateRef_eq, val_main_v12_apply, val_main_v9_apply, val_main_v6_apply, ref_v3, ref_v8,
    val_main_v5_apply, val_main_v4_apply, bidx5, val_main_v11_apply, val_main_v10_apply, bidx11]
  rfl

/-! ## The three sigmoids and the hyperbolic tangent of the candidate -/

/-- One over one plus the exponential of the negation, with both ones given by their single-precision word, is the
    logistic function. -/
theorem sigmoid_eq (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  simp only [Ideal.hostDivf_def, Ideal.addf_def, Ideal.hostUnary_exp_def, Ideal.hostNegf_def, Ideal.negf_def,
    Ideal.ofBits_def, Ideal.ofBits_one_f32]
  rfl

/-- The input gate's sigmoid. -/
theorem ref_sig_i (p : Fin 16384) (q : Fin 256) :
    val_main_v22 (F := Ideal) x0 x1 x4 x5 x6 x7 (ix2 p q)
      = Ideal.logistic (gate (xrow x0 p) (h0row x1 p) (wihK x4) (whhK x5) (bihK x6) (bhhK x7) (gcol 0 q)) := by
  rw [val_main_v22_apply, val_main_v21_apply, val_main_cst_0_apply, val_main_v20_apply, val_main_v19_apply,
    val_main_cst_apply, val_main_v18_apply, val_main_v17_apply, val_main_v13_apply, col13, ref_gate]
  exact sigmoid_eq _

/-- The forget gate's sigmoid. -/
theorem ref_sig_f (p : Fin 16384) (q : Fin 256) :
    val_main_v28 (F := Ideal) x0 x1 x4 x5 x6 x7 (ix2 p q)
      = Ideal.logistic (gate (xrow x0 p) (h0row x1 p) (wihK x4) (whhK x5) (bihK x6) (bhhK x7) (gcol 1 q)) := by
  rw [val_main_v28_apply, val_main_v27_apply, val_main_cst_2_apply, val_main_v26_apply, val_main_v25_apply,
    val_main_cst_1_apply, val_main_v24_apply, val_main_v23_apply, val_main_v14_apply, col14, ref_gate]
  exact sigmoid_eq _

/-- The output gate's sigmoid. -/
theorem ref_sig_o (p : Fin 16384) (q : Fin 256) :
    val_main_v35 (F := Ideal) x0 x1 x4 x5 x6 x7 (ix2 p q)
      = Ideal.logistic (gate (xrow x0 p) (h0row x1 p) (wihK x4) (whhK x5) (bihK x6) (bhhK x7) (gcol 3 q)) := by
  rw [val_main_v35_apply, val_main_v34_apply, val_main_cst_4_apply, val_main_v33_apply, val_main_v32_apply,
    val_main_cst_3_apply, val_main_v31_apply, val_main_v30_apply, val_main_v16_apply, col16, ref_gate]
  exact sigmoid_eq _

/-- The candidate's hyperbolic tangent. -/
theorem ref_tanh_g (p : Fin 16384) (q : Fin 256) :
    val_main_v29 (F := Ideal) x0 x1 x4 x5 x6 x7 (ix2 p q)
      = Ideal.tanh (gate (xrow x0 p) (h0row x1 p) (wihK x4) (whhK x5) (bihK x6) (bhhK x7) (gcol 2 q)) := by
  rw [val_main_v29_apply, val_main_v15_apply, col15, ref_gate]
  rfl

/-! ## The new states and their concatenation -/

/-- The new cell state (`%38`). -/
theorem ref_cNew (p : Fin 16384) (q : Fin 256) :
    val_main_v38 (F := Ideal) x0 x1 x4 x5 x6 x7 (ix2 p q)
      = cNew (xrow x0 p) (h0row x1 p) (c0row x1 p) (wihK x4) (whhK x5) (bihK x6) (bhhK x7) q := by
  rw [val_main_v38_apply, val_main_v36_apply, val_main_v37_apply, ref_sig_f, ref_sig_i, ref_tanh_g,
    val_main_v1_apply, cidx1]
  rfl

/-- The new hidden state (`%40`). -/
theorem ref_hNew (p : Fin 16384) (q : Fin 256) :
    val_main_v40 (F := Ideal) x0 x1 x4 x5 x6 x7 (ix2 p q)
      = hNew (xrow x0 p) (h0row x1 p) (c0row x1 p) (wihK x4) (whhK x5) (bihK x6) (bhhK x7) q := by
  rw [val_main_v40_apply, val_main_v39_apply, ref_sig_o, ref_cNew]
  rfl

/-- The second result (`%78`, the two joined along the columns). -/
theorem ref_hc (p : Fin 16384) (q : Fin 512) :
    val_main_v78 (F := Ideal) x0 x1 x4 x5 x6 x7 (ix2 p q)
      = hcRow (xrow x0 p) (h0row x1 p) (c0row x1 p) (wihK x4) (whhK x5) (bihK x6) (bhhK x7) q := by
  unfold val_main_v78 hcRow
  by_cases h : q.val < 256
  · rw [dif_pos h]
    refine (concatenate_pair_apply_left (1 : Fin S16384x512.rank) (val_main_v40 (F := Ideal) x0 x1 x4 x5 x6 x7)
      (val_main_v38 (F := Ideal) x0 x1 x4 x5 x6 x7) concatenates_S16384x256_S16384x256_S16384x512_d1 (ix2 p q) rfl
      (ix2 p (⟨q.val, h⟩ : Fin 256)) (fun b => ?_)).trans (ref_hNew x0 x1 x4 x5 x6 x7 p ⟨q.val, h⟩)
    match b with
    | ⟨0, _⟩ => rfl
    | ⟨1, _⟩ => rfl
  · rw [dif_neg h]
    have hq : q.val - 256 < 256 := by have := q.isLt; omega
    refine (concatenate_pair_apply_right (1 : Fin S16384x512.rank) (val_main_v40 (F := Ideal) x0 x1 x4 x5 x6 x7)
      (val_main_v38 (F := Ideal) x0 x1 x4 x5 x6 x7) concatenates_S16384x256_S16384x256_S16384x512_d1 (ix2 p q) rfl rfl
      (ix2 p (⟨q.val - 256, hq⟩ : Fin 256)) (fun b hb => ?_) ?_).trans
      (ref_cNew x0 x1 x4 x5 x6 x7 p ⟨q.val - 256, hq⟩)
    · match b, hb with
      | ⟨0, _⟩, _ => rfl
      | ⟨1, _⟩, hb => exact (hb (Fin.ext rfl)).elim
    · show (q.val - 256) + 256 = q.val
      omega

end Cert.ReferenceIdeal.RefCell

end
-- ==== Proof.RefAction.lean ====
import proofs.«428442_j20916490732073_1_alg».proof.Proof.Gen.ReferenceIdeal.Read
import proofs.«428442_j20916490732073_1_alg».proof.Proof.RowSpec
import proofs.«428442_j20916490732073_1_alg».proof.Proof.RefCell
import proofs.«428442_j20916490732073_1_alg».proof.Proof.TakeRow
import proofs.«428442_j20916490732073_1_alg».proof.Proof.LibScatterGather
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefAction

open Cert.ReferenceIdeal Cert.ReferenceIdeal.Gen Cert.ReferenceIdeal.Read Cert.RowSpec
open Idealize.ShloMosaic Idealize.ShloMosaic.TcCoe Idealize.ShloMosaic.ValueIdx Idealize.SL.Sem

open Cert.ReferenceIdeal.RefCell

/-! The reference's state network and action network, read one row / one action at a time. The gather reads the
    state row `rowOf` of the action's index word; the first action layer contracts the 113 features and the 128
    state entries at once, which is the kernel's two separate contractions (`sum_split`). -/

variable (x0 : (⟨S16384x1024, .f32⟩ : BufTy).Contents (Elt Ideal)) (x1 : (⟨S16384x512, .f32⟩ : BufTy).Contents (Elt Ideal))
  (x4 : (⟨S1024x1024, .f32⟩ : BufTy).Contents (Elt Ideal)) (x5 : (⟨S1024x256, .f32⟩ : BufTy).Contents (Elt Ideal))
  (x6 x7 : (⟨S1024, .f32⟩ : BufTy).Contents (Elt Ideal))
  (x2 : (⟨S327680x113, .f32⟩ : BufTy).Contents (Elt Ideal)) (x3 : (⟨S327680, .i32⟩ : BufTy).Contents (Elt Ideal))
  (x8 : (⟨S128x256, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S64x241, .f32⟩ : BufTy).Contents (Elt Ideal)) (x13 : (⟨S64, .f32⟩ : BufTy).Contents (Elt Ideal))
  (x14 : (⟨S4x64, .f32⟩ : BufTy).Contents (Elt Ideal)) (x15 : (⟨S4, .f32⟩ : BufTy).Contents (Elt Ideal))
  (x16 : (⟨S1x4, .f32⟩ : BufTy).Contents (Elt Ideal)) (x17 : (⟨S1, .f32⟩ : BufTy).Contents (Elt Ideal))

abbrev w1K : Fin 256 → Fin 128 → EReal := fun k j => x8 (ix2 j k)
abbrev b1K : Fin 128 → EReal := fun j => x9 (ix1 j)
abbrev w2K : Fin 128 → Fin 128 → EReal := fun k j => x10 (ix2 j k)
abbrev b2K : Fin 128 → EReal := fun j => x11 (ix1 j)
/-- The first action layer's weights on the action's own 113 features … -/
abbrev wasK : Fin 113 → Fin 64 → EReal := fun k j => x12 (ix2 j (⟨k.val, by have := k.isLt; omega⟩ : Fin 241))
/-- … and on the 128 entries of the state row (columns 113 … 240). -/
abbrev wazK : Fin 128 → Fin 64 → EReal := fun k j => x12 (ix2 j (⟨113 + k.val, by have := k.isLt; omega⟩ : Fin 241))
abbrev ba1K : Fin 64 → EReal := fun j => x13 (ix1 j)
abbrev wa2K : Fin 64 → Fin 4 → EReal := fun k j => x14 (ix2 j k)
abbrev ba2K : Fin 4 → EReal := fun j => x15 (ix1 j)
abbrev wa3K : Fin 4 → Fin 1 → EReal := fun k j => x16 (ix2 j k)
abbrev ba3K : Fin 1 → EReal := fun j => x17 (ix1 j)
abbrev pasrow (a : Fin 327680) : Fin 113 → EReal := fun k => x2 (ix2 a k)

/-! ### The composed index functions of the generated stages are the coordinate constructors -/

private theorem lidx42_eq (p : Fin 16384) (j : Fin 128) (k : Fin 256) : lidx_main_v42 (ix2 p j) k = ix2 p k :=
  funext fun a => Fin.ext (by match a with | ⟨0, _⟩ => rfl | ⟨1, _⟩ => rfl)
private theorem ridx41_eq (p : Fin 16384) (j : Fin 128) (k : Fin 256) :
    idx_main_v41 (ridx_main_v42 (ix2 p j) k) = ix2 j k :=
  funext fun a => Fin.ext (by match a with | ⟨0, _⟩ => rfl | ⟨1, _⟩ => rfl)
private theorem idx4344_eq (p : Fin 16384) (j : Fin 128) : idx_main_v43 (idx_main_v44 (ix2 p j)) = ix1 j :=
  funext fun a => Fin.ext (by match a with | ⟨0, _⟩ => rfl)
private theorem lidx48_eq (p : Fin 16384) (j : Fin 128) (k : Fin 128) : lidx_main_v48 (ix2 p j) k = ix2 p k :=
  funext fun a => Fin.ext (by match a with | ⟨0, _⟩ => rfl | ⟨1, _⟩ => rfl)
private theorem ridx47_eq (p : Fin 16384) (j : Fin 128) (k : Fin 128) :
    idx_main_v47 (ridx_main_v48 (ix2 p j) k) = ix2 j k :=
  funext fun a => Fin.ext (by match a with | ⟨0, _⟩ => rfl | ⟨1, _⟩ => rfl)
private theorem idx4950_eq (p : Fin 16384) (j : Fin 128) : idx_main_v49 (idx_main_v50 (ix2 p j)) = ix1 j :=
  funext fun a => Fin.ext (by match a with | ⟨0, _⟩ => rfl)
private theorem idx58_eq (a : Fin 327680) : idx_main_v58 (ix2 a (0 : Fin 1)) = ix1 a :=
  funext fun b => Fin.ext (by match b with | ⟨0, _⟩ => rfl)
private theorem lidx62_eq (a : Fin 327680) (j : Fin 64) (k : Fin 241) : lidx_main_v62 (ix2 a j) k = ix2 a k :=
  funext fun b => Fin.ext (by match b with | ⟨0, _⟩ => rfl | ⟨1, _⟩ => rfl)
private theorem ridx61_eq (a : Fin 327680) (j : Fin 64) (k : Fin 241) :
    idx_main_v61 (ridx_main_v62 (ix2 a j) k) = ix2 j k :=
  funext fun b => Fin.ext (by match b with | ⟨0, _⟩ => rfl | ⟨1, _⟩ => rfl)
private theorem idx6364_eq (a : Fin 327680) (j : Fin 64) : idx_main_v63 (idx_main_v64 (ix2 a j)) = ix1 j :=
  funext fun b => Fin.ext (by match b with | ⟨0, _⟩ => rfl)
private theorem lidx68_eq (a : Fin 327680) (j : Fin 4) (k : Fin 64) : lidx_main_v68 (ix2 a j) k = ix2 a k :=
  funext fun b => Fin.ext (by match b with | ⟨0, _⟩ => rfl | ⟨1, _⟩ => rfl)
private theorem ridx67_eq (a : Fin 327680) (j : Fin 4) (k : Fin 64) :
    idx_main_v67 (ridx_main_v68 (ix2 a j) k) = ix2 j k :=
  funext fun b => Fin.ext (by match b with | ⟨0, _⟩ => rfl | ⟨1, _⟩ => rfl)
private theorem idx6970_eq (a : Fin 327680) (j : Fin 4) : idx_main_v69 (idx_main_v70 (ix2 a j)) = ix1 j :=
  funext fun b => Fin.ext (by match b with | ⟨0, _⟩ => rfl)
private theorem lidx74_eq (a : Fin 327680) (j : Fin 1) (k : Fin 4) : lidx_main_v74 (ix2 a j) k = ix2 a k :=
  funext fun b => Fin.ext (by match b with | ⟨0, _⟩ => rfl | ⟨1, _⟩ => rfl)
private theorem ridx73_eq (a : Fin 327680) (j : Fin 1) (k : Fin 4) :
    idx_main_v73 (ridx_main_v74 (ix2 a j) k) = ix2 j k :=
  funext fun b => Fin.ext (by match b with | ⟨0, _⟩ => rfl | ⟨1, _⟩ => rfl)
private theorem idx7576_eq (a : Fin 327680) (j : Fin 1) : idx_main_v75 (idx_main_v76 (ix2 a j)) = ix1 j :=
  funext fun b => Fin.ext (by
    match b with
    | ⟨0, _⟩ => have := j.isLt; show 0 = j.val; omega)

/-! ### The state network -/

/-- The state network's first layer (`%46`), row `p`: a contraction of the new hidden state, a bias, the rectifier. -/
theorem ref_z1 (p : Fin 16384) (j : Fin 128) :
    val_main_v46 (F := Ideal) x0 x1 x4 x5 x6 x7 x8 x9 (ix2 p j)
      = z1 (xrow x0 p) (h0row x1 p) (c0row x1 p) (wihK x4) (whhK x5) (bihK x6) (bhhK x7) (w1K x8) (b1K x9) j := by
  rw [val_main_v46_apply, val_main_v45_apply, val_main_v42_apply, val_main_v44_apply, val_main_v43_apply, idx4344_eq,
    val_main_call0_v0_apply, val_main_call0_cst_apply]
  simp only [lidx42_eq, val_main_v41_apply, ridx41_eq, ref_hNew, Ideal.maximumf_def, Ideal.addf_def, Ideal.ofBits_def,
    Ideal.ofBits_zero_f32]
  rfl

/-- The state network's output `z` (`%52`), row `p`. -/
theorem ref_z2 (p : Fin 16384) (j : Fin 128) :
    val_main_v52 (F := Ideal) x0 x1 x4 x5 x6 x7 x8 x9 x10 x11 (ix2 p j)
      = z2 (xrow x0 p) (h0row x1 p) (c0row x1 p) (wihK x4) (whhK x5) (bihK x6) (bhhK x7) (w1K x8) (b1K x9) (w2K x10) (b2K x11) j := by
  rw [val_main_v52_apply, val_main_v51_apply, val_main_v48_apply, val_main_v50_apply, val_main_v49_apply, idx4950_eq,
    val_main_call1_v0_apply, val_main_call1_cst_apply]
  simp only [lidx48_eq, val_main_v47_apply, ridx47_eq, ref_z1, Ideal.maximumf_def, Ideal.addf_def, Ideal.ofBits_def,
    Ideal.ofBits_zero_f32]
  rfl

/-! ### The gather and the join -/

/-- The gather's index operand at action `a` is the wrapped index word. -/
private theorem v58_at (a : Fin 327680) :
    val_main_v58 (F := Ideal) x3 (ix2 a (0 : Fin 1)) = TakeRow.wrapW (x3 (ix1 a)) := by
  rw [val_main_v58_apply, idx58_eq, val_main_v57_apply, val_main_v54_apply, val_main_v56_apply, val_main_v53_apply,
    val_main_v55_apply, val_main_c_apply, val_main_c_5_apply]
  rfl

/-- The gathered rows (`%59`): action `a` reads row `rowOf` of its index word of the state network's output. -/
private theorem v59_at (a : Fin 327680) (k : Fin 128) :
    val_main_v59 (F := Ideal) x0 x1 x3 x4 x5 x6 x7 x8 x9 x10 x11 (ix2 a k)
      = val_main_v52 (F := Ideal) x0 x1 x4 x5 x6 x7 x8 x9 x10 x11 (ix2 (TakeRow.rowOf (x3 (ix1 a))) k) := by
  unfold val_main_v59
  generalize val_main_v52 (F := Ideal) x0 x1 x4 x5 x6 x7 x8 x9 x10 x11 = y
  have hrow : (⟨min (val_main_v58 (F := Ideal) x3 (ix2 a (0 : Fin 1))).toInt.toNat (16384 - 1), by omega⟩ : Fin 16384)
      = TakeRow.rowOf (x3 (ix1 a)) :=
    Fin.ext (congrArg (fun w : BitVec 32 => min w.toInt.toNat (16384 - 1)) (v58_at x3 a))
  exact (LibSG.gather_row_apply (N := 16384) (C := 128) (M := 327680) (w := 32) (by decide)
    gather_S16384x128_S327680x1_S327680x128_1_0_n_n_0_1_1128 rfl rfl rfl rfl rfl rfl rfl y
    (val_main_v58 (F := Ideal) x3) a k).trans (congrArg (fun r => y (ix2 r k)) hrow)

/-- The joined rows (`%60`), columns 0 … 112: the action's own features. -/
private theorem v60_left (a : Fin 327680) (k : Fin 113) (h : k.val < 241) :
    val_main_v60 (F := Ideal) x0 x1 x2 x3 x4 x5 x6 x7 x8 x9 x10 x11 (ix2 a (⟨k.val, h⟩ : Fin 241)) = x2 (ix2 a k) := by
  unfold val_main_v60
  generalize val_main_v59 (F := Ideal) x0 x1 x3 x4 x5 x6 x7 x8 x9 x10 x11 = y
  exact concatenate_pair_apply_left (1 : Fin S327680x241.rank) x2 y concatenates_S327680x113_S327680x128_S327680x241_d1
    (ix2 a (⟨k.val, h⟩ : Fin 241)) rfl (ix2 a k) (fun b => match b with
      | ⟨0, _⟩ => rfl
      | ⟨1, _⟩ => rfl)

/-- The joined rows, columns 113 … 240: the gathered state row. -/
private theorem v60_right (a : Fin 327680) (k : Fin 128) (h : 113 + k.val < 241) :
    val_main_v60 (F := Ideal) x0 x1 x2 x3 x4 x5 x6 x7 x8 x9 x10 x11 (ix2 a (⟨113 + k.val, h⟩ : Fin 241))
      = val_main_v59 (F := Ideal) x0 x1 x3 x4 x5 x6 x7 x8 x9 x10 x11 (ix2 a k) := by
  unfold val_main_v60
  generalize val_main_v59 (F := Ideal) x0 x1 x3 x4 x5 x6 x7 x8 x9 x10 x11 = y
  exact concatenate_pair_apply_right (1 : Fin S327680x241.rank) x2 y concatenates_S327680x113_S327680x128_S327680x241_d1
    (ix2 a (⟨113 + k.val, h⟩ : Fin 241)) rfl rfl (ix2 a k) (fun b hb => match b, hb with
      | ⟨0, _⟩, _ => rfl
      | ⟨1, _⟩, hb => absurd (Fin.ext rfl) hb)
    (by show k.val + 113 = 113 + k.val; omega)

/-! ### The action network -/

/-- The first action layer before its bias (`%62`): the contraction over the 241 joined columns is the contraction of
    the 113 features plus the contraction of the 128 entries of the gathered state row. -/
private theorem ref_pre1 (a : Fin 327680) (j : Fin 64) :
    val_main_v62 (F := Ideal) x0 x1 x2 x3 x4 x5 x6 x7 x8 x9 x10 x11 x12 (ix2 a j)
      = (∑ k, pasrow x2 a k * wasK x12 k j)
        + zproj (xrow x0 (TakeRow.rowOf (x3 (ix1 a)))) (h0row x1 (TakeRow.rowOf (x3 (ix1 a)))) (c0row x1 (TakeRow.rowOf (x3 (ix1 a))))
            (wihK x4) (whhK x5) (bihK x6) (bhhK x7) (w1K x8) (b1K x9) (w2K x10) (b2K x11) (wazK x12) j := by
  unfold zproj
  rw [val_main_v62_apply, sum_split]
  refine congrArg₂ (· + ·) (Finset.sum_congr rfl fun k _ => ?_) (Finset.sum_congr rfl fun k _ => ?_)
  · rw [val_main_v61_apply, ridx61_eq, lidx62_eq, v60_left]
  · rw [val_main_v61_apply, ridx61_eq, lidx62_eq, v60_right, v59_at, ref_z2]

/-- The first action layer (`%66`). -/
private theorem ref_act1 (a : Fin 327680) (j : Fin 64) :
    val_main_v66 (F := Ideal) x0 x1 x2 x3 x4 x5 x6 x7 x8 x9 x10 x11 x12 x13 (ix2 a j)
      = act1 (pasrow x2 a) (wasK x12) (ba1K x13)
          (zproj (xrow x0 (TakeRow.rowOf (x3 (ix1 a)))) (h0row x1 (TakeRow.rowOf (x3 (ix1 a)))) (c0row x1 (TakeRow.rowOf (x3 (ix1 a))))
            (wihK x4) (whhK x5) (bihK x6) (bhhK x7) (w1K x8) (b1K x9) (w2K x10) (b2K x11) (wazK x12)) j := by
  rw [val_main_v66_apply, val_main_v65_apply, ref_pre1, val_main_v64_apply, val_main_v63_apply, idx6364_eq,
    val_main_call2_v0_apply, val_main_call2_cst_apply]
  simp only [Ideal.maximumf_def, Ideal.addf_def, Ideal.ofBits_def, Ideal.ofBits_zero_f32]
  rfl

/-- The second action layer (`%72`). -/
private theorem ref_act2 (a : Fin 327680) (j : Fin 4) :
    val_main_v72 (F := Ideal) x0 x1 x2 x3 x4 x5 x6 x7 x8 x9 x10 x11 x12 x13 x14 x15 (ix2 a j)
      = act2 (pasrow x2 a) (wasK x12) (ba1K x13) (wa2K x14) (ba2K x15)
          (zproj (xrow x0 (TakeRow.rowOf (x3 (ix1 a)))) (h0row x1 (TakeRow.rowOf (x3 (ix1 a)))) (c0row x1 (TakeRow.rowOf (x3 (ix1 a))))
            (wihK x4) (whhK x5) (bihK x6) (bhhK x7) (w1K x8) (b1K x9) (w2K x10) (b2K x11) (wazK x12)) j := by
  rw [val_main_v72_apply, val_main_v71_apply, val_main_v68_apply, val_main_v70_apply, val_main_v69_apply, idx6970_eq,
    val_main_call3_v0_apply, val_main_call3_cst_apply]
  simp only [lidx68_eq, val_main_v67_apply, ridx67_eq, ref_act1, Ideal.maximumf_def, Ideal.addf_def, Ideal.ofBits_def,
    Ideal.ofBits_zero_f32]
  rfl

/-- The first result (`%77`): action `a`'s score, the state row being `rowOf` of the action's index word. -/
theorem ref_score (a : Fin 327680) :
    val_main_v77 (F := Ideal) x0 x1 x2 x3 x4 x5 x6 x7 x8 x9 x10 x11 x12 x13 x14 x15 x16 x17 (ix2 a (0 : Fin 1))
      = score (pasrow x2 a) (wasK x12) (ba1K x13) (wa2K x14) (ba2K x15) (wa3K x16) (ba3K x17)
          (zproj (xrow x0 (TakeRow.rowOf (x3 (ix1 a)))) (h0row x1 (TakeRow.rowOf (x3 (ix1 a)))) (c0row x1 (TakeRow.rowOf (x3 (ix1 a))))
            (wihK x4) (whhK x5) (bihK x6) (bhhK x7) (w1K x8) (b1K x9) (w2K x10) (b2K x11) (wazK x12)) 0 := by
  rw [val_main_v77_apply, val_main_v74_apply, val_main_v76_apply, val_main_v75_apply, idx7576_eq]
  simp only [lidx74_eq, val_main_v73_apply, ridx73_eq, ref_act2, Ideal.addf_def]
  rfl

end Cert.ReferenceIdeal.RefAction

end
-- ==== Proof.Bridge.lean ====
/-
  The two programs compute one function of the arguments.

  KERNEL. The second result's buffer ends at what the first region's write-backs left: row `p` is `hcRow` of row `p`
  of `x` and of the state, with the weights the host transposed. The first result's buffer ends at what the second
  region's write-backs leave: action `a`'s score over its own features and over the projected state row the host's
  `take` gathered for it — for an index word in `-16384 ≤ i < 16384` (the precondition) that is row `rowOf i` of the first
  region's second output, `zproj` of that row.

  REFERENCE. The same row functions read off its host operations: the gather first, then all 241 coordinates
  contracted at once, which is the kernel's two contractions apart (`sum_split`).

  Both are therefore the same `hcRow` / `score` terms of the launch memories, which agree on the arguments.
-/
import proofs.«428442_j20916490732073_1_alg».proof.Proof.CellRegion
import proofs.«428442_j20916490732073_1_alg».proof.Proof.ActionRegion
import proofs.«428442_j20916490732073_1_alg».proof.Proof.FoldCell
import proofs.«428442_j20916490732073_1_alg».proof.Proof.FoldAction
import proofs.«428442_j20916490732073_1_alg».proof.Proof.IndexRange
import proofs.«428442_j20916490732073_1_alg».proof.Proof.RefCell
import proofs.«428442_j20916490732073_1_alg».proof.Proof.RefAction
import proofs.«428442_j20916490732073_1_alg».proof.Proof.TakeRow
import proofs.«428442_j20916490732073_1_alg».proof.Proof.RowSpec
import proofs.«428442_j20916490732073_1_alg».proof.Proof.Gen.ReferenceIdeal.Read
import Idealize.ShloMosaic.Lib.ValueIdx

set_option maxRecDepth 16384

noncomputable section

namespace Cert.Proof.Bridge

open Cert.RowSpec
open Idealize.ShloMosaic Idealize.ShloMosaic.TcCoe Idealize.ShloMosaic.ValueIdx Idealize.SL.Sem

/-! ## The kernel's two results as row functions of its launch memory -/

section kernel

open Cert.KernelIdeal Cert.KernelIdeal.Gen

variable (m : (ℓ : Loc nD τ sig) → Buf (Elt Ideal) ℓ) (ρ : Dev nD → PrngReg)

/-- Row `p` of `x`, of the old hidden state and of the old cell state, and the weights, off the launch memory. -/
abbrev xR (c : Dev nD) (p : Fin 16384) : Fin 1024 → EReal := fun k => m ((c : Thread nD τ).loc main_arg0) (ix2 p k)
abbrev h0R (c : Dev nD) (p : Fin 16384) : Fin 256 → EReal := fun k => m ((c : Thread nD τ).loc main_arg1) (ix2 p (⟨k.val, by have := k.isLt; omega⟩ : Fin 512))
abbrev c0R (c : Dev nD) (p : Fin 16384) : Fin 256 → EReal := fun k => m ((c : Thread nD τ).loc main_arg1) (ix2 p (⟨256 + k.val, by have := k.isLt; omega⟩ : Fin 512))
abbrev wihR (c : Dev nD) : Fin 1024 → Fin 1024 → EReal := fun k j => m ((c : Thread nD τ).loc main_arg4) (ix2 j k)
abbrev whhR (c : Dev nD) : Fin 256 → Fin 1024 → EReal := fun k j => m ((c : Thread nD τ).loc main_arg5) (ix2 j k)
abbrev bihR (c : Dev nD) : Fin 1024 → EReal := fun j => m ((c : Thread nD τ).loc main_arg6) (ix1 j)
abbrev bhhR (c : Dev nD) : Fin 1024 → EReal := fun j => m ((c : Thread nD τ).loc main_arg7) (ix1 j)
abbrev w1R (c : Dev nD) : Fin 256 → Fin 128 → EReal := fun k j => m ((c : Thread nD τ).loc main_arg8) (ix2 j k)
abbrev b1R (c : Dev nD) : Fin 128 → EReal := fun j => m ((c : Thread nD τ).loc main_arg9) (ix1 j)
abbrev w2R (c : Dev nD) : Fin 128 → Fin 128 → EReal := fun k j => m ((c : Thread nD τ).loc main_arg10) (ix2 j k)
abbrev b2R (c : Dev nD) : Fin 128 → EReal := fun j => m ((c : Thread nD τ).loc main_arg11) (ix1 j)
abbrev wasR (c : Dev nD) : Fin 113 → Fin 64 → EReal := fun k j => m ((c : Thread nD τ).loc main_arg12) (ix2 j (⟨k.val, by have := k.isLt; omega⟩ : Fin 241))
abbrev wazR (c : Dev nD) : Fin 128 → Fin 64 → EReal := fun k j => m ((c : Thread nD τ).loc main_arg12) (ix2 j (⟨113 + k.val, by have := k.isLt; omega⟩ : Fin 241))
abbrev ba1R (c : Dev nD) : Fin 64 → EReal := fun j => m ((c : Thread nD τ).loc main_arg13) (ix1 j)
abbrev wa2R (c : Dev nD) : Fin 64 → Fin 4 → EReal := fun k j => m ((c : Thread nD τ).loc main_arg14) (ix2 j k)
abbrev ba2R (c : Dev nD) : Fin 4 → EReal := fun j => m ((c : Thread nD τ).loc main_arg15) (ix1 j)
abbrev wa3R (c : Dev nD) : Fin 4 → Fin 1 → EReal := fun k j => m ((c : Thread nD τ).loc main_arg16) (ix2 j k)
abbrev ba3R (c : Dev nD) : Fin 1 → EReal := fun j => m ((c : Thread nD τ).loc main_arg17) (ix1 j)
abbrev pasR (c : Dev nD) (a : Fin 327680) : Fin 113 → EReal := fun k => m ((c : Thread nD τ).loc main_arg2) (ix2 a k)
/-- The state row action `a` points at. -/
abbrev rowR (c : Dev nD) (a : Fin 327680) : Fin 16384 := TakeRow.rowOf (m ((c : Thread nD τ).loc main_arg3) (ix1 a))

/-- What the first region finds is the launch memory's rows and the transposed weights. -/
theorem cell_rows (c : Dev nD) (p : Fin 16384) :
    CellRegion.xrow (V1 m ρ) c p = xR m c p ∧ CellRegion.h0row (V1 m ρ) c p = h0R m c p ∧ CellRegion.c0row (V1 m ρ) c p = c0R m c p := by
  refine ⟨?_, ?_, ?_⟩
  · funext k; exact congrFun (FoldCell.V1_x m ρ c) _
  · funext k; exact congrFun (FoldCell.V1_state m ρ c) _
  · funext k; exact congrFun (FoldCell.V1_state m ρ c) _

theorem cell_weights (c : Dev nD) :
    CellRegion.wihK (V1 m ρ) c = wihR m c ∧ CellRegion.whhK (V1 m ρ) c = whhR m c ∧ CellRegion.bihK (V1 m ρ) c = bihR m c
      ∧ CellRegion.bhhK (V1 m ρ) c = bhhR m c ∧ CellRegion.w1K (V1 m ρ) c = w1R m c ∧ CellRegion.b1K (V1 m ρ) c = b1R m c
      ∧ CellRegion.w2K (V1 m ρ) c = w2R m c ∧ CellRegion.b2K (V1 m ρ) c = b2R m c ∧ CellRegion.wazK (V1 m ρ) c = wazR m c := by
  refine ⟨?_, ?_, ?_, ?_, ?_, ?_, ?_, ?_, ?_⟩
  · funext k j; exact FoldCell.V1_wih m ρ c k j
  · funext k j; exact FoldCell.V1_whh m ρ c k j
  · funext j; exact FoldCell.V1_bih m ρ c j
  · funext j; exact FoldCell.V1_bhh m ρ c j
  · funext k j; exact FoldCell.V1_w1 m ρ c k j
  · funext j; exact FoldCell.V1_b1 m ρ c j
  · funext k j; exact FoldCell.V1_w2 m ρ c k j
  · funext j; exact FoldCell.V1_b2 m ρ c j
  · funext k j; exact FoldCell.V1_waz m ρ c k j

/-- The kernel's second result, at (row, column). -/
theorem kernel_hc (c : Dev nD) (p : Fin 16384) (q : Fin 512) :
    W4 m ρ c (Proc.devRef .tc main_v17_0) (ix2 p q)
      = hcRow (xR m c p) (h0R m c p) (c0R m c p) (wihR m c) (whhR m c) (bihR m c) (bhhR m c) q := by
  rw [congrFun (FoldAction.W4_hc m ρ c) (ix2 p q), CellRegion.hc_final (V1 m ρ) c p q]
  obtain ⟨e0, e1, e2⟩ := cell_rows m ρ c p
  obtain ⟨f0, f1, f2, f3, -, -, -, -, -⟩ := cell_weights m ρ c
  rw [e0, e1, e2, f0, f1, f2, f3]

/-- The projected state row the first region left, at (row, column). -/
theorem kernel_zp (c : Dev nD) (p : Fin 16384) (j : Fin 64) :
    (dat0 (V1 m ρ) c).arrAt 12 cfg0.N (ix2 p j)
      = zproj (xR m c p) (h0R m c p) (c0R m c p) (wihR m c) (whhR m c) (bihR m c) (bhhR m c)
          (w1R m c) (b1R m c) (w2R m c) (b2R m c) (wazR m c) j := by
  rw [CellRegion.zp_final (V1 m ρ) c p j]
  obtain ⟨e0, e1, e2⟩ := cell_rows m ρ c p
  obtain ⟨f0, f1, f2, f3, f4, f5, f6, f7, f8⟩ := cell_weights m ρ c
  rw [e0, e1, e2, f0, f1, f2, f3, f4, f5, f6, f7, f8]

/-- The kernel's first result at action `a`, for an index word in range. -/
theorem kernel_score (c : Dev nD) (a : Fin 327680)
    (h1 : (-16384 : Int) ≤ (m ((c : Thread nD τ).loc main_arg3) (ix1 a)).toInt)
    (h2 : (m ((c : Thread nD τ).loc main_arg3) (ix1 a)).toInt < 16384) :
    W4 m ρ c (Proc.devRef .tc main_v19) (ix2 a (0 : Fin 1))
      = score (pasR m c a) (wasR m c) (ba1R m c) (wa2R m c) (ba2R m c) (wa3R m c) (ba3R m c)
          (zproj (xR m c (rowR m c a)) (h0R m c (rowR m c a)) (c0R m c (rowR m c a)) (wihR m c) (whhR m c) (bihR m c) (bhhR m c)
            (w1R m c) (b1R m c) (w2R m c) (b2R m c) (wazR m c)) 0 := by
  rw [congrFun (FoldAction.W4_score m ρ c) (ix2 a (0 : Fin 1)), ActionRegion.score_final (V3 m ρ) c a]
  have e0 : ActionRegion.pasrow (V3 m ρ) c a = pasR m c a := by funext k; exact congrFun (FoldAction.V3_pas m ρ c) _
  have e1 : ActionRegion.wasK (V3 m ρ) c = wasR m c := by funext k j; exact FoldAction.V3_was m ρ c k j
  have e2 : ActionRegion.ba1K (V3 m ρ) c = ba1R m c := by funext j; exact FoldAction.V3_ba1 m ρ c j
  have e3 : ActionRegion.wa2K (V3 m ρ) c = wa2R m c := by funext k j; exact FoldAction.V3_wa2 m ρ c k j
  have e4 : ActionRegion.ba2K (V3 m ρ) c = ba2R m c := by funext j; exact FoldAction.V3_ba2 m ρ c j
  have e5 : ActionRegion.wa3K (V3 m ρ) c = wa3R m c := by funext k j; exact FoldAction.V3_wa3 m ρ c k j
  have e6 : ActionRegion.ba3K (V3 m ρ) c = ba3R m c := by funext j; exact FoldAction.V3_ba3 m ρ c j
  have e7 : ActionRegion.zpgrow (V3 m ρ) c a
      = zproj (xR m c (rowR m c a)) (h0R m c (rowR m c a)) (c0R m c (rowR m c a)) (wihR m c) (whhR m c) (bihR m c) (bhhR m c)
          (w1R m c) (b1R m c) (w2R m c) (b2R m c) (wazR m c) := by
    funext j
    exact (FoldAction.V3_zpg m ρ c a j h1 h2).trans (kernel_zp m ρ c (rowR m c a) j)
  rw [e0, e1, e2, e3, e4, e5, e6, e7]

end kernel

/-! ## The reference's two results as the same row functions of ITS launch memory, and the agreement -/

section agree

open Cert.ReferenceIdeal.Read

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The two launch memories agree on the eighteen arguments (the hypothesis of the claim, for one device). -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

/-- The second results agree, entry by entry: both are `hcRow` of the same rows. -/
theorem hc_agree (c : Dev Cert.KernelIdeal.nD) (hag : Agree m m' c) (p : Fin 16384) (q : Fin 512) :
    Cert.ReferenceIdeal.Value.res_main_v78 m' c (ix2 p q)
      = Cert.KernelIdeal.Gen.W4 m ρ c (Proc.devRef .tc Cert.KernelIdeal.main_v17_0) (ix2 p q) := by
  obtain ⟨g0, g1, g2, g3, g4, g5, g6, g7, g8, g9, g10, g11, g12, g13, g14, g15, g16, g17⟩ := hag
  rw [congrFun (val_main_v78_eq m' c) (ix2 p q), g0, g1, g4, g5, g6, g7, kernel_hc m ρ c p q]
  exact Cert.ReferenceIdeal.RefCell.ref_hc _ _ _ _ _ _ p q

/-- The first results agree at every action whose index word is in range. -/
theorem score_agree (c : Dev Cert.KernelIdeal.nD) (hag : Agree m m' c) (a : Fin 327680)
    (h1 : (-16384 : Int) ≤ (m ((c.tc : Thread Cert.KernelIdeal.nD Cert.KernelIdeal.τ).loc Cert.KernelIdeal.main_arg3) (ix1 a)).toInt)
    (h2 : (m ((c.tc : Thread Cert.KernelIdeal.nD Cert.KernelIdeal.τ).loc Cert.KernelIdeal.main_arg3) (ix1 a)).toInt < 16384) :
    Cert.ReferenceIdeal.Value.res_main_v77 m' c (ix2 a (0 : Fin 1))
      = Cert.KernelIdeal.Gen.W4 m ρ c (Proc.devRef .tc Cert.KernelIdeal.main_v19) (ix2 a (0 : Fin 1)) := by
  obtain ⟨g0, g1, g2, g3, g4, g5, g6, g7, g8, g9, g10, g11, g12, g13, g14, g15, g16, g17⟩ := hag
  rw [congrFun (val_main_v77_eq m' c) (ix2 a (0 : Fin 1)), g0, g1, g2, g3, g4, g5, g6, g7, g8, g9, g10, g11, g12, g13, g14, g15, g16, g17,
    kernel_score m ρ c a h1 h2]
  exact Cert.ReferenceIdeal.RefAction.ref_score _ _ _ _ _ _ _ _ _ _ _ _ _ _ _ _ _ _ a

end agree

end Cert.Proof.Bridge

end
-- ==== Proof.lean ====
/-
  An LSTM cell, a two-layer state network and a three-layer action network, as two Pallas kernels with a host gather
  between them, against the plain jnp reference: equal over the extended reals, for finite float arguments and action
  indices in `-16384 ≤ i < 16384` (the range in which indexing the 16384 state rows is defined).

  The three frames: the two kernel programs' are the generated ones; the reference's is its generated run with the
  results dropped. The idealization rewrote nothing, so `preserves` is trivial. The value claim: the kernel program's
  run with its two result buffers named (Proof/RunNamed.lean), the reference's generated run, and the agreement of the
  two results entry by entry (Proof/Bridge.lean): both are the row functions of Proof/RowSpec.lean of the arguments.
  The float arguments' finiteness is not used: every law that joins the two sides (commuting and re-associating a sum,
  splitting a sum over 113 + 128 coordinates) holds on all extended reals.
-/
import proofs.«428442_j20916490732073_1_alg».proof.Defs
import proofs.«428442_j20916490732073_1_alg».proof.Proof.Gen.Kernel
import proofs.«428442_j20916490732073_1_alg».proof.Proof.Gen.Kernel.Skeleton
import proofs.«428442_j20916490732073_1_alg».proof.Proof.Gen.Kernel.Launch
import proofs.«428442_j20916490732073_1_alg».proof.Proof.Gen.Kernel.Points
import proofs.«428442_j20916490732073_1_alg».proof.Proof.Gen.Kernel.Frame
import proofs.«428442_j20916490732073_1_alg».proof.Proof.Gen.KernelIdeal
import proofs.«428442_j20916490732073_1_alg».proof.Proof.Gen.KernelIdeal.Skeleton
import proofs.«428442_j20916490732073_1_alg».proof.Proof.Gen.KernelIdeal.Launch
import proofs.«428442_j20916490732073_1_alg».proof.Proof.Gen.KernelIdeal.Points
import proofs.«428442_j20916490732073_1_alg».proof.Proof.Gen.KernelIdeal.Frame
import proofs.«428442_j20916490732073_1_alg».proof.Proof.Gen.ReferenceIdeal
import proofs.«428442_j20916490732073_1_alg».proof.Proof.Gen.Pre_finite_inputs
import proofs.«428442_j20916490732073_1_alg».proof.Proof.Gen.ReferenceIdeal.Run
import proofs.«428442_j20916490732073_1_alg».proof.Proof.Gen.ReferenceIdeal.Read
import proofs.«428442_j20916490732073_1_alg».proof.Proof.RunNamed
import proofs.«428442_j20916490732073_1_alg».proof.Proof.IndexRange
import proofs.«428442_j20916490732073_1_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the same two results: the kernel program's own final buffers serve as the common values,
    and the reference's results equal them entry by entry (every index of a [327680, 1] array is `(a, 0)`). -/
theorem algebraic : Cert.algebraic_KernelIdeal_ReferenceIdeal := by
  intro m ρ m' ρ' hpre hagree
  refine ⟨fun c => Cert.KernelIdeal.Gen.W4 m ρ c (Proc.devRef .tc Cert.KernelIdeal.main_v19),
    fun c => Cert.KernelIdeal.Gen.W4 m ρ c (Proc.devRef .tc Cert.KernelIdeal.main_v17_0),
    Cert.KernelIdeal.RunNamed.run_named (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · funext i
    obtain ⟨a, z, rfl⟩ : ∃ (a : Fin 327680) (z : Fin 1), i = ix2 a z := ⟨i 0, i 1, eq_ix2 i⟩
    obtain rfl : z = 0 := Subsingleton.elim _ _
    obtain ⟨h1, h2⟩ := Cert.IndexRange.idx_range m hpre c a
    exact Cert.Proof.Bridge.score_agree m ρ m' c (hagree c) a h1 h2
  · funext i
    obtain ⟨p, q, rfl⟩ : ∃ (p : Fin 16384) (q : Fin 512), i = ix2 p q := ⟨i 0, i 1, eq_ix2 i⟩
    exact Cert.Proof.Bridge.hc_agree m ρ m' c (hagree c) p q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
